-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128x128 .f32) (main_arg10 : FVec F S128 .f32) (main_arg11 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x800000 32) (main_arg2 : IVec S50000 32) (main_arg3 : FVec F S128x64 .f32) (main_arg4 : FVec F S128 .f32) (main_arg5 : FVec F S128x64 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S64x128 : Shape := ⟨2, ![64, 128]⟩
abbrev S1x128 : Shape := ⟨2, ![1, 128]⟩
abbrev S50000x128 : Shape := ⟨2, ![50000, 128]⟩
abbrev S2000x64 : Shape := ⟨2, ![2000, 64]⟩
abbrev S2000x1 : Shape := ⟨2, ![2000, 1]⟩
abbrev S2000x128 : Shape := ⟨2, ![2000, 128]⟩
abbrev S800000x128 : Shape := ⟨2, ![800000, 128]⟩
abbrev S64x1 : Shape := ⟨2, ![64, 1]⟩
abbrev S1x64 : Shape := ⟨2, ![1, 64]⟩

abbrev nBuf : Space → Nat
  | .hbm => 86
  | .vmem => 40
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x64, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .bf16⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S64x128, .f32⟩
  | .hbm, ⟨45, _⟩ => ⟨S64x128, .f32⟩
  | .hbm, ⟨46, _⟩ => ⟨S1x128, .f32⟩
  | .hbm, ⟨47, _⟩ => ⟨S50000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S50000x128, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .bf16⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S128x128, .f32⟩
  | .hbm, ⟨81, _⟩ => ⟨S128x128, .f32⟩
  | .hbm, ⟨82, _⟩ => ⟨S1x128, .f32⟩
  | .hbm, ⟨83, _⟩ => ⟨S50000x128, .bf16⟩
  | .hbm, ⟨84, _⟩ => ⟨S50000x1, .i32⟩
  | .hbm, ⟨85, _⟩ => ⟨S64x128, .f32⟩
  | .local _ .vmem, ⟨0, _⟩ => ⟨S2000x64, .f32⟩
  | .local _ .vmem, ⟨1, _⟩ => ⟨S2000x64, .f32⟩
  | .local _ .vmem, ⟨2, _⟩ => ⟨S2000x64, .bf16⟩
  | .local _ .vmem, ⟨3, _⟩ => ⟨S2000x64, .bf16⟩
  | .local _ .vmem, ⟨4, _⟩ => ⟨S2000x1, .f32⟩
  | .local _ .vmem, ⟨5, _⟩ => ⟨S2000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x128, .bf16⟩
  | .local _ .vmem, ⟨14, _⟩ => ⟨S2000x128, .bf16⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .bf16⟩
  | .local _ .vmem, ⟨21, _⟩ => ⟨S2000x128, .bf16⟩
  | .local _ .vmem, ⟨22, _⟩ => ⟨S2000x128, .f32⟩
  | .local _ .vmem, ⟨23, _⟩ => ⟨S2000x128, .f32⟩
  | .local _ .vmem, ⟨24, _⟩ => ⟨S2000x128, .bf16⟩
  | .local _ .vmem, ⟨25, _⟩ => ⟨S2000x128, .bf16⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S2000x128, .bf16⟩
  | .local _ .vmem, ⟨32, _⟩ => ⟨S2000x128, .bf16⟩
  | .local _ .vmem, ⟨33, _⟩ => ⟨S2000x128, .bf16⟩
  | .local _ .vmem, ⟨34, _⟩ => ⟨S2000x128, .bf16⟩
  | .local _ .vmem, ⟨35, _⟩ => ⟨S2000x1, .i32⟩
  | .local _ .vmem, ⟨36, _⟩ => ⟨S2000x1, .i32⟩
  | .local _ .vmem, ⟨37, _⟩ => ⟨S64x128, .f32⟩
  | .local _ .vmem, ⟨38, _⟩ => ⟨S64x128, .f32⟩
  | .local _ .vmem, ⟨39, _⟩ => ⟨S64x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_scratch0 : Ref sig .tc := ⟨.vmem, 38, rfl⟩
abbrev cc3_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  transposes_S128x64_S64x128_1_0 : S128x64.Transposes [1, 0] S64x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  transposes_S128x128_S128x128_1_0 : S128x128.Transposes [1, 0] S128x128
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x64_d1_w32 : S1x64.Iotas .tc 32 [1]
  broadcasts_S1x64_S2000x64 : S1x64.Broadcasts S2000x64
  natLt_1_32 : 1 < 32
  broadcasts_S64x1_S64x128 : S64x1.Broadcasts S64x128
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  dot_S2000x64_S2000x1_S64x1_0_0_1_1_n_n_wf : DotDims.WF S2000x64 S2000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .bf16 = 32 ∨ (Rect.block (s := S50000x64) S2000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .bf16 = 32 ∨ (Rect.block (s := S50000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩
abbrev S64 : Shape := ⟨1, ![64]⟩
abbrev S64x1 : Shape := ⟨2, ![64, 1]⟩

abbrev nBuf : Space → Nat
  | .hbm => 137
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S128x64, .f32⟩
  | 4 => ⟨S128, .f32⟩
  | 5 => ⟨S128x64, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x64, .f32⟩
  | 40 => ⟨S50000x64, .f32⟩
  | 41 => ⟨S64x128, .f32⟩
  | 42 => ⟨S50000x128, .f32⟩
  | 43 => ⟨S1x128, .f32⟩
  | 44 => ⟨S50000x128, .f32⟩
  | 45 => ⟨S50000x128, .f32⟩
  | 46 => ⟨S64x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S128x128, .f32⟩
  | 78 => ⟨S50000x128, .f32⟩
  | 79 => ⟨S1x128, .f32⟩
  | 80 => ⟨S50000x128, .f32⟩
  | 81 => ⟨S50000x128, .f32⟩
  | 82 => ⟨S128x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S128x128, .f32⟩
  | 114 => ⟨S50000x128, .f32⟩
  | 115 => ⟨S1x128, .f32⟩
  | 116 => ⟨S50000x128, .f32⟩
  | 117 => ⟨S50000x128, .f32⟩
  | 118 => ⟨S128x128, .f32⟩
  | 119 => ⟨S50000x128, .f32⟩
  | 120 => ⟨S50000x128, .f32⟩
  | 121 => ⟨S_, .f32⟩
  | 122 => ⟨S64x128, .f32⟩
  | 123 => ⟨S50000x1, .i32⟩
  | 124 => ⟨S64x128, .f32⟩
  | 125 => ⟨S_, .f32⟩
  | 126 => ⟨S50000, .f32⟩
  | 127 => ⟨S_, .f32⟩
  | _ => ⟨S50000x64, .f32⟩

abbrev hbmTy0_1 (i : Nat) : BufTy := match i % 128 with
  | 0 => ⟨S64, .f32⟩
  | 1 => ⟨S50000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.C0.lean ====
/- Region 0 of the program (the first combine step): for any contents V of the unscoped buffers at the region's
   entry, what each grid point's block of every window is, what the body leaves in the output block, and the
   proof data and body obligation the region's launch takes. -/
import proofs.«420400_j39874476376561_3_alg».proof.Proof.Gen.Kernel.Launch
import proofs.«420400_j39874476376561_3_alg».proof.Proof.Gen.Kernel.Skeleton
import proofs.«420400_j39874476376561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_in0 : Rect S2000x64 := Rect.unit (s := S2000x64) ![0, 0] S2000x64.size inb_S2000x64_S2000x64_0_0
abbrev r0_in2 : Rect S2000x1 := Rect.unit (s := S2000x1) ![0, 0] S2000x1.size inb_S2000x1_S2000x1_0_0
abbrev r0_w : Rect S64x128 := Rect.unit (s := S64x128) ![0, 0] S64x128.size inb_S64x128_S64x128_0_0
abbrev r0_b : Rect S1x128 := Rect.unit (s := S1x128) ![0, 0] S1x128.size inb_S1x128_S1x128_0_0
abbrev r0_out : Rect S2000x128 := Rect.unit (s := S2000x128) ![0, 0] S2000x128.size inb_S2000x128_S2000x128_0_0

/-- The output block after the body, from the six input blocks: one store of the whole block. -/
def out0_6 (x0 : Vec F S2000x64 .f32) (x1 : Vec F S2000x64 .bf16) (x2 : Vec F S2000x1 .f32) (x3 : Vec F S64x128 .f32) (x4 : Vec F S64x128 .f32) (x5 : Vec F S1x128 .f32) : Vec F S2000x128 .bf16 :=
  View.canon [⟨r0_out, k0_pay1 (View.ld x0 r0_in0) (View.ld x2 r0_in2) (View.ld x1 r0_in0) (View.ld x3 r0_w) (View.ld x4 r0_w) (View.ld x5 r0_b)⟩]

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## What the body leaves in the input windows: each block, in place -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-! ## What the body finds in the input windows

An input window's staging buffer holds its block at every point. Where the window is fetched, the fetch put
it there. Where it is not (the two weight matrices and the bias row after the first point), the block index
has not moved since the previous point and the body left the block as it found it, so the previous point's
block, which is this point's, is still there. No window is cut and none is idle at any point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The single store covers the output block -/

theorem cover0_6 (p : Vec F S2000x128 .bf16) (y : S2000x128.Idx) :
    ∃ pc ∈ ([⟨r0_out, p⟩] : List (View.Piece (Elt F) S2000x128 .bf16)), y ∈ pc.1.set :=
  View.cover_of_tiled [⟨r0_out, p⟩] S2000x128.size (by rfl) y

/-! ## The body's triple

Six whole-block loads (the aggregate, the inverse count, the root features, the two weight matrices, the bias
row), a load of the output block whose value is not used, and one store of the whole output block: the inputs
stay as they were, and the output block reads as the store's payload whatever it held before. -/

set_option maxHeartbeats 4000000 in
theorem sound_kernel0 (c : Dev nD) (E : Set ℕ) (i : grid0.Coords)
    (arg1 : Memref sig .tc .vmem S2000x64 .f32) (harg1 : arg1.IsWhole)
    (arg2 : Memref sig .tc .vmem S2000x64 .bf16) (harg2 : arg2.IsWhole)
    (arg3 : Memref sig .tc .vmem S2000x1 .f32) (harg3 : arg3.IsWhole)
    (arg4 : Memref sig .tc .vmem S64x128 .f32) (harg4 : arg4.IsWhole)
    (arg5 : Memref sig .tc .vmem S64x128 .f32) (harg5 : arg5.IsWhole)
    (arg6 : Memref sig .tc .vmem S1x128 .f32) (harg6 : arg6.IsWhole)
    (arg7 : Memref sig .tc .vmem S2000x128 .bf16) (harg7 : arg7.IsWhole)
    (x0 : Vec F S2000x64 .f32) (x1 : Vec F S2000x64 .bf16) (x2 : Vec F S2000x1 .f32)
    (x3 : Vec F S64x128 .f32) (x4 : Vec F S64x128 .f32) (x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation at a generic point -/

/-- What the body is called with at point t: the invariant, the core's debt, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at point t. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six input buffers hold their blocks, so the kernel's triple applies; the
    invariant and the core's debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.C1.lean ====
/- Region 1 of the program (combine step 2): for any contents V of the unscoped buffers at the region's
   entry, what each grid point's block of every window is, what the body leaves in the output block, and the
   proof data and body obligation the region's launch takes. -/
import proofs.«420400_j39874476376561_3_alg».proof.Proof.Gen.Kernel.Launch
import proofs.«420400_j39874476376561_3_alg».proof.Proof.Gen.Kernel.Skeleton
import proofs.«420400_j39874476376561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S2000x128 := Rect.unit (s := S2000x128) ![0, 0] S2000x128.size inb_S2000x128_S2000x128_0_0
abbrev r1_in2 : Rect S2000x1 := Rect.unit (s := S2000x1) ![0, 0] S2000x1.size inb_S2000x1_S2000x1_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_out : Rect S2000x128 := Rect.unit (s := S2000x128) ![0, 0] S2000x128.size inb_S2000x128_S2000x128_0_0

/-- The output block after the body, from the six input blocks: one store of the whole block. -/
def out1_6 (x0 : Vec F S2000x128 .f32) (x1 : Vec F S2000x128 .bf16) (x2 : Vec F S2000x1 .f32) (x3 : Vec F S128x128 .f32) (x4 : Vec F S128x128 .f32) (x5 : Vec F S1x128 .f32) : Vec F S2000x128 .bf16 :=
  View.canon [⟨r1_out, k1_pay1 (View.ld x0 r1_in0) (View.ld x2 r1_in2) (View.ld x1 r1_in0) (View.ld x3 r1_w) (View.ld x4 r1_w) (View.ld x5 r1_b)⟩]

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## What the body leaves in the input windows: each block, in place -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! ## What the body finds in the input windows

An input window's staging buffer holds its block at every point. Where the window is fetched, the fetch put
it there. Where it is not (the two weight matrices and the bias row after the first point), the block index
has not moved since the previous point and the body left the block as it found it, so the previous point's
block, which is this point's, is still there. No window is cut and none is idle at any point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The single store covers the output block -/

theorem cover1_6 (p : Vec F S2000x128 .bf16) (y : S2000x128.Idx) :
    ∃ pc ∈ ([⟨r1_out, p⟩] : List (View.Piece (Elt F) S2000x128 .bf16)), y ∈ pc.1.set :=
  View.cover_of_tiled [⟨r1_out, p⟩] S2000x128.size (by rfl) y

/-! ## The body's triple

Six whole-block loads (the aggregate, the inverse count, the root features, the two weight matrices, the bias
row), a load of the output block whose value is not used, and one store of the whole output block: the inputs
stay as they were, and the output block reads as the store's payload whatever it held before. -/

set_option maxHeartbeats 4000000 in
theorem sound_kernel1 (c : Dev nD) (E : Set ℕ) (i : grid1.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32)
    (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The body obligation at a generic point -/

/-- What the body is called with at point t: the invariant, the core's debt, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body returns at point t. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six input buffers hold their blocks, so the kernel's triple applies; the
    invariant and the core's debt are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.C2.lean ====
/- Region 2 of the program (combine step 3): for any contents V of the unscoped buffers at the region's
   entry, what each grid point's block of every window is, what the body leaves in the output block, and the
   proof data and body obligation the region's launch takes. -/
import proofs.«420400_j39874476376561_3_alg».proof.Proof.Gen.Kernel.Launch
import proofs.«420400_j39874476376561_3_alg».proof.Proof.Gen.Kernel.Skeleton
import proofs.«420400_j39874476376561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_in0 : Rect S2000x128 := Rect.unit (s := S2000x128) ![0, 0] S2000x128.size inb_S2000x128_S2000x128_0_0
abbrev r2_in2 : Rect S2000x1 := Rect.unit (s := S2000x1) ![0, 0] S2000x1.size inb_S2000x1_S2000x1_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_out : Rect S2000x128 := Rect.unit (s := S2000x128) ![0, 0] S2000x128.size inb_S2000x128_S2000x128_0_0

/-- The output block after the body, from the six input blocks: one store of the whole block. -/
def out2_6 (x0 : Vec F S2000x128 .f32) (x1 : Vec F S2000x128 .bf16) (x2 : Vec F S2000x1 .f32) (x3 : Vec F S128x128 .f32) (x4 : Vec F S128x128 .f32) (x5 : Vec F S1x128 .f32) : Vec F S2000x128 .bf16 :=
  View.canon [⟨r2_out, k2_pay1 (View.ld x0 r2_in0) (View.ld x2 r2_in2) (View.ld x1 r2_in0) (View.ld x3 r2_w) (View.ld x4 r2_w) (View.ld x5 r2_b)⟩]

/-- The proof data of region 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-! ## What the body leaves in the input windows: each block, in place -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-! ## What the body finds in the input windows

An input window's staging buffer holds its block at every point. Where the window is fetched, the fetch put
it there. Where it is not (the two weight matrices and the bias row after the first point), the block index
has not moved since the previous point and the body left the block as it found it, so the previous point's
block, which is this point's, is still there. No window is cut and none is idle at any point. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-! ## The single store covers the output block -/

theorem cover2_6 (p : Vec F S2000x128 .bf16) (y : S2000x128.Idx) :
    ∃ pc ∈ ([⟨r2_out, p⟩] : List (View.Piece (Elt F) S2000x128 .bf16)), y ∈ pc.1.set :=
  View.cover_of_tiled [⟨r2_out, p⟩] S2000x128.size (by rfl) y

/-! ## The body's triple

Six whole-block loads (the aggregate, the inverse count, the root features, the two weight matrices, the bias
row), a load of the output block whose value is not used, and one store of the whole output block: the inputs
stay as they were, and the output block reads as the store's payload whatever it held before. -/

set_option maxHeartbeats 4000000 in
theorem sound_kernel2 (c : Dev nD) (E : Set ℕ) (i : grid2.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32)
    (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The body obligation at a generic point -/

/-- What the body is called with at point t: the invariant, the core's debt, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body returns at point t. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the six input buffers hold their blocks, so the kernel's triple applies; the
    invariant and the core's debt are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.PoolRuns.lean ====
/- Region 3 of the program (the mean pool): the kernel body's two branch conditions in closed form over the grid,
   where its windows are idle or live, and the names of the staging memrefs the body is called with. -/
import proofs.«420400_j39874476376561_3_alg».proof.Proof.Gen.Kernel.Launch
import proofs.«420400_j39874476376561_3_alg».proof.Proof.Gen.Kernel.Skeleton
import proofs.«420400_j39874476376561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pool kernel's branch conditions, in closed form over its grid -/

/-- The first conditional's test (is this the first grid point?), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional's test (is this the last grid point?). -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

/-- The two inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the output is idle: nothing is stored into it there, -/
theorem idleAt3_2 : ∀ t : Fin cfg3.N, ¬cond3_1 (grid3.coords t) → cfg3.idle 2 (grid3.coords t) = true := by decide +kernel
/-- and its block is not written back there. -/
theorem noFlush3_2 : ∀ t : Fin cfg3.N, ¬cond3_1 (grid3.coords t) → (cfg3.win 2).flush t = false := by decide +kernel
/-- At the last point it is live. -/
theorem liveAt3_2 : ∀ t : Fin cfg3.N, cond3_1 (grid3.coords t) → cfg3.idle 2 (grid3.coords t) = false := by decide +kernel

/-- Each window's current staging memref at point t, spelled as the pipeline passes it, and its wholeness. -/
abbrev ms3_0 (t : Fin cfg3.N) : Memref sig .tc .vmem S2000x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)

/-- The whole-buffer rectangle's offsets are zeros. -/
theorem hz3 : (![0, 0] : Fin 2 → Nat) = fun _ => 0 := funext fun a => by fin_cases a <;> rfl

end Cert.Kernel.Hand

end
-- ==== Proof.K.PoolA.lean ====
/- Region 3 of the program (the mean pool): the kernel body's run at the FIRST grid point, where it zeroes its two
   accumulators before adding the point's contribution. -/
import proofs.«420400_j39874476376561_3_alg».proof.Proof.K.PoolRuns
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point (first conditional taken, second not): whatever the two scratch buffers held, the body zeroes
    them and then accumulates, so they end at this point's contribution over the zeros. -/
theorem run3_A (c : Dev nD) (i : grid3.Coords) (arg1 : Memref sig .tc .vmem S2000x128 .bf16) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : cond3_0 i) (hc1 : ¬cond3_1 i)
    (x0 : Vec F S2000x128 .bf16) (b0 : Vec F S2000x1 .i32) (x3 : Vec F S64x128 .f32) (s : Vec F S64x128 .f32) (k : Vec F S64x1 .f32)
    (E : Set ℕ) (K : PUnit → sProp 𝕄) :
    iprop(owns (c : Thread nD τ) arg1 fullShare x0 ∗ owns (c : Thread nD τ) arg2 fullShare b0 ∗ owns (c : Thread nD τ) arg3 fullShare x3
        ∗ owns (c : Thread nD τ) arg4 fullShare s ∗ owns (c : Thread nD τ) arg5 fullShare k
        ∗ (iprop(owns (c : Thread nD τ) arg1 fullShare x0 ∗ owns (c : Thread nD τ) arg2 fullShare b0 ∗ owns (c : Thread nD τ) arg3 fullShare x3
            ∗ owns (c : Thread nD τ) arg4 fullShare (k3_pay4 x0 b0 (k3_pay1 (F := F))) ∗ owns (c : Thread nD τ) arg5 fullShare (k3_pay5 b0 (k3_pay2 (F := F)))) -∗ K ⟨⟩))
      ⊢ wp frame (wpE (defs₀ (F := F)) Variants.none c none) E (cc3__pool_kernel i arg1 harg1 arg2 harg2 arg3 harg3 arg4 harg4 arg5 harg5) K := by
  rw [cc3__pool_kernel_eq_skeleton]; unfold cc3__pool_kernel_skel
  unfold owns
  iintro ⟨⟨%f0, %hf0, H0⟩, ⟨%f1, %hf1, H1⟩, ⟨%f2, %hf2, H2⟩, ⟨%f3, %hf3, HS0⟩, ⟨%f4, %hf4, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_cons_self, (by first | exact View.mem_set_unit_zero hz3 inb_S64x128_S64x128_0_0 y | exact View.mem_set_unit_zero hz3 inb_S64x1_S64x1_0_0 y)⟩), View.canon_cons_unit_zero hz3]
    sl_unfold_run_names
    simp only [View.readAt_eq_ld, hf0, hf1, View.ld_unit_zero (S := S2000x128) hz3, View.ld_unit_zero (S := S2000x1) hz3, View.readCov_unit_zero (S := S64x128) _ hz3]
  iexists _; isplitr
  swap; · iexact HS1
  ipureintro
  rw [View.read_writes_eq_canon _ _ _ (fun y => ⟨_, List.mem_cons_self, (by first | exact View.mem_set_unit_zero hz3 inb_S64x128_S64x128_0_0 y | exact View.mem_set_unit_zero hz3 inb_S64x1_S64x1_0_0 y)⟩), View.canon_cons_unit_zero hz3]
  sl_unfold_run_names
  simp only [View.readAt_eq_ld, hf1, View.ld_unit_zero (S := S2000x1) hz3, View.readCov_unit_zero (S := S64x1) _ hz3]

end Cert.Kernel.Hand

end
-- ==== Proof.K.PoolB.lean ====
/- Region 3 of the program (the mean pool): the kernel body's run at a MIDDLE grid point, where it only adds the
   point's contribution onto its two accumulators. -/
import proofs.«420400_j39874476376561_3_alg».proof.Proof.K.PoolA
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point (neither conditional taken): from the two input blocks, the output buffer at anything and the two
    scratch buffers at the accumulators s, k, the body runs to the continuation with the inputs and the output as
    they were and the scratch buffers at the accumulators with this point's contribution added. -/
theorem run3_B (c : Dev nD) (i : grid3.Coords) (arg1 : Memref sig .tc .vmem S2000x128 .bf16) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond3_0 i) (hc1 : ¬cond3_1 i)
    (x0 : Vec F S2000x128 .bf16) (b0 : Vec F S2000x1 .i32) (x3 : Vec F S64x128 .f32) (s : Vec F S64x128 .f32) (k : Vec F S64x1 .f32)
    (E : Set ℕ) (K : PUnit → sProp 𝕄) :
    iprop(owns (c : Thread nD τ) arg1 fullShare x0 ∗ owns (c : Thread nD τ) arg2 fullShare b0 ∗ owns (c : Thread nD τ) arg3 fullShare x3
        ∗ owns (c : Thread nD τ) arg4 fullShare s ∗ owns (c : Thread nD τ) arg5 fullShare k
        ∗ (iprop(owns (c : Thread nD τ) arg1 fullShare x0 ∗ owns (c : Thread nD τ) arg2 fullShare b0 ∗ owns (c : Thread nD τ) arg3 fullShare x3
            ∗ owns (c : Thread nD τ) arg4 fullShare (k3_pay4 x0 b0 s) ∗ owns (c : Thread nD τ) arg5 fullShare (k3_pay5 b0 k)) -∗ K ⟨⟩))
      ⊢ wp frame (wpE (defs₀ (F := F)) Variants.none c none) E (cc3__pool_kernel i arg1 harg1 arg2 harg2 arg3 harg3 arg4 harg4 arg5 harg5) K := by
  rw [cc3__pool_kernel_eq_skeleton]; unfold cc3__pool_kernel_skel
  unfold owns
  iintro ⟨⟨%f0, %hf0, H0⟩, ⟨%f1, %hf1, H1⟩, ⟨%f2, %hf2, H2⟩, ⟨%f3, %hf3, HS0⟩, ⟨%f4, %hf4, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
    simp only [View.readAt_eq_ld, hf0, hf1, hf3, View.ld_unit_zero (S := S2000x128) hz3, View.ld_unit_zero (S := S2000x1) hz3, View.ld_unit_zero (S := S64x128) hz3]
  iexists _; isplitr
  swap; · iexact HS1
  ipureintro
  rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
  simp only [View.readAt_eq_ld, hf1, hf4, View.ld_unit_zero (S := S2000x1) hz3, View.ld_unit_zero (S := S64x1) hz3]

end Cert.Kernel.Hand

end
-- ==== Proof.K.PoolC.lean ====
/- Region 3 of the program (the mean pool): the kernel body's run at the LAST grid point, where after adding the
   point's contribution it stores the quotient of its two accumulators into the output block. -/
import proofs.«420400_j39874476376561_3_alg».proof.Proof.K.PoolB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point (second conditional taken, first not): the scratch buffers end at the accumulators with this
    point's contribution added, and the output buffer, whatever it held, at the quotient of those two. -/
theorem run3_C (c : Dev nD) (i : grid3.Coords) (arg1 : Memref sig .tc .vmem S2000x128 .bf16) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond3_0 i) (hc1 : cond3_1 i)
    (x0 : Vec F S2000x128 .bf16) (b0 : Vec F S2000x1 .i32) (x3 : Vec F S64x128 .f32) (s : Vec F S64x128 .f32) (k : Vec F S64x1 .f32)
    (E : Set ℕ) (K : PUnit → sProp 𝕄) :
    iprop(owns (c : Thread nD τ) arg1 fullShare x0 ∗ owns (c : Thread nD τ) arg2 fullShare b0 ∗ owns (c : Thread nD τ) arg3 fullShare x3
        ∗ owns (c : Thread nD τ) arg4 fullShare s ∗ owns (c : Thread nD τ) arg5 fullShare k
        ∗ (iprop(owns (c : Thread nD τ) arg1 fullShare x0 ∗ owns (c : Thread nD τ) arg2 fullShare b0
            ∗ owns (c : Thread nD τ) arg3 fullShare (k3_pay6 (k3_pay4 x0 b0 s) (k3_pay5 b0 k))
            ∗ owns (c : Thread nD τ) arg4 fullShare (k3_pay4 x0 b0 s) ∗ owns (c : Thread nD τ) arg5 fullShare (k3_pay5 b0 k)) -∗ K ⟨⟩))
      ⊢ wp frame (wpE (defs₀ (F := F)) Variants.none c none) E (cc3__pool_kernel i arg1 harg1 arg2 harg2 arg3 harg3 arg4 harg4 arg5 harg5) K := by
  rw [cc3__pool_kernel_eq_skeleton]; unfold cc3__pool_kernel_skel
  unfold owns
  iintro ⟨⟨%f0, %hf0, H0⟩, ⟨%f1, %hf1, H1⟩, ⟨%f2, %hf2, H2⟩, ⟨%f3, %hf3, HS0⟩, ⟨%f4, %hf4, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
    simp only [View.readCov_unit_zero (S := S64x128) _ hz3, View.readCov_unit_zero (S := S64x1) _ hz3, View.readAt_eq_ld, hf0, hf1, hf3, hf4, View.ld_unit_zero (S := S2000x128) hz3, View.ld_unit_zero (S := S2000x1) hz3, View.ld_unit_zero (S := S64x128) hz3, View.ld_unit_zero (S := S64x1) hz3]
  isplitl [HS0]
  · iexists _; isplitr
    swap; · iexact HS0
    ipureintro
    sl_unfold_run_names
    rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
    simp only [View.readAt_eq_ld, hf0, hf1, hf3, View.ld_unit_zero (S := S2000x128) hz3, View.ld_unit_zero (S := S2000x1) hz3, View.ld_unit_zero (S := S64x128) hz3]
  iexists _; isplitr
  swap; · iexact HS1
  ipureintro
  sl_unfold_run_names
  rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
  simp only [View.readAt_eq_ld, hf1, hf4, View.ld_unit_zero (S := S2000x1) hz3, View.ld_unit_zero (S := S64x1) hz3]

end Cert.Kernel.Hand

end
-- ==== Proof.K.Pool.lean ====
/- Region 3 of the program (the mean pool): for any contents V of the unscoped buffers at the region's entry, the
   two accumulators the kernel carries in its scratch buffers from grid point to grid point — the per-graph sums
   and the per-graph counts —, the output block, and the proof data and body obligation the region's launch takes. -/
import proofs.«420400_j39874476376561_3_alg».proof.Proof.Gen.Kernel.Launch
import proofs.«420400_j39874476376561_3_alg».proof.Proof.Gen.Kernel.Skeleton
import proofs.«420400_j39874476376561_3_alg».proof.Proof.Gen.Kernel.Points
import proofs.«420400_j39874476376561_3_alg».proof.Proof.K.PoolC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem lt24 : 24 < cfg3.N := by have : cfg3.N = 25 := N_3; omega

/-- The two accumulators after the body at point n: at the first point the zeroed buffers plus that point's
    contribution, afterwards what the point before left plus this point's contribution. -/
def acc3 (c : Dev nD) : (n : ℕ) → n < cfg3.N → Vec F S64x128 .f32 × Vec F S64x1 .f32
  | 0, hn => (k3_pay4 (iblk3 V c 0 ⟨0, hn⟩) (iblk3 V c 1 ⟨0, hn⟩) (k3_pay1 (F := F)),
      k3_pay5 (iblk3 V c 1 ⟨0, hn⟩) (k3_pay2 (F := F)))
  | n + 1, hn => (k3_pay4 (iblk3 V c 0 ⟨n + 1, hn⟩) (iblk3 V c 1 ⟨n + 1, hn⟩) (acc3 c n (Nat.lt_of_succ_lt hn)).1,
      k3_pay5 (iblk3 V c 1 ⟨n + 1, hn⟩) (acc3 c n (Nat.lt_of_succ_lt hn)).2)

theorem acc3_zero (c : Dev nD) (hn : 0 < cfg3.N) : acc3 V c 0 hn
    = (k3_pay4 (iblk3 V c 0 ⟨0, hn⟩) (iblk3 V c 1 ⟨0, hn⟩) (k3_pay1 (F := F)), k3_pay5 (iblk3 V c 1 ⟨0, hn⟩) (k3_pay2 (F := F))) := rfl

theorem acc3_succ (c : Dev nD) (n : ℕ) (hn : n + 1 < cfg3.N) : acc3 V c (n + 1) hn
    = (k3_pay4 (iblk3 V c 0 ⟨n + 1, hn⟩) (iblk3 V c 1 ⟨n + 1, hn⟩) (acc3 V c n (Nat.lt_of_succ_lt hn)).1,
       k3_pay5 (iblk3 V c 1 ⟨n + 1, hn⟩) (acc3 V c n (Nat.lt_of_succ_lt hn)).2) := rfl

/-- The quotient the last point stores: the sums over the counts clamped below at one. -/
def out3 (c : Dev nD) : Vec F S64x128 .f32 := k3_pay6 (acc3 V c 24 lt24).1 (acc3 V c 24 lt24).2

abbrev scM3_0 : Memref sig .tc .vmem S64x128 .f32 := Memref.whole cc3_scratch0
abbrev scM3_1 : Memref sig .tc .vmem S64x1 .f32 := Memref.whole cc3_scratch1

/-- The region's invariant before point n: at the start the scoped buffers at anything; afterwards the two
    scratch buffers at the accumulators the point before left, the other scoped buffers at anything. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]
      ∗ (∃ r, prngReg c r))

/-- The proof data of region 3 on core c. The output window's entry is the quotient of the accumulators at
    every point; only the last point's is ever written back. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay6 (acc3 V c t.val t.isLt).1 (acc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t
    = k3_pay6 (acc3 V c t.val t.isLt).1 (acc3 V c t.val t.isLt).2 := by dsimp only [dat3]

theorem after3_2_last (c : Dev nD) : (dat3 V c).after 2 ⟨24, lt24⟩ = out3 V c := by dsimp only [dat3, out3]

/-! ## The invariant, position by position -/

theorem PhiS3_zero (c : Dev nD) (n : ℕ) (h : n ≤ cfg3.N) (hz : n = 0) : PhiS3 V c n h = Pipeline.ΦA spec3 c := by
  subst hz; rfl

/-- After point n (before point n + 1): the two scratch buffers at that point's accumulators. -/
theorem PhiS3_succ (c : Dev nD) (n : ℕ) (hn : n < cfg3.N) :
    PhiS3 V c (n + 1) hn = iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]
      ∗ (∃ r, prngReg c r)) := rfl

/-- Before a point that is not the first: the two scratch buffers at what the point before left. -/
theorem PhiS3_pos (c : Dev nD) (n : ℕ) (h : n ≤ cfg3.N) (hz : n ≠ 0) :
    PhiS3 V c n h = iprop(iprop(owns (c : Thread nD τ) scM3_0 fullShare (acc3 V c (n - 1) (by omega)).1 ∗ owns (c : Thread nD τ) scM3_1 fullShare (acc3 V c (n - 1) (by omega)).2)
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

/-- The launch's invariant with the two scratch operands as memrefs owned at some contents, the other scoped
    buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-! ## The accumulators restated at a grid point -/

theorem acc3_first_fst (c : Dev nD) (t : Fin cfg3.N) (hz : t.val = 0) :
    (acc3 V c t.val t.isLt).1 = k3_pay4 (iblk3 V c 0 t) (iblk3 V c 1 t) (k3_pay1 (F := F)) := by
  obtain ⟨n, hn⟩ := t
  cases n with
  | zero => rfl
  | succ n => exact absurd hz (Nat.succ_ne_zero n)

theorem acc3_first_snd (c : Dev nD) (t : Fin cfg3.N) (hz : t.val = 0) :
    (acc3 V c t.val t.isLt).2 = k3_pay5 (iblk3 V c 1 t) (k3_pay2 (F := F)) := by
  obtain ⟨n, hn⟩ := t
  cases n with
  | zero => rfl
  | succ n => exact absurd hz (Nat.succ_ne_zero n)

theorem acc3_pos_fst (c : Dev nD) (t : Fin cfg3.N) (hz : t.val ≠ 0) :
    (acc3 V c t.val t.isLt).1 = k3_pay4 (iblk3 V c 0 t) (iblk3 V c 1 t) (acc3 V c (t.val - 1) (Nat.lt_of_le_of_lt (Nat.sub_le _ _) t.isLt)).1 := by
  obtain ⟨n, hn⟩ := t
  cases n with
  | zero => exact absurd rfl hz
  | succ n => rfl

theorem acc3_pos_snd (c : Dev nD) (t : Fin cfg3.N) (hz : t.val ≠ 0) :
    (acc3 V c t.val t.isLt).2 = k3_pay5 (iblk3 V c 1 t) (acc3 V c (t.val - 1) (Nat.lt_of_le_of_lt (Nat.sub_le _ _) t.isLt)).2 := by
  obtain ⟨n, hn⟩ := t
  cases n with
  | zero => exact absurd rfl hz
  | succ n => rfl

/-! ## The proof data at a point -/

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' buffers hold their blocks; the closed forms of the two conditions say which of
    the three cases the point is in; the invariant hands the body the two scratch buffers at the accumulators the point
    before left (at anything at the first point) and takes them back at this point's accumulators; away from the last
    point the output's buffer goes through untouched, at the last point it is left at the quotient. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases hz : t.val = 0
  · have hc0 : cond3_0 (grid3.coords t) := (hcond3_0 t).mpr hz
    have hc1 : ¬cond3_1 (grid3.coords t) := fun h => by have := (hcond3_1 t).mp h; omega
    rw [Dat.leavesExact_idle (dat3 V c) 2 t (idleAt3_2 t hc1) (noFlush3_2 t hc1)]
    rw [acc3_first_fst V c t hz, acc3_first_snd V c t hz]
    rw [PhiS3_castSucc V c t, PhiS3_zero V c _ _ hz, PhiA3_eq]
    iintro ⟨⟨⟨⟨⟨%s0, HS0⟩, ⟨%k0, HS1⟩⟩, HR⟩, Hg⟩, Ho, ⟨%d0, H0⟩, ⟨%d1, H1⟩, ⟨%d2, H2⟩⟩
    iapply (run3_A c (grid3.coords t) _ _ _ _ _ _ _ _ _ _ hc0 hc1 (iblk3 V c 0 t) (iblk3 V c 1 t) _ _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1]
      · isplitl [HS0]; · iexact HS0
        iexact HS1
      isplitl [HR]; · iexact HR
      iexact Hg
    isplitl [Ho]; · iexact Ho
    isplitl [H0]; · iexact H0
    isplitl [H1]; · iexact H1
    iexists _; iexact H2
  · have hc0 : ¬cond3_0 (grid3.coords t) := fun h => hz ((hcond3_0 t).mp h)
    rw [acc3_pos_fst V c t hz, acc3_pos_snd V c t hz]
    rw [PhiS3_castSucc V c t, PhiS3_pos V c _ _ hz]
    by_cases h24 : t.val = 24
    · have hc1 : cond3_1 (grid3.coords t) := (hcond3_1 t).mpr h24
      rw [show (dat3 V c).leavesExact 2 t = owns (c : Thread nD τ) (ms3_2 t) fullShare ((dat3 V c).after 2 t) from by
        unfold Dat.leavesExact; rw [liveAt3_2 t hc1], after3_2]
      rw [acc3_pos_fst V c t hz, acc3_pos_snd V c t hz]
      iintro ⟨⟨⟨HS0, HS1⟩, HR, Hg⟩, Ho, ⟨%d0, H0⟩, ⟨%d1, H1⟩, ⟨%d2, H2⟩⟩
      iapply (run3_C c (grid3.coords t) _ _ _ _ _ _ _ _ _ _ hc0 hc1 (iblk3 V c 0 t) (iblk3 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      iexact H2
    · have hc1 : ¬cond3_1 (grid3.coords t) := fun h => h24 ((hcond3_1 t).mp h)
      rw [Dat.leavesExact_idle (dat3 V c) 2 t (idleAt3_2 t hc1) (noFlush3_2 t hc1)]
      iintro ⟨⟨⟨HS0, HS1⟩, HR, Hg⟩, Ho, ⟨%d0, H0⟩, ⟨%d1, H1⟩, ⟨%d2, H2⟩⟩
      iapply (run3_B c (grid3.coords t) _ _ _ _ _ _ _ _ _ _ hc0 hc1 (iblk3 V c 0 t) (iblk3 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's form back: the accumulators' contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HS1⟩, HR, Hg⟩
  isplitl [HS0 HS1 HR]
  · isplitl [HS0 HS1]
    · isplitl [HS0]
      · iexists _; iexact HS0
      · iexists _; iexact HS1
    · iexact HR
  · iexact Hg

/-- After the last point the invariant gives the launch's form back: the accumulators' contents are forgotten. -/
theorem hout3 (c : Dev nD) : (dat3 V c).Φ (Fin.last cfg3.N) ⊢ (Pipeline.ΦA spec3 c : sProp 𝕄) :=
  Phi_out3 V c _ (by rw [Fin.val_last]; have : cfg3.N = 25 := N_3; omega)

end Cert.Kernel.Hand

end
-- ==== Proof.K.Run.lean ====
/- The run of the whole program: the contents of each core's unscoped buffers when each of the four kernel regions
   is entered (the launch contents carried through the host stretches, each region's output array replaced by what
   the region's write-backs leave), the four regions as segments between those contents, and the launch: every
   weakly fair execution terminates with the last region's output array at what the pool leaves and every argument
   array as launched. -/
import proofs.«420400_j39874476376561_3_alg».proof.Proof.K.C0
import proofs.«420400_j39874476376561_3_alg».proof.Proof.K.C1
import proofs.«420400_j39874476376561_3_alg».proof.Proof.K.C2
import proofs.«420400_j39874476376561_3_alg».proof.Proof.K.Pool
import proofs.«420400_j39874476376561_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' ends -/

/-- A valuation of core c's buffers read at the TensorCore's references: the form the regions' proof data take. -/
abbrev atTc (W : Dev nD → Valuation τ sig (Elt F)) : (c : Dev nD) → (b : Ref sig .tc) → Buf (Elt F) ((c : Thread nD τ).loc b) :=
  fun c b => W c b

/-- Core c's unscoped buffers when region 0 is entered: the launch contents after the first host stretch. -/
abbrev E0 (c : Dev nD) : Valuation τ sig (Elt F) := V1 m c
/-- What region 0's write-backs leave in its output array. -/
def o0 (c : Dev nD) : Buf (Elt F) ((c : Thread nD τ).loc main_v28) := (dat0 (atTc (E0 m)) c).arrAt 6 cfg0.N
/-- Core c's unscoped buffers when region 0 is left: as entered, but for the output array. -/
abbrev X0 (c : Dev nD) : Valuation τ sig (Elt F) := Function.update (E0 m c) main_v28 (o0 m c)
/-- Core c's unscoped buffers when region 1 is entered. -/
abbrev E1 (c : Dev nD) : Valuation τ sig (Elt F) := StableHlo.after hostOps1 (X0 m c)
/-- What region 1's write-backs leave in its output array. -/
def o1 (c : Dev nD) : Buf (Elt F) ((c : Thread nD τ).loc main_v43) := (dat1 (atTc (E1 m)) c).arrAt 6 cfg1.N
abbrev X1 (c : Dev nD) : Valuation τ sig (Elt F) := Function.update (E1 m c) main_v43 (o1 m c)
/-- Core c's unscoped buffers when region 2 is entered. -/
abbrev E2 (c : Dev nD) : Valuation τ sig (Elt F) := StableHlo.after hostOps2 (X1 m c)
/-- What region 2's write-backs leave in its output array. -/
def o2 (c : Dev nD) : Buf (Elt F) ((c : Thread nD τ).loc main_v58) := (dat2 (atTc (E2 m)) c).arrAt 6 cfg2.N
abbrev X2 (c : Dev nD) : Valuation τ sig (Elt F) := Function.update (E2 m c) main_v58 (o2 m c)
/-- Core c's unscoped buffers when region 3 is entered. -/
abbrev E3 (c : Dev nD) : Valuation τ sig (Elt F) := StableHlo.after hostOps3 (X2 m c)
/-- What region 3's one write-back leaves in its output array. -/
def o3 (c : Dev nD) : Buf (Elt F) ((c : Thread nD τ).loc main_v60) := (dat3 (atTc (E3 m)) c).arrAt 2 cfg3.N
abbrev X3 (c : Dev nD) : Valuation τ sig (Elt F) := Function.update (E3 m c) main_v60 (o3 m c)

/-- What each region leaves in the one array it may change, as the chain of contents above names it; any other
    reading is never taken. -/
def outs : Outs (F := F) := fun _ r c =>
  if h : r = main_v28 then h ▸ o0 m c
  else if h : r = main_v43 then h ▸ o1 m c
  else if h : r = main_v58 then h ▸ o2 m c
  else if h : r = main_v60 then h ▸ o3 m c
  else m ((c : Thread nD τ).loc r)

theorem outs_v28 (n : ℕ) (c : Dev nD) : outs m n main_v28 c = o0 m c := by
  unfold outs; rw [dif_pos rfl]
theorem outs_v43 (n : ℕ) (c : Dev nD) : outs m n main_v43 c = o1 m c := by
  unfold outs; rw [dif_neg (by decide), dif_pos rfl]
theorem outs_v58 (n : ℕ) (c : Dev nD) : outs m n main_v58 c = o2 m c := by
  unfold outs; rw [dif_neg (by decide), dif_neg (by decide), dif_pos rfl]
theorem outs_v60 (n : ℕ) (c : Dev nD) : outs m n main_v60 c = o3 m c := by
  unfold outs; rw [dif_neg (by decide), dif_neg (by decide), dif_neg (by decide), dif_pos rfl]

/-- The contents between the program's items, written over the unknowns, are the chain above at these outputs. -/
theorem V1_eq (c : Dev nD) : V1 m c = E0 m c := rfl
theorem V2_eq (c : Dev nD) : V2 m (outs m) c = X0 m c := by
  show Function.update (V1 m c) main_v28 (outs m 2 main_v28 c) = _
  rw [outs_v28]
theorem V3_eq (c : Dev nD) : V3 m (outs m) c = E1 m c := by
  show StableHlo.after hostOps1 (V2 m (outs m) c) = _
  rw [V2_eq]
theorem V4_eq (c : Dev nD) : V4 m (outs m) c = X1 m c := by
  show Function.update (V3 m (outs m) c) main_v43 (outs m 4 main_v43 c) = _
  rw [outs_v43, V3_eq]
theorem V5_eq (c : Dev nD) : V5 m (outs m) c = E2 m c := by
  show StableHlo.after hostOps2 (V4 m (outs m) c) = _
  rw [V4_eq]
theorem V6_eq (c : Dev nD) : V6 m (outs m) c = X2 m c := by
  show Function.update (V5 m (outs m) c) main_v58 (outs m 6 main_v58 c) = _
  rw [outs_v58, V5_eq]
theorem V7_eq (c : Dev nD) : V7 m (outs m) c = E3 m c := by
  show StableHlo.after hostOps3 (V6 m (outs m) c) = _
  rw [V6_eq]
theorem V8_eq (c : Dev nD) : V8 m (outs m) c = X3 m c := by
  show Function.update (V7 m (outs m) c) main_v60 (outs m 8 main_v60 c) = _
  rw [outs_v60, V7_eq]

/-- The last region's output array at the end of the program. -/
theorem V8_main_v60 (c : Dev nD) : V8 m (outs m) c main_v60 = o3 m c := by
  rw [V8_eq]; exact Function.update_self _ _ _

/-! ## Readings through the chain

Which buffers each entry and exit contents hold unchanged from an earlier one: no host stretch writes an argument
or a buffer an earlier stretch made, and a region changes its output array only. -/

theorem E0_of (c : Dev nD) (r : Ref sig .tc) (h : r ∉ hostOps0_W) : E0 m c r = m ((c : Thread nD τ).loc r) :=
  (V1_of m c r h).trans rfl
theorem E1_of (c : Dev nD) (r : Ref sig .tc) (h : r ∉ hostOps1_W) : E1 m c r = X0 m c r :=
  StableHlo.after_of_writes_sub hostOps1 _ hostOps1_writes h
theorem E2_of (c : Dev nD) (r : Ref sig .tc) (h : r ∉ hostOps2_W) : E2 m c r = X1 m c r :=
  StableHlo.after_of_writes_sub hostOps2 _ hostOps2_writes h
theorem E3_of (c : Dev nD) (r : Ref sig .tc) (h : r ∉ hostOps3_W) : E3 m c r = X2 m c r :=
  StableHlo.after_of_writes_sub hostOps3 _ hostOps3_writes h
theorem X0_of_ne (c : Dev nD) (b : Ref sig .tc) (h : b ≠ main_v28) : X0 m c b = E0 m c b :=
  Function.update_of_ne (StableHlo.devRef_ne_of_ne h) _ _
theorem X1_of_ne (c : Dev nD) (b : Ref sig .tc) (h : b ≠ main_v43) : X1 m c b = E1 m c b :=
  Function.update_of_ne (StableHlo.devRef_ne_of_ne h) _ _
theorem X2_of_ne (c : Dev nD) (b : Ref sig .tc) (h : b ≠ main_v58) : X2 m c b = E2 m c b :=
  Function.update_of_ne (StableHlo.devRef_ne_of_ne h) _ _
theorem X3_of_ne (c : Dev nD) (b : Ref sig .tc) (h : b ≠ main_v60) : X3 m c b = E3 m c b :=
  Function.update_of_ne (StableHlo.devRef_ne_of_ne h) _ _
theorem X0_v28 (c : Dev nD) : X0 m c main_v28 = o0 m c := Function.update_self _ _ _
theorem X1_v43 (c : Dev nD) : X1 m c main_v43 = o1 m c := Function.update_self _ _ _
theorem X2_v58 (c : Dev nD) : X2 m c main_v58 = o2 m c := Function.update_self _ _ _
theorem X3_v60 (c : Dev nD) : X3 m c main_v60 = o3 m c := Function.update_self _ _ _

theorem E0_arg0 (c : Dev nD) : E0 m c main_arg0 = m ((c : Thread nD τ).loc main_arg0) := E0_of m c _ (by decide)
theorem E0_arg1 (c : Dev nD) : E0 m c main_arg1 = m ((c : Thread nD τ).loc main_arg1) := E0_of m c _ (by decide)
theorem E0_arg3 (c : Dev nD) : E0 m c main_arg3 = m ((c : Thread nD τ).loc main_arg3) := E0_of m c _ (by decide)
theorem E0_arg4 (c : Dev nD) : E0 m c main_arg4 = m ((c : Thread nD τ).loc main_arg4) := E0_of m c _ (by decide)
theorem E0_arg5 (c : Dev nD) : E0 m c main_arg5 = m ((c : Thread nD τ).loc main_arg5) := E0_of m c _ (by decide)
theorem E1_arg6 (c : Dev nD) : E1 m c main_arg6 = m ((c : Thread nD τ).loc main_arg6) :=
  (E1_of m c _ (by decide)).trans <| (X0_of_ne m c _ (by decide)).trans <| E0_of m c _ (by decide)
theorem E1_arg7 (c : Dev nD) : E1 m c main_arg7 = m ((c : Thread nD τ).loc main_arg7) :=
  (E1_of m c _ (by decide)).trans <| (X0_of_ne m c _ (by decide)).trans <| E0_of m c _ (by decide)
theorem E1_arg8 (c : Dev nD) : E1 m c main_arg8 = m ((c : Thread nD τ).loc main_arg8) :=
  (E1_of m c _ (by decide)).trans <| (X0_of_ne m c _ (by decide)).trans <| E0_of m c _ (by decide)
theorem E2_arg9 (c : Dev nD) : E2 m c main_arg9 = m ((c : Thread nD τ).loc main_arg9) :=
  (E2_of m c _ (by decide)).trans <| (X1_of_ne m c _ (by decide)).trans <| (E1_of m c _ (by decide)).trans <|
    (X0_of_ne m c _ (by decide)).trans <| E0_of m c _ (by decide)
theorem E2_arg10 (c : Dev nD) : E2 m c main_arg10 = m ((c : Thread nD τ).loc main_arg10) :=
  (E2_of m c _ (by decide)).trans <| (X1_of_ne m c _ (by decide)).trans <| (E1_of m c _ (by decide)).trans <|
    (X0_of_ne m c _ (by decide)).trans <| E0_of m c _ (by decide)
theorem E2_arg11 (c : Dev nD) : E2 m c main_arg11 = m ((c : Thread nD τ).loc main_arg11) :=
  (E2_of m c _ (by decide)).trans <| (X1_of_ne m c _ (by decide)).trans <| (E1_of m c _ (by decide)).trans <|
    (X0_of_ne m c _ (by decide)).trans <| E0_of m c _ (by decide)
theorem X2_arg2 (c : Dev nD) : X2 m c main_arg2 = m ((c : Thread nD τ).loc main_arg2) :=
  (X2_of_ne m c _ (by decide)).trans <| (E2_of m c _ (by decide)).trans <| (X1_of_ne m c _ (by decide)).trans <|
    (E1_of m c _ (by decide)).trans <| (X0_of_ne m c _ (by decide)).trans <| E0_of m c _ (by decide)
theorem X0_v12 (c : Dev nD) : X0 m c main_v12 = E0 m c main_v12 := X0_of_ne m c _ (by decide)
theorem E1_v12 (c : Dev nD) : E1 m c main_v12 = X0 m c main_v12 := E1_of m c _ (by decide)
theorem X1_v12 (c : Dev nD) : X1 m c main_v12 = E1 m c main_v12 := X1_of_ne m c _ (by decide)
theorem E2_v12 (c : Dev nD) : E2 m c main_v12 = X1 m c main_v12 := E2_of m c _ (by decide)
theorem X2_v12 (c : Dev nD) : X2 m c main_v12 = E2 m c main_v12 := X2_of_ne m c _ (by decide)
theorem X0_v1 (c : Dev nD) : X0 m c main_v1 = E0 m c main_v1 := X0_of_ne m c _ (by decide)
theorem E1_v1 (c : Dev nD) : E1 m c main_v1 = X0 m c main_v1 := E1_of m c _ (by decide)
theorem X1_v1 (c : Dev nD) : X1 m c main_v1 = E1 m c main_v1 := X1_of_ne m c _ (by decide)
theorem E2_v1 (c : Dev nD) : E2 m c main_v1 = X1 m c main_v1 := E2_of m c _ (by decide)
theorem X2_v1 (c : Dev nD) : X2 m c main_v1 = E2 m c main_v1 := X2_of_ne m c _ (by decide)
theorem X0_v3 (c : Dev nD) : X0 m c main_v3 = E0 m c main_v3 := X0_of_ne m c _ (by decide)
theorem E1_v3 (c : Dev nD) : E1 m c main_v3 = X0 m c main_v3 := E1_of m c _ (by decide)
theorem X1_v3 (c : Dev nD) : X1 m c main_v3 = E1 m c main_v3 := X1_of_ne m c _ (by decide)
theorem E2_v3 (c : Dev nD) : E2 m c main_v3 = X1 m c main_v3 := E2_of m c _ (by decide)
theorem X2_v3 (c : Dev nD) : X2 m c main_v3 = E2 m c main_v3 := X2_of_ne m c _ (by decide)
theorem E1_v28 (c : Dev nD) : E1 m c main_v28 = X0 m c main_v28 := E1_of m c _ (by decide)
theorem E2_v43 (c : Dev nD) : E2 m c main_v43 = X1 m c main_v43 := E2_of m c _ (by decide)
theorem E3_v58 (c : Dev nD) : E3 m c main_v58 = X2 m c main_v58 := E3_of m c _ (by decide)

/-! ## The regions, entered from any contents

Each region is first described at arbitrary entry contents: what it leaves is the entry contents with the output
array replaced by what the write-backs leave there. The program's run then reads these at the chain above. -/

section AnyContents

variable (W0 W1 W2 W3 : Dev nD → Valuation τ sig (Elt F))

/-- Every region's proof data, each at its own entry contents. -/
def pdatsAt : (p : Fin 4) → (c : Dev nD) → Dat τ (Elt F) Unit ℕ (UR sig nD τ) ℕ (Pipeline.pin (pcfgs (F := F)) adm p) c
  | ⟨0, _⟩ => fun c => dat0 (atTc W0) c
  | ⟨1, _⟩ => fun c => dat1 (atTc W1) c
  | ⟨2, _⟩ => fun c => dat2 (atTc W2) c
  | ⟨3, _⟩ => fun c => dat3 (atTc W3) c

abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every item: the core's generator register at some state and its dues,
    at nothing. -/
abbrev Rr (c : Dev nD) : sProp 𝕄 := iprop((∃ r, prngReg c r) ∗ ∃ W, owes (c : Thread nD τ) (0 : CellTallies nD τ sig Unit) W)

/-- What region 0 leaves from entry contents W: W but for the output array, which holds what the write-backs leave. -/
abbrev exit0 (W : Dev nD → Valuation τ sig (Elt F)) (c : Dev nD) : Valuation τ sig (Elt F) :=
  Function.update (W c) main_v28 ((dat0 (atTc W) c).arrAt 6 cfg0.N)
theorem exit0_of_ne (W : Dev nD → Valuation τ sig (Elt F)) (c : Dev nD) (b : Ref sig .tc) (h : b ≠ main_v28) :
    exit0 W c b = W c b :=
  Function.update_of_ne (StableHlo.devRef_ne_of_ne h) _ _
theorem exit0_out (W : Dev nD → Valuation τ sig (Elt F)) (c : Dev nD) :
    exit0 W c main_v28 = (dat0 (atTc W) c).arrAt 6 cfg0.N := Function.update_self _ _ _

set_option maxHeartbeats 1000000 in
/-- At region 0's exit each of its arrays holds what the write-backs leave (an input's array is never written), -/
theorem hF0 (W : Dev nD → Valuation τ sig (Elt F)) (c : Dev nD) (w : Fin cfg0.W) :
    (dat0 (atTc W) c).arrAt w cfg0.N = atTc (exit0 W) c (Pipeline.arrRef spec0 w) := by
  fin_cases w
  · exact (((dat0 (atTc W) c).arrAt_in 0 rfl _).trans (A_eq0 (atTc W) c 0)).trans (exit0_of_ne W c (Pipeline.arrRef spec0 0) (by decide)).symm
  · exact (((dat0 (atTc W) c).arrAt_in 1 rfl _).trans (A_eq0 (atTc W) c 1)).trans (exit0_of_ne W c (Pipeline.arrRef spec0 1) (by decide)).symm
  · exact (((dat0 (atTc W) c).arrAt_in 2 rfl _).trans (A_eq0 (atTc W) c 2)).trans (exit0_of_ne W c (Pipeline.arrRef spec0 2) (by decide)).symm
  · exact (((dat0 (atTc W) c).arrAt_in 3 rfl _).trans (A_eq0 (atTc W) c 3)).trans (exit0_of_ne W c (Pipeline.arrRef spec0 3) (by decide)).symm
  · exact (((dat0 (atTc W) c).arrAt_in 4 rfl _).trans (A_eq0 (atTc W) c 4)).trans (exit0_of_ne W c (Pipeline.arrRef spec0 4) (by decide)).symm
  · exact (((dat0 (atTc W) c).arrAt_in 5 rfl _).trans (A_eq0 (atTc W) c 5)).trans (exit0_of_ne W c (Pipeline.arrRef spec0 5) (by decide)).symm
  · exact (exit0_out W c).symm
/-- and every other buffer what it held at the entry. -/
theorem hrest0 (W : Dev nD → Valuation τ sig (Elt F)) (c : Dev nD) :
    ∀ b, b ∉ Finset.univ.image (Pipeline.arrRef spec0) → atTc (exit0 W) c b = atTc W c b :=
  fun b hb => exit0_of_ne W c b fun h => hb (h ▸ Finset.mem_image.mpr ⟨6, Finset.mem_univ _, rfl⟩)

set_option backward.isDefEq.respectTransparency.types false in
/-- Region 0 over the thread state: entered with every unscoped buffer at the entry contents, left with the output
    array at what the write-backs leave and every other buffer as entered. The region's arrays are split out of the
    unscoped buffers at the entry and put back at the exit; the generator register goes into the region's invariant
    and comes back; nothing is owed; the kernel has no semaphore of its own. -/
def regAt0 : Pipeline.RegionSeg (pcfgs (F := F)) adm (pdatsAt W0 W1 W2 W3) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (atTc W0) c).loose
  hwaits := Pipeline.hwaits_of_owed_zero _ _ _ _ L₀ lv₀ 0 fun _ _ => rfl
  pre c := iprop(StableHlo.held (c : Thread nD τ) (Pipeline.ucRefs τ sig) (W0 c) ∗ Rr c)
  post c := iprop(StableHlo.held (c : Thread nD τ) (Pipeline.ucRefs τ sig) (exit0 W0 c) ∗ Rr c)
  X c := iprop(∃ r, prngReg c r)
  Y c := iprop(∃ r, prngReg c r)
  Z c := Pipeline.unscopedRest (Ix := Unit) (Name := ℕ) (U := UR sig nD τ) (Lvl := ℕ) spec0 c (atTc W0 c)
  hentry c := by
    rw [Pipeline.ownSems0_none]
    have hsplit := Pipeline.arrays_of_unscopedBufs (p := 0) (pcfgs (F := F)) adm (pdatsAt W0 W1 W2 W3) launch0.win launch0.arr_whole c
      ((pdatsAt W0 W1 W2 W3 0 c).share_full fun _ => rfl) (atTc W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsAt W0 W1 W2 W3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsAt W0 W1 W2 W3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsAt W0 W1 W2 W3) ((pdatsAt W0 W1 W2 W3 0 c).share_full fun _ => rfl)
      (atTc W0 c) (atTc (exit0 W0) c) ((pdatsAt W0 W1 W2 W3 0 c).arrAt · cfg0.N) (hF0 W0 c) (hrest0 W0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 1 leaves from entry contents W: W but for the output array, which holds what the write-backs leave. -/
abbrev exit1 (W : Dev nD → Valuation τ sig (Elt F)) (c : Dev nD) : Valuation τ sig (Elt F) :=
  Function.update (W c) main_v43 ((dat1 (atTc W) c).arrAt 6 cfg1.N)
theorem exit1_of_ne (W : Dev nD → Valuation τ sig (Elt F)) (c : Dev nD) (b : Ref sig .tc) (h : b ≠ main_v43) :
    exit1 W c b = W c b :=
  Function.update_of_ne (StableHlo.devRef_ne_of_ne h) _ _
theorem exit1_out (W : Dev nD → Valuation τ sig (Elt F)) (c : Dev nD) :
    exit1 W c main_v43 = (dat1 (atTc W) c).arrAt 6 cfg1.N := Function.update_self _ _ _

set_option maxHeartbeats 1000000 in
/-- At region 1's exit each of its arrays holds what the write-backs leave (an input's array is never written), -/
theorem hF1 (W : Dev nD → Valuation τ sig (Elt F)) (c : Dev nD) (w : Fin cfg1.W) :
    (dat1 (atTc W) c).arrAt w cfg1.N = atTc (exit1 W) c (Pipeline.arrRef spec1 w) := by
  fin_cases w
  · exact (((dat1 (atTc W) c).arrAt_in 0 rfl _).trans (A_eq1 (atTc W) c 0)).trans (exit1_of_ne W c (Pipeline.arrRef spec1 0) (by decide)).symm
  · exact (((dat1 (atTc W) c).arrAt_in 1 rfl _).trans (A_eq1 (atTc W) c 1)).trans (exit1_of_ne W c (Pipeline.arrRef spec1 1) (by decide)).symm
  · exact (((dat1 (atTc W) c).arrAt_in 2 rfl _).trans (A_eq1 (atTc W) c 2)).trans (exit1_of_ne W c (Pipeline.arrRef spec1 2) (by decide)).symm
  · exact (((dat1 (atTc W) c).arrAt_in 3 rfl _).trans (A_eq1 (atTc W) c 3)).trans (exit1_of_ne W c (Pipeline.arrRef spec1 3) (by decide)).symm
  · exact (((dat1 (atTc W) c).arrAt_in 4 rfl _).trans (A_eq1 (atTc W) c 4)).trans (exit1_of_ne W c (Pipeline.arrRef spec1 4) (by decide)).symm
  · exact (((dat1 (atTc W) c).arrAt_in 5 rfl _).trans (A_eq1 (atTc W) c 5)).trans (exit1_of_ne W c (Pipeline.arrRef spec1 5) (by decide)).symm
  · exact (exit1_out W c).symm
/-- and every other buffer what it held at the entry. -/
theorem hrest1 (W : Dev nD → Valuation τ sig (Elt F)) (c : Dev nD) :
    ∀ b, b ∉ Finset.univ.image (Pipeline.arrRef spec1) → atTc (exit1 W) c b = atTc W c b :=
  fun b hb => exit1_of_ne W c b fun h => hb (h ▸ Finset.mem_image.mpr ⟨6, Finset.mem_univ _, rfl⟩)

set_option backward.isDefEq.respectTransparency.types false in
/-- Region 1 over the thread state: entered with every unscoped buffer at the entry contents, left with the output
    array at what the write-backs leave and every other buffer as entered. The region's arrays are split out of the
    unscoped buffers at the entry and put back at the exit; the generator register goes into the region's invariant
    and comes back; nothing is owed; the kernel has no semaphore of its own. -/
def regAt1 : Pipeline.RegionSeg (pcfgs (F := F)) adm (pdatsAt W0 W1 W2 W3) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (atTc W1) c).loose
  hwaits := Pipeline.hwaits_of_owed_zero _ _ _ _ L₀ lv₀ 1 fun _ _ => rfl
  pre c := iprop(StableHlo.held (c : Thread nD τ) (Pipeline.ucRefs τ sig) (W1 c) ∗ Rr c)
  post c := iprop(StableHlo.held (c : Thread nD τ) (Pipeline.ucRefs τ sig) (exit1 W1 c) ∗ Rr c)
  X c := iprop(∃ r, prngReg c r)
  Y c := iprop(∃ r, prngReg c r)
  Z c := Pipeline.unscopedRest (Ix := Unit) (Name := ℕ) (U := UR sig nD τ) (Lvl := ℕ) spec1 c (atTc W1 c)
  hentry c := by
    rw [Pipeline.ownSems0_none]
    have hsplit := Pipeline.arrays_of_unscopedBufs (p := 1) (pcfgs (F := F)) adm (pdatsAt W0 W1 W2 W3) launch1.win launch1.arr_whole c
      ((pdatsAt W0 W1 W2 W3 1 c).share_full fun _ => rfl) (atTc W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsAt W0 W1 W2 W3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsAt W0 W1 W2 W3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsAt W0 W1 W2 W3) ((pdatsAt W0 W1 W2 W3 1 c).share_full fun _ => rfl)
      (atTc W1 c) (atTc (exit1 W1) c) ((pdatsAt W0 W1 W2 W3 1 c).arrAt · cfg1.N) (hF1 W1 c) (hrest1 W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 2 leaves from entry contents W: W but for the output array, which holds what the write-backs leave. -/
abbrev exit2 (W : Dev nD → Valuation τ sig (Elt F)) (c : Dev nD) : Valuation τ sig (Elt F) :=
  Function.update (W c) main_v58 ((dat2 (atTc W) c).arrAt 6 cfg2.N)
theorem exit2_of_ne (W : Dev nD → Valuation τ sig (Elt F)) (c : Dev nD) (b : Ref sig .tc) (h : b ≠ main_v58) :
    exit2 W c b = W c b :=
  Function.update_of_ne (StableHlo.devRef_ne_of_ne h) _ _
theorem exit2_out (W : Dev nD → Valuation τ sig (Elt F)) (c : Dev nD) :
    exit2 W c main_v58 = (dat2 (atTc W) c).arrAt 6 cfg2.N := Function.update_self _ _ _

set_option maxHeartbeats 1000000 in
/-- At region 2's exit each of its arrays holds what the write-backs leave (an input's array is never written), -/
theorem hF2 (W : Dev nD → Valuation τ sig (Elt F)) (c : Dev nD) (w : Fin cfg2.W) :
    (dat2 (atTc W) c).arrAt w cfg2.N = atTc (exit2 W) c (Pipeline.arrRef spec2 w) := by
  fin_cases w
  · exact (((dat2 (atTc W) c).arrAt_in 0 rfl _).trans (A_eq2 (atTc W) c 0)).trans (exit2_of_ne W c (Pipeline.arrRef spec2 0) (by decide)).symm
  · exact (((dat2 (atTc W) c).arrAt_in 1 rfl _).trans (A_eq2 (atTc W) c 1)).trans (exit2_of_ne W c (Pipeline.arrRef spec2 1) (by decide)).symm
  · exact (((dat2 (atTc W) c).arrAt_in 2 rfl _).trans (A_eq2 (atTc W) c 2)).trans (exit2_of_ne W c (Pipeline.arrRef spec2 2) (by decide)).symm
  · exact (((dat2 (atTc W) c).arrAt_in 3 rfl _).trans (A_eq2 (atTc W) c 3)).trans (exit2_of_ne W c (Pipeline.arrRef spec2 3) (by decide)).symm
  · exact (((dat2 (atTc W) c).arrAt_in 4 rfl _).trans (A_eq2 (atTc W) c 4)).trans (exit2_of_ne W c (Pipeline.arrRef spec2 4) (by decide)).symm
  · exact (((dat2 (atTc W) c).arrAt_in 5 rfl _).trans (A_eq2 (atTc W) c 5)).trans (exit2_of_ne W c (Pipeline.arrRef spec2 5) (by decide)).symm
  · exact (exit2_out W c).symm
/-- and every other buffer what it held at the entry. -/
theorem hrest2 (W : Dev nD → Valuation τ sig (Elt F)) (c : Dev nD) :
    ∀ b, b ∉ Finset.univ.image (Pipeline.arrRef spec2) → atTc (exit2 W) c b = atTc W c b :=
  fun b hb => exit2_of_ne W c b fun h => hb (h ▸ Finset.mem_image.mpr ⟨6, Finset.mem_univ _, rfl⟩)

set_option backward.isDefEq.respectTransparency.types false in
/-- Region 2 over the thread state: entered with every unscoped buffer at the entry contents, left with the output
    array at what the write-backs leave and every other buffer as entered. The region's arrays are split out of the
    unscoped buffers at the entry and put back at the exit; the generator register goes into the region's invariant
    and comes back; nothing is owed; the kernel has no semaphore of its own. -/
def regAt2 : Pipeline.RegionSeg (pcfgs (F := F)) adm (pdatsAt W0 W1 W2 W3) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (atTc W2) c).loose
  hwaits := Pipeline.hwaits_of_owed_zero _ _ _ _ L₀ lv₀ 2 fun _ _ => rfl
  pre c := iprop(StableHlo.held (c : Thread nD τ) (Pipeline.ucRefs τ sig) (W2 c) ∗ Rr c)
  post c := iprop(StableHlo.held (c : Thread nD τ) (Pipeline.ucRefs τ sig) (exit2 W2 c) ∗ Rr c)
  X c := iprop(∃ r, prngReg c r)
  Y c := iprop(∃ r, prngReg c r)
  Z c := Pipeline.unscopedRest (Ix := Unit) (Name := ℕ) (U := UR sig nD τ) (Lvl := ℕ) spec2 c (atTc W2 c)
  hentry c := by
    rw [Pipeline.ownSems0_none]
    have hsplit := Pipeline.arrays_of_unscopedBufs (p := 2) (pcfgs (F := F)) adm (pdatsAt W0 W1 W2 W3) launch2.win launch2.arr_whole c
      ((pdatsAt W0 W1 W2 W3 2 c).share_full fun _ => rfl) (atTc W2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsAt W0 W1 W2 W3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsAt W0 W1 W2 W3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsAt W0 W1 W2 W3) ((pdatsAt W0 W1 W2 W3 2 c).share_full fun _ => rfl)
      (atTc W2 c) (atTc (exit2 W2) c) ((pdatsAt W0 W1 W2 W3 2 c).arrAt · cfg2.N) (hF2 W2 c) (hrest2 W2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 3 leaves from entry contents W: W but for the output array, which holds what the write-backs leave. -/
abbrev exit3 (W : Dev nD → Valuation τ sig (Elt F)) (c : Dev nD) : Valuation τ sig (Elt F) :=
  Function.update (W c) main_v60 ((dat3 (atTc W) c).arrAt 2 cfg3.N)
theorem exit3_of_ne (W : Dev nD → Valuation τ sig (Elt F)) (c : Dev nD) (b : Ref sig .tc) (h : b ≠ main_v60) :
    exit3 W c b = W c b :=
  Function.update_of_ne (StableHlo.devRef_ne_of_ne h) _ _
theorem exit3_out (W : Dev nD → Valuation τ sig (Elt F)) (c : Dev nD) :
    exit3 W c main_v60 = (dat3 (atTc W) c).arrAt 2 cfg3.N := Function.update_self _ _ _

set_option maxHeartbeats 1000000 in
/-- At region 3's exit each of its arrays holds what the write-backs leave (an input's array is never written), -/
theorem hF3 (W : Dev nD → Valuation τ sig (Elt F)) (c : Dev nD) (w : Fin cfg3.W) :
    (dat3 (atTc W) c).arrAt w cfg3.N = atTc (exit3 W) c (Pipeline.arrRef spec3 w) := by
  fin_cases w
  · exact (((dat3 (atTc W) c).arrAt_in 0 rfl _).trans (A_eq3 (atTc W) c 0)).trans (exit3_of_ne W c (Pipeline.arrRef spec3 0) (by decide)).symm
  · exact (((dat3 (atTc W) c).arrAt_in 1 rfl _).trans (A_eq3 (atTc W) c 1)).trans (exit3_of_ne W c (Pipeline.arrRef spec3 1) (by decide)).symm
  · exact (exit3_out W c).symm
/-- and every other buffer what it held at the entry. -/
theorem hrest3 (W : Dev nD → Valuation τ sig (Elt F)) (c : Dev nD) :
    ∀ b, b ∉ Finset.univ.image (Pipeline.arrRef spec3) → atTc (exit3 W) c b = atTc W c b :=
  fun b hb => exit3_of_ne W c b fun h => hb (h ▸ Finset.mem_image.mpr ⟨2, Finset.mem_univ _, rfl⟩)

set_option backward.isDefEq.respectTransparency.types false in
/-- Region 3 over the thread state: entered with every unscoped buffer at the entry contents, left with the output
    array at what the one write-back leaves and every other buffer as entered. Its invariant carries the two
    accumulators between the points; at the two ends it is the plain form — the scoped buffers at anything beside
    the generator register — which is what the launch hands over and takes back. -/
def regAt3 : Pipeline.RegionSeg (pcfgs (F := F)) adm (pdatsAt W0 W1 W2 W3) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (atTc W3) c).loose
  hwaits := Pipeline.hwaits_of_owed_zero _ _ _ _ L₀ lv₀ 3 fun _ _ => rfl
  pre c := iprop(StableHlo.held (c : Thread nD τ) (Pipeline.ucRefs τ sig) (W3 c) ∗ Rr c)
  post c := iprop(StableHlo.held (c : Thread nD τ) (Pipeline.ucRefs τ sig) (exit3 W3 c) ∗ Rr c)
  X c := iprop(∃ r, prngReg c r)
  Y c := iprop(∃ r, prngReg c r)
  Z c := Pipeline.unscopedRest (Ix := Unit) (Name := ℕ) (U := UR sig nD τ) (Lvl := ℕ) spec3 c (atTc W3 c)
  hentry c := by
    rw [Pipeline.ownSems0_none]
    have hsplit := Pipeline.arrays_of_unscopedBufs (p := 3) (pcfgs (F := F)) adm (pdatsAt W0 W1 W2 W3) launch3.win launch3.arr_whole c
      ((pdatsAt W0 W1 W2 W3 3 c).share_full fun _ => rfl) (atTc W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc W3) c)
    unfold Pipeline.ΦA
    iintro ⟨Hp, -, Hr⟩
    isplitl [Hr]; · iexact Hr
    iexact Hp
  hout c := by
    rw [Pipeline.ownSems0_none]
    refine BIBase.Entails.trans (hout3 (atTc W3) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsAt W0 W1 W2 W3) ((pdatsAt W0 W1 W2 W3 3 c).share_full fun _ => rfl)
      (atTc W3 c) (atTc (exit3 W3) c) ((pdatsAt W0 W1 W2 W3 3 c).arrAt · cfg3.N) (hF3 W3 c) (hrest3 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end AnyContents

/-! ## The regions at the chain's contents -/

/-- Every region's proof data at the contents its region is entered with. -/
abbrev pdats : (p : Fin 4) → (c : Dev nD) → Dat τ (Elt F) Unit ℕ (UR sig nD τ) ℕ (Pipeline.pin (pcfgs (F := F)) adm p) c :=
  pdatsAt (E0 m) (E1 m) (E2 m) (E3 m)
def reg0 : Pipeline.RegionSeg (pcfgs (F := F)) adm (pdats m) () defs₀ 𝒱₀ L₀ lv₀ 0 := regAt0 (E0 m) (E1 m) (E2 m) (E3 m)
def reg1 : Pipeline.RegionSeg (pcfgs (F := F)) adm (pdats m) () defs₀ 𝒱₀ L₀ lv₀ 1 := regAt1 (E0 m) (E1 m) (E2 m) (E3 m)
def reg2 : Pipeline.RegionSeg (pcfgs (F := F)) adm (pdats m) () defs₀ 𝒱₀ L₀ lv₀ 2 := regAt2 (E0 m) (E1 m) (E2 m) (E3 m)
def reg3 : Pipeline.RegionSeg (pcfgs (F := F)) adm (pdats m) () defs₀ 𝒱₀ L₀ lv₀ 3 := regAt3 (E0 m) (E1 m) (E2 m) (E3 m)

/-- Each region is entered from the contents the item before it leaves and leaves those the next item is entered from. -/
theorem hpre0 (c : Dev nD) : iprop(StableHlo.held (c : Thread nD τ) (Pipeline.ucRefs τ sig) (V1 m c) ∗ Rr c) ⊢ (reg0 m).pre c := .rfl
theorem hpost0 (c : Dev nD) : (reg0 m).post c ⊢ iprop(StableHlo.held (c : Thread nD τ) (Pipeline.ucRefs τ sig) (V2 m (outs m) c) ∗ Rr c) := by
  rw [V2_eq]; exact .rfl
theorem hpre1 (c : Dev nD) : iprop(StableHlo.held (c : Thread nD τ) (Pipeline.ucRefs τ sig) (V3 m (outs m) c) ∗ Rr c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ Rr c) := by
  rw [V4_eq]; exact .rfl
theorem hpre2 (c : Dev nD) : iprop(StableHlo.held (c : Thread nD τ) (Pipeline.ucRefs τ sig) (V5 m (outs m) c) ∗ Rr c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ Rr c) := by
  rw [V6_eq]; exact .rfl
theorem hpre3 (c : Dev nD) : iprop(StableHlo.held (c : Thread nD τ) (Pipeline.ucRefs τ sig) (V7 m (outs m) c) ∗ Rr c) ⊢ (reg3 m).pre c := by
  rw [V7_eq]; exact .rfl
/-- The last region leaves the last contents beside the core owing nothing; the generator register is let go. -/
theorem hpost3 (c : Dev nD) : (reg3 m).post c ⊢ iprop(StableHlo.held (c : Thread nD τ) (Pipeline.ucRefs τ sig) (V8 m (outs m) c)
    ∗ ∃ W, owes (c : Thread nD τ) (0 : CellTallies nD τ sig Unit) W) := by
  rw [V8_eq]
  show iprop(StableHlo.held (c : Thread nD τ) (Pipeline.ucRefs τ sig) (X3 m c) ∗ Rr c) ⊢ _
  iintro ⟨Hh, -, HO⟩
  isplitl [Hh]; · iexact Hh
  iexact HO

/-! ## The launch -/

set_option backward.isDefEq.respectTransparency.types false in
theorem run_main : θ_run defs (onTc (τ := τ) (main (F := F))) ⟨m, fun _ => 0, ρ⟩ (fun r => ∀ c : Dev nD,
      r.2.mem ((c.tc : Thread nD τ).loc main_v60) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L₀ lv₀ m ρ main
    (segs m (outs m) 𝒱₀ L₀ lv₀ (fun _ => Rr) () (pdats m) (reg0 m) (reg1 m) (reg2 m) (reg3 m))
    (fun c Q => by
      rewrite [main_chain c, Pipeline.Seg.run_eq_chain,
        show (segs m (outs m) 𝒱₀ L₀ lv₀ (fun _ => Rr) () (pdats m) (reg0 m) (reg1 m) (reg2 m) (reg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V8 m (outs m) c))
    (hch := fun c => ⟨.rfl, hpre0 m c, hpost0 m c, hpre1 m c, hpost1 m c, hpre2 m c, hpost2 m c, hpre3 m c, hpost3 m c⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v60) = o3 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11))
    (hfin := fun c s' => ?_) (hQ := fun _ h => h)
  -- the end: the last region's output array and each argument's buffer, read off the last contents
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    have rd : ∀ b : Ref sig .tc, ¬ (Proc.devRef .tc b : DevRef τ sig).isScoped →
        s'.mem.mem ((c.tc : Thread nD τ).loc b) = V8 m (outs m) c b :=
      fun b hb => h (Proc.devRef .tc b) (Finset.mem_filter.mpr ⟨StableHlo.devRef_mem_tcRefs b, hb⟩)
    exact ⟨(rd main_v60 (by decide)).trans (V8_main_v60 m c),
      (rd main_arg0 (by decide)).trans (V8_main_arg0 m (outs m) c),
      (rd main_arg1 (by decide)).trans (V8_main_arg1 m (outs m) c),
      (rd main_arg2 (by decide)).trans (V8_main_arg2 m (outs m) c),
      (rd main_arg3 (by decide)).trans (V8_main_arg3 m (outs m) c),
      (rd main_arg4 (by decide)).trans (V8_main_arg4 m (outs m) c),
      (rd main_arg5 (by decide)).trans (V8_main_arg5 m (outs m) c),
      (rd main_arg6 (by decide)).trans (V8_main_arg6 m (outs m) c),
      (rd main_arg7 (by decide)).trans (V8_main_arg7 m (outs m) c),
      (rd main_arg8 (by decide)).trans (V8_main_arg8 m (outs m) c),
      (rd main_arg9 (by decide)).trans (V8_main_arg9 m (outs m) c),
      (rd main_arg10 (by decide)).trans (V8_main_arg10 m (outs m) c),
      (rd main_arg11 (by decide)).trans (V8_main_arg11 m (outs m) c)⟩
  · iexact HSI

end Cert.Kernel.Hand

end
-- ==== Proof.KI.C0.lean ====
/- Region 0 of the program (the first combine step): for any contents V of the unscoped buffers at the region's
   entry, what each grid point's block of every window is, what the body leaves in the output block, and the
   proof data and body obligation the region's launch takes. -/
import proofs.«420400_j39874476376561_3_alg».proof.Proof.Gen.KernelIdeal.Launch
import proofs.«420400_j39874476376561_3_alg».proof.Proof.Gen.KernelIdeal.Skeleton
import proofs.«420400_j39874476376561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_in0 : Rect S2000x64 := Rect.unit (s := S2000x64) ![0, 0] S2000x64.size inb_S2000x64_S2000x64_0_0
abbrev r0_in2 : Rect S2000x1 := Rect.unit (s := S2000x1) ![0, 0] S2000x1.size inb_S2000x1_S2000x1_0_0
abbrev r0_w : Rect S64x128 := Rect.unit (s := S64x128) ![0, 0] S64x128.size inb_S64x128_S64x128_0_0
abbrev r0_b : Rect S1x128 := Rect.unit (s := S1x128) ![0, 0] S1x128.size inb_S1x128_S1x128_0_0
abbrev r0_out : Rect S2000x128 := Rect.unit (s := S2000x128) ![0, 0] S2000x128.size inb_S2000x128_S2000x128_0_0

/-- The output block after the body, from the six input blocks: one store of the whole block. -/
def out0_6 (x0 : Vec F S2000x64 .f32) (x1 : Vec F S2000x64 .bf16) (x2 : Vec F S2000x1 .f32) (x3 : Vec F S64x128 .f32) (x4 : Vec F S64x128 .f32) (x5 : Vec F S1x128 .f32) : Vec F S2000x128 .bf16 :=
  View.canon [⟨r0_out, k0_pay1 (View.ld x0 r0_in0) (View.ld x2 r0_in2) (View.ld x1 r0_in0) (View.ld x3 r0_w) (View.ld x4 r0_w) (View.ld x5 r0_b)⟩]

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## What the body leaves in the input windows: each block, in place -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-! ## What the body finds in the input windows

An input window's staging buffer holds its block at every point. Where the window is fetched, the fetch put
it there. Where it is not (the two weight matrices and the bias row after the first point), the block index
has not moved since the previous point and the body left the block as it found it, so the previous point's
block, which is this point's, is still there. No window is cut and none is idle at any point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The single store covers the output block -/

theorem cover0_6 (p : Vec F S2000x128 .bf16) (y : S2000x128.Idx) :
    ∃ pc ∈ ([⟨r0_out, p⟩] : List (View.Piece (Elt F) S2000x128 .bf16)), y ∈ pc.1.set :=
  View.cover_of_tiled [⟨r0_out, p⟩] S2000x128.size (by rfl) y

/-! ## The body's triple

Six whole-block loads (the aggregate, the inverse count, the root features, the two weight matrices, the bias
row), a load of the output block whose value is not used, and one store of the whole output block: the inputs
stay as they were, and the output block reads as the store's payload whatever it held before. -/

set_option maxHeartbeats 4000000 in
theorem sound_kernel0 (c : Dev nD) (E : Set ℕ) (i : grid0.Coords)
    (arg1 : Memref sig .tc .vmem S2000x64 .f32) (harg1 : arg1.IsWhole)
    (arg2 : Memref sig .tc .vmem S2000x64 .bf16) (harg2 : arg2.IsWhole)
    (arg3 : Memref sig .tc .vmem S2000x1 .f32) (harg3 : arg3.IsWhole)
    (arg4 : Memref sig .tc .vmem S64x128 .f32) (harg4 : arg4.IsWhole)
    (arg5 : Memref sig .tc .vmem S64x128 .f32) (harg5 : arg5.IsWhole)
    (arg6 : Memref sig .tc .vmem S1x128 .f32) (harg6 : arg6.IsWhole)
    (arg7 : Memref sig .tc .vmem S2000x128 .bf16) (harg7 : arg7.IsWhole)
    (x0 : Vec F S2000x64 .f32) (x1 : Vec F S2000x64 .bf16) (x2 : Vec F S2000x1 .f32)
    (x3 : Vec F S64x128 .f32) (x4 : Vec F S64x128 .f32) (x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation at a generic point -/

/-- What the body is called with at point t: the invariant, the core's debt, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at point t. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six input buffers hold their blocks, so the kernel's triple applies; the
    invariant and the core's debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.C1.lean ====
/- Region 1 of the program (combine step 2): for any contents V of the unscoped buffers at the region's
   entry, what each grid point's block of every window is, what the body leaves in the output block, and the
   proof data and body obligation the region's launch takes. -/
import proofs.«420400_j39874476376561_3_alg».proof.Proof.Gen.KernelIdeal.Launch
import proofs.«420400_j39874476376561_3_alg».proof.Proof.Gen.KernelIdeal.Skeleton
import proofs.«420400_j39874476376561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S2000x128 := Rect.unit (s := S2000x128) ![0, 0] S2000x128.size inb_S2000x128_S2000x128_0_0
abbrev r1_in2 : Rect S2000x1 := Rect.unit (s := S2000x1) ![0, 0] S2000x1.size inb_S2000x1_S2000x1_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_out : Rect S2000x128 := Rect.unit (s := S2000x128) ![0, 0] S2000x128.size inb_S2000x128_S2000x128_0_0

/-- The output block after the body, from the six input blocks: one store of the whole block. -/
def out1_6 (x0 : Vec F S2000x128 .f32) (x1 : Vec F S2000x128 .bf16) (x2 : Vec F S2000x1 .f32) (x3 : Vec F S128x128 .f32) (x4 : Vec F S128x128 .f32) (x5 : Vec F S1x128 .f32) : Vec F S2000x128 .bf16 :=
  View.canon [⟨r1_out, k1_pay1 (View.ld x0 r1_in0) (View.ld x2 r1_in2) (View.ld x1 r1_in0) (View.ld x3 r1_w) (View.ld x4 r1_w) (View.ld x5 r1_b)⟩]

/-- The proof data of region 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## What the body leaves in the input windows: each block, in place -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! ## What the body finds in the input windows

An input window's staging buffer holds its block at every point. Where the window is fetched, the fetch put
it there. Where it is not (the two weight matrices and the bias row after the first point), the block index
has not moved since the previous point and the body left the block as it found it, so the previous point's
block, which is this point's, is still there. No window is cut and none is idle at any point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The single store covers the output block -/

theorem cover1_6 (p : Vec F S2000x128 .bf16) (y : S2000x128.Idx) :
    ∃ pc ∈ ([⟨r1_out, p⟩] : List (View.Piece (Elt F) S2000x128 .bf16)), y ∈ pc.1.set :=
  View.cover_of_tiled [⟨r1_out, p⟩] S2000x128.size (by rfl) y

/-! ## The body's triple

Six whole-block loads (the aggregate, the inverse count, the root features, the two weight matrices, the bias
row), a load of the output block whose value is not used, and one store of the whole output block: the inputs
stay as they were, and the output block reads as the store's payload whatever it held before. -/

set_option maxHeartbeats 4000000 in
theorem sound_kernel1 (c : Dev nD) (E : Set ℕ) (i : grid1.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32)
    (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The body obligation at a generic point -/

/-- What the body is called with at point t: the invariant, the core's debt, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body returns at point t. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six input buffers hold their blocks, so the kernel's triple applies; the
    invariant and the core's debt are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.C2.lean ====
/- Region 2 of the program (combine step 3): for any contents V of the unscoped buffers at the region's
   entry, what each grid point's block of every window is, what the body leaves in the output block, and the
   proof data and body obligation the region's launch takes. -/
import proofs.«420400_j39874476376561_3_alg».proof.Proof.Gen.KernelIdeal.Launch
import proofs.«420400_j39874476376561_3_alg».proof.Proof.Gen.KernelIdeal.Skeleton
import proofs.«420400_j39874476376561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_in0 : Rect S2000x128 := Rect.unit (s := S2000x128) ![0, 0] S2000x128.size inb_S2000x128_S2000x128_0_0
abbrev r2_in2 : Rect S2000x1 := Rect.unit (s := S2000x1) ![0, 0] S2000x1.size inb_S2000x1_S2000x1_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_out : Rect S2000x128 := Rect.unit (s := S2000x128) ![0, 0] S2000x128.size inb_S2000x128_S2000x128_0_0

/-- The output block after the body, from the six input blocks: one store of the whole block. -/
def out2_6 (x0 : Vec F S2000x128 .f32) (x1 : Vec F S2000x128 .bf16) (x2 : Vec F S2000x1 .f32) (x3 : Vec F S128x128 .f32) (x4 : Vec F S128x128 .f32) (x5 : Vec F S1x128 .f32) : Vec F S2000x128 .bf16 :=
  View.canon [⟨r2_out, k2_pay1 (View.ld x0 r2_in0) (View.ld x2 r2_in2) (View.ld x1 r2_in0) (View.ld x3 r2_w) (View.ld x4 r2_w) (View.ld x5 r2_b)⟩]

/-- The proof data of region 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-! ## What the body leaves in the input windows: each block, in place -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-! ## What the body finds in the input windows

An input window's staging buffer holds its block at every point. Where the window is fetched, the fetch put
it there. Where it is not (the two weight matrices and the bias row after the first point), the block index
has not moved since the previous point and the body left the block as it found it, so the previous point's
block, which is this point's, is still there. No window is cut and none is idle at any point. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-! ## The single store covers the output block -/

theorem cover2_6 (p : Vec F S2000x128 .bf16) (y : S2000x128.Idx) :
    ∃ pc ∈ ([⟨r2_out, p⟩] : List (View.Piece (Elt F) S2000x128 .bf16)), y ∈ pc.1.set :=
  View.cover_of_tiled [⟨r2_out, p⟩] S2000x128.size (by rfl) y

/-! ## The body's triple

Six whole-block loads (the aggregate, the inverse count, the root features, the two weight matrices, the bias
row), a load of the output block whose value is not used, and one store of the whole output block: the inputs
stay as they were, and the output block reads as the store's payload whatever it held before. -/

set_option maxHeartbeats 4000000 in
theorem sound_kernel2 (c : Dev nD) (E : Set ℕ) (i : grid2.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32)
    (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The body obligation at a generic point -/

/-- What the body is called with at point t: the invariant, the core's debt, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body returns at point t. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the six input buffers hold their blocks, so the kernel's triple applies; the
    invariant and the core's debt are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.PoolRuns.lean ====
/- Region 3 of the program (the mean pool): the kernel body's two branch conditions in closed form over the grid,
   where its windows are idle or live, and the names of the staging memrefs the body is called with. -/
import proofs.«420400_j39874476376561_3_alg».proof.Proof.Gen.KernelIdeal.Launch
import proofs.«420400_j39874476376561_3_alg».proof.Proof.Gen.KernelIdeal.Skeleton
import proofs.«420400_j39874476376561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pool kernel's branch conditions, in closed form over its grid -/

/-- The first conditional's test (is this the first grid point?), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional's test (is this the last grid point?). -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

/-- The two inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the output is idle: nothing is stored into it there, -/
theorem idleAt3_2 : ∀ t : Fin cfg3.N, ¬cond3_1 (grid3.coords t) → cfg3.idle 2 (grid3.coords t) = true := by decide +kernel
/-- and its block is not written back there. -/
theorem noFlush3_2 : ∀ t : Fin cfg3.N, ¬cond3_1 (grid3.coords t) → (cfg3.win 2).flush t = false := by decide +kernel
/-- At the last point it is live. -/
theorem liveAt3_2 : ∀ t : Fin cfg3.N, cond3_1 (grid3.coords t) → cfg3.idle 2 (grid3.coords t) = false := by decide +kernel

/-- Each window's current staging memref at point t, spelled as the pipeline passes it, and its wholeness. -/
abbrev ms3_0 (t : Fin cfg3.N) : Memref sig .tc .vmem S2000x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x128 .f32 := win3_2.stage (cfg3.slots t 2)
abbrev hs3_2 (t : Fin cfg3.N) : (ms3_2 t).IsWhole := hstage3_2 ((cfg3.slots t 2).cast nbuf3_2)

/-- The whole-buffer rectangle's offsets are zeros. -/
theorem hz3 : (![0, 0] : Fin 2 → Nat) = fun _ => 0 := funext fun a => by fin_cases a <;> rfl

end Cert.KernelIdeal.Hand

end
-- ==== Proof.KI.PoolA.lean ====
/- Region 3 of the program (the mean pool): the kernel body's run at the FIRST grid point, where it zeroes its two
   accumulators before adding the point's contribution. -/
import proofs.«420400_j39874476376561_3_alg».proof.Proof.KI.PoolRuns
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point (first conditional taken, second not): whatever the two scratch buffers held, the body zeroes
    them and then accumulates, so they end at this point's contribution over the zeros. -/
theorem run3_A (c : Dev nD) (i : grid3.Coords) (arg1 : Memref sig .tc .vmem S2000x128 .bf16) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : cond3_0 i) (hc1 : ¬cond3_1 i)
    (x0 : Vec F S2000x128 .bf16) (b0 : Vec F S2000x1 .i32) (x3 : Vec F S64x128 .f32) (s : Vec F S64x128 .f32) (k : Vec F S64x1 .f32)
    (E : Set ℕ) (K : PUnit → sProp 𝕄) :
    iprop(owns (c : Thread nD τ) arg1 fullShare x0 ∗ owns (c : Thread nD τ) arg2 fullShare b0 ∗ owns (c : Thread nD τ) arg3 fullShare x3
        ∗ owns (c : Thread nD τ) arg4 fullShare s ∗ owns (c : Thread nD τ) arg5 fullShare k
        ∗ (iprop(owns (c : Thread nD τ) arg1 fullShare x0 ∗ owns (c : Thread nD τ) arg2 fullShare b0 ∗ owns (c : Thread nD τ) arg3 fullShare x3
            ∗ owns (c : Thread nD τ) arg4 fullShare (k3_pay4 x0 b0 (k3_pay1 (F := F))) ∗ owns (c : Thread nD τ) arg5 fullShare (k3_pay5 b0 (k3_pay2 (F := F)))) -∗ K ⟨⟩))
      ⊢ wp frame (wpE (defs₀ (F := F)) Variants.none c none) E (cc3__pool_kernel i arg1 harg1 arg2 harg2 arg3 harg3 arg4 harg4 arg5 harg5) K := by
  rw [cc3__pool_kernel_eq_skeleton]; unfold cc3__pool_kernel_skel
  unfold owns
  iintro ⟨⟨%f0, %hf0, H0⟩, ⟨%f1, %hf1, H1⟩, ⟨%f2, %hf2, H2⟩, ⟨%f3, %hf3, HS0⟩, ⟨%f4, %hf4, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_cons_self, (by first | exact View.mem_set_unit_zero hz3 inb_S64x128_S64x128_0_0 y | exact View.mem_set_unit_zero hz3 inb_S64x1_S64x1_0_0 y)⟩), View.canon_cons_unit_zero hz3]
    sl_unfold_run_names
    simp only [View.readAt_eq_ld, hf0, hf1, View.ld_unit_zero (S := S2000x128) hz3, View.ld_unit_zero (S := S2000x1) hz3, View.readCov_unit_zero (S := S64x128) _ hz3]
  iexists _; isplitr
  swap; · iexact HS1
  ipureintro
  rw [View.read_writes_eq_canon _ _ _ (fun y => ⟨_, List.mem_cons_self, (by first | exact View.mem_set_unit_zero hz3 inb_S64x128_S64x128_0_0 y | exact View.mem_set_unit_zero hz3 inb_S64x1_S64x1_0_0 y)⟩), View.canon_cons_unit_zero hz3]
  sl_unfold_run_names
  simp only [View.readAt_eq_ld, hf1, View.ld_unit_zero (S := S2000x1) hz3, View.readCov_unit_zero (S := S64x1) _ hz3]

end Cert.KernelIdeal.Hand

end
-- ==== Proof.KI.PoolB.lean ====
/- Region 3 of the program (the mean pool): the kernel body's run at a MIDDLE grid point, where it only adds the
   point's contribution onto its two accumulators. -/
import proofs.«420400_j39874476376561_3_alg».proof.Proof.KI.PoolA
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point (neither conditional taken): from the two input blocks, the output buffer at anything and the two
    scratch buffers at the accumulators s, k, the body runs to the continuation with the inputs and the output as
    they were and the scratch buffers at the accumulators with this point's contribution added. -/
theorem run3_B (c : Dev nD) (i : grid3.Coords) (arg1 : Memref sig .tc .vmem S2000x128 .bf16) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond3_0 i) (hc1 : ¬cond3_1 i)
    (x0 : Vec F S2000x128 .bf16) (b0 : Vec F S2000x1 .i32) (x3 : Vec F S64x128 .f32) (s : Vec F S64x128 .f32) (k : Vec F S64x1 .f32)
    (E : Set ℕ) (K : PUnit → sProp 𝕄) :
    iprop(owns (c : Thread nD τ) arg1 fullShare x0 ∗ owns (c : Thread nD τ) arg2 fullShare b0 ∗ owns (c : Thread nD τ) arg3 fullShare x3
        ∗ owns (c : Thread nD τ) arg4 fullShare s ∗ owns (c : Thread nD τ) arg5 fullShare k
        ∗ (iprop(owns (c : Thread nD τ) arg1 fullShare x0 ∗ owns (c : Thread nD τ) arg2 fullShare b0 ∗ owns (c : Thread nD τ) arg3 fullShare x3
            ∗ owns (c : Thread nD τ) arg4 fullShare (k3_pay4 x0 b0 s) ∗ owns (c : Thread nD τ) arg5 fullShare (k3_pay5 b0 k)) -∗ K ⟨⟩))
      ⊢ wp frame (wpE (defs₀ (F := F)) Variants.none c none) E (cc3__pool_kernel i arg1 harg1 arg2 harg2 arg3 harg3 arg4 harg4 arg5 harg5) K := by
  rw [cc3__pool_kernel_eq_skeleton]; unfold cc3__pool_kernel_skel
  unfold owns
  iintro ⟨⟨%f0, %hf0, H0⟩, ⟨%f1, %hf1, H1⟩, ⟨%f2, %hf2, H2⟩, ⟨%f3, %hf3, HS0⟩, ⟨%f4, %hf4, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
    simp only [View.readAt_eq_ld, hf0, hf1, hf3, View.ld_unit_zero (S := S2000x128) hz3, View.ld_unit_zero (S := S2000x1) hz3, View.ld_unit_zero (S := S64x128) hz3]
  iexists _; isplitr
  swap; · iexact HS1
  ipureintro
  rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
  simp only [View.readAt_eq_ld, hf1, hf4, View.ld_unit_zero (S := S2000x1) hz3, View.ld_unit_zero (S := S64x1) hz3]

end Cert.KernelIdeal.Hand

end
-- ==== Proof.KI.PoolC.lean ====
/- Region 3 of the program (the mean pool): the kernel body's run at the LAST grid point, where after adding the
   point's contribution it stores the quotient of its two accumulators into the output block. -/
import proofs.«420400_j39874476376561_3_alg».proof.Proof.KI.PoolB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point (second conditional taken, first not): the scratch buffers end at the accumulators with this
    point's contribution added, and the output buffer, whatever it held, at the quotient of those two. -/
theorem run3_C (c : Dev nD) (i : grid3.Coords) (arg1 : Memref sig .tc .vmem S2000x128 .bf16) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond3_0 i) (hc1 : cond3_1 i)
    (x0 : Vec F S2000x128 .bf16) (b0 : Vec F S2000x1 .i32) (x3 : Vec F S64x128 .f32) (s : Vec F S64x128 .f32) (k : Vec F S64x1 .f32)
    (E : Set ℕ) (K : PUnit → sProp 𝕄) :
    iprop(owns (c : Thread nD τ) arg1 fullShare x0 ∗ owns (c : Thread nD τ) arg2 fullShare b0 ∗ owns (c : Thread nD τ) arg3 fullShare x3
        ∗ owns (c : Thread nD τ) arg4 fullShare s ∗ owns (c : Thread nD τ) arg5 fullShare k
        ∗ (iprop(owns (c : Thread nD τ) arg1 fullShare x0 ∗ owns (c : Thread nD τ) arg2 fullShare b0
            ∗ owns (c : Thread nD τ) arg3 fullShare (k3_pay6 (k3_pay4 x0 b0 s) (k3_pay5 b0 k))
            ∗ owns (c : Thread nD τ) arg4 fullShare (k3_pay4 x0 b0 s) ∗ owns (c : Thread nD τ) arg5 fullShare (k3_pay5 b0 k)) -∗ K ⟨⟩))
      ⊢ wp frame (wpE (defs₀ (F := F)) Variants.none c none) E (cc3__pool_kernel i arg1 harg1 arg2 harg2 arg3 harg3 arg4 harg4 arg5 harg5) K := by
  rw [cc3__pool_kernel_eq_skeleton]; unfold cc3__pool_kernel_skel
  unfold owns
  iintro ⟨⟨%f0, %hf0, H0⟩, ⟨%f1, %hf1, H1⟩, ⟨%f2, %hf2, H2⟩, ⟨%f3, %hf3, HS0⟩, ⟨%f4, %hf4, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
    simp only [View.readCov_unit_zero (S := S64x128) _ hz3, View.readCov_unit_zero (S := S64x1) _ hz3, View.readAt_eq_ld, hf0, hf1, hf3, hf4, View.ld_unit_zero (S := S2000x128) hz3, View.ld_unit_zero (S := S2000x1) hz3, View.ld_unit_zero (S := S64x128) hz3, View.ld_unit_zero (S := S64x1) hz3]
  isplitl [HS0]
  · iexists _; isplitr
    swap; · iexact HS0
    ipureintro
    sl_unfold_run_names
    rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
    simp only [View.readAt_eq_ld, hf0, hf1, hf3, View.ld_unit_zero (S := S2000x128) hz3, View.ld_unit_zero (S := S2000x1) hz3, View.ld_unit_zero (S := S64x128) hz3]
  iexists _; isplitr
  swap; · iexact HS1
  ipureintro
  sl_unfold_run_names
  rw [View.read_writes_eq_canon _ _ _ (fun y => ⟨_, List.mem_singleton_self _, (by first | exact View.mem_set_unit_zero hz3 inb_S64x128_S64x128_0_0 y | exact View.mem_set_unit_zero hz3 inb_S64x1_S64x1_0_0 y)⟩), View.canon_unit_zero hz3]
  simp only [View.readAt_eq_ld, hf1, hf4, View.ld_unit_zero (S := S2000x1) hz3, View.ld_unit_zero (S := S64x1) hz3]

end Cert.KernelIdeal.Hand

end
-- ==== Proof.KI.Pool.lean ====
/- Region 3 of the program (the mean pool): for any contents V of the unscoped buffers at the region's entry, the
   two accumulators the kernel carries in its scratch buffers from grid point to grid point — the per-graph sums
   and the per-graph counts —, the output block, and the proof data and body obligation the region's launch takes. -/
import proofs.«420400_j39874476376561_3_alg».proof.Proof.Gen.KernelIdeal.Launch
import proofs.«420400_j39874476376561_3_alg».proof.Proof.Gen.KernelIdeal.Skeleton
import proofs.«420400_j39874476376561_3_alg».proof.Proof.Gen.KernelIdeal.Points
import proofs.«420400_j39874476376561_3_alg».proof.Proof.KI.PoolC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem lt24 : 24 < cfg3.N := by have : cfg3.N = 25 := N_3; omega

/-- The two accumulators after the body at point n: at the first point the zeroed buffers plus that point's
    contribution, afterwards what the point before left plus this point's contribution. -/
def acc3 (c : Dev nD) : (n : ℕ) → n < cfg3.N → Vec F S64x128 .f32 × Vec F S64x1 .f32
  | 0, hn => (k3_pay4 (iblk3 V c 0 ⟨0, hn⟩) (iblk3 V c 1 ⟨0, hn⟩) (k3_pay1 (F := F)),
      k3_pay5 (iblk3 V c 1 ⟨0, hn⟩) (k3_pay2 (F := F)))
  | n + 1, hn => (k3_pay4 (iblk3 V c 0 ⟨n + 1, hn⟩) (iblk3 V c 1 ⟨n + 1, hn⟩) (acc3 c n (Nat.lt_of_succ_lt hn)).1,
      k3_pay5 (iblk3 V c 1 ⟨n + 1, hn⟩) (acc3 c n (Nat.lt_of_succ_lt hn)).2)

theorem acc3_zero (c : Dev nD) (hn : 0 < cfg3.N) : acc3 V c 0 hn
    = (k3_pay4 (iblk3 V c 0 ⟨0, hn⟩) (iblk3 V c 1 ⟨0, hn⟩) (k3_pay1 (F := F)), k3_pay5 (iblk3 V c 1 ⟨0, hn⟩) (k3_pay2 (F := F))) := rfl

theorem acc3_succ (c : Dev nD) (n : ℕ) (hn : n + 1 < cfg3.N) : acc3 V c (n + 1) hn
    = (k3_pay4 (iblk3 V c 0 ⟨n + 1, hn⟩) (iblk3 V c 1 ⟨n + 1, hn⟩) (acc3 V c n (Nat.lt_of_succ_lt hn)).1,
       k3_pay5 (iblk3 V c 1 ⟨n + 1, hn⟩) (acc3 V c n (Nat.lt_of_succ_lt hn)).2) := rfl

/-- The quotient the last point stores: the sums over the counts clamped below at one. -/
def out3 (c : Dev nD) : Vec F S64x128 .f32 := k3_pay6 (acc3 V c 24 lt24).1 (acc3 V c 24 lt24).2

abbrev scM3_0 : Memref sig .tc .vmem S64x128 .f32 := Memref.whole cc3_scratch0
abbrev scM3_1 : Memref sig .tc .vmem S64x1 .f32 := Memref.whole cc3_scratch1

/-- The region's invariant before point n: at the start the scoped buffers at anything; afterwards the two
    scratch buffers at the accumulators the point before left, the other scoped buffers at anything. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]
      ∗ (∃ r, prngReg c r))

/-- The proof data of region 3 on core c. The output window's entry is the quotient of the accumulators at
    every point; only the last point's is ever written back. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay6 (acc3 V c t.val t.isLt).1 (acc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t
    = k3_pay6 (acc3 V c t.val t.isLt).1 (acc3 V c t.val t.isLt).2 := by dsimp only [dat3]

theorem after3_2_last (c : Dev nD) : (dat3 V c).after 2 ⟨24, lt24⟩ = out3 V c := by dsimp only [dat3, out3]

/-! ## The invariant, position by position -/

theorem PhiS3_zero (c : Dev nD) (n : ℕ) (h : n ≤ cfg3.N) (hz : n = 0) : PhiS3 V c n h = Pipeline.ΦA spec3 c := by
  subst hz; rfl

/-- After point n (before point n + 1): the two scratch buffers at that point's accumulators. -/
theorem PhiS3_succ (c : Dev nD) (n : ℕ) (hn : n < cfg3.N) :
    PhiS3 V c (n + 1) hn = iprop(iprop(owns (c : Thread nD τ) scM3_0 fullShare (acc3 V c n hn).1 ∗ owns (c : Thread nD τ) scM3_1 fullShare (acc3 V c n hn).2)
      ∗ Pipeline.scopedRestBut (Ix := Unit) (Name := ℕ) (U := UR sig nD τ) (Lvl := ℕ) (Val := Elt F) spec3 c [cc3_scratch0, cc3_scratch1]
      ∗ (∃ r, prngReg c r)) := rfl

/-- Before a point that is not the first: the two scratch buffers at what the point before left. -/
theorem PhiS3_pos (c : Dev nD) (n : ℕ) (h : n ≤ cfg3.N) (hz : n ≠ 0) :
    PhiS3 V c n h = iprop(iprop(owns (c : Thread nD τ) scM3_0 fullShare (acc3 V c (n - 1) (by omega)).1 ∗ owns (c : Thread nD τ) scM3_1 fullShare (acc3 V c (n - 1) (by omega)).2)
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

/-- The launch's invariant with the two scratch operands as memrefs owned at some contents, the other scoped
    buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-! ## The accumulators restated at a grid point -/

theorem acc3_first_fst (c : Dev nD) (t : Fin cfg3.N) (hz : t.val = 0) :
    (acc3 V c t.val t.isLt).1 = k3_pay4 (iblk3 V c 0 t) (iblk3 V c 1 t) (k3_pay1 (F := F)) := by
  obtain ⟨n, hn⟩ := t
  cases n with
  | zero => rfl
  | succ n => exact absurd hz (Nat.succ_ne_zero n)

theorem acc3_first_snd (c : Dev nD) (t : Fin cfg3.N) (hz : t.val = 0) :
    (acc3 V c t.val t.isLt).2 = k3_pay5 (iblk3 V c 1 t) (k3_pay2 (F := F)) := by
  obtain ⟨n, hn⟩ := t
  cases n with
  | zero => rfl
  | succ n => exact absurd hz (Nat.succ_ne_zero n)

theorem acc3_pos_fst (c : Dev nD) (t : Fin cfg3.N) (hz : t.val ≠ 0) :
    (acc3 V c t.val t.isLt).1 = k3_pay4 (iblk3 V c 0 t) (iblk3 V c 1 t) (acc3 V c (t.val - 1) (Nat.lt_of_le_of_lt (Nat.sub_le _ _) t.isLt)).1 := by
  obtain ⟨n, hn⟩ := t
  cases n with
  | zero => exact absurd rfl hz
  | succ n => rfl

theorem acc3_pos_snd (c : Dev nD) (t : Fin cfg3.N) (hz : t.val ≠ 0) :
    (acc3 V c t.val t.isLt).2 = k3_pay5 (iblk3 V c 1 t) (acc3 V c (t.val - 1) (Nat.lt_of_le_of_lt (Nat.sub_le _ _) t.isLt)).2 := by
  obtain ⟨n, hn⟩ := t
  cases n with
  | zero => exact absurd rfl hz
  | succ n => rfl

/-! ## The proof data at a point -/

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' buffers hold their blocks; the closed forms of the two conditions say which of
    the three cases the point is in; the invariant hands the body the two scratch buffers at the accumulators the point
    before left (at anything at the first point) and takes them back at this point's accumulators; away from the last
    point the output's buffer goes through untouched, at the last point it is left at the quotient. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases hz : t.val = 0
  · have hc0 : cond3_0 (grid3.coords t) := (hcond3_0 t).mpr hz
    have hc1 : ¬cond3_1 (grid3.coords t) := fun h => by have := (hcond3_1 t).mp h; omega
    rw [Dat.leavesExact_idle (dat3 V c) 2 t (idleAt3_2 t hc1) (noFlush3_2 t hc1)]
    rw [acc3_first_fst V c t hz, acc3_first_snd V c t hz]
    rw [PhiS3_castSucc V c t, PhiS3_zero V c _ _ hz, PhiA3_eq]
    iintro ⟨⟨⟨⟨⟨%s0, HS0⟩, ⟨%k0, HS1⟩⟩, HR⟩, Hg⟩, Ho, ⟨%d0, H0⟩, ⟨%d1, H1⟩, ⟨%d2, H2⟩⟩
    iapply (run3_A c (grid3.coords t) _ _ _ _ _ _ _ _ _ _ hc0 hc1 (iblk3 V c 0 t) (iblk3 V c 1 t) _ _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1]
      · isplitl [HS0]; · iexact HS0
        iexact HS1
      isplitl [HR]; · iexact HR
      iexact Hg
    isplitl [Ho]; · iexact Ho
    isplitl [H0]; · iexact H0
    isplitl [H1]; · iexact H1
    iexists _; iexact H2
  · have hc0 : ¬cond3_0 (grid3.coords t) := fun h => hz ((hcond3_0 t).mp h)
    rw [acc3_pos_fst V c t hz, acc3_pos_snd V c t hz]
    rw [PhiS3_castSucc V c t, PhiS3_pos V c _ _ hz]
    by_cases h24 : t.val = 24
    · have hc1 : cond3_1 (grid3.coords t) := (hcond3_1 t).mpr h24
      rw [show (dat3 V c).leavesExact 2 t = owns (c : Thread nD τ) (ms3_2 t) fullShare ((dat3 V c).after 2 t) from by
        unfold Dat.leavesExact; rw [liveAt3_2 t hc1], after3_2]
      rw [acc3_pos_fst V c t hz, acc3_pos_snd V c t hz]
      iintro ⟨⟨⟨HS0, HS1⟩, HR, Hg⟩, Ho, ⟨%d0, H0⟩, ⟨%d1, H1⟩, ⟨%d2, H2⟩⟩
      iapply (run3_C c (grid3.coords t) _ _ _ _ _ _ _ _ _ _ hc0 hc1 (iblk3 V c 0 t) (iblk3 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      iexact H2
    · have hc1 : ¬cond3_1 (grid3.coords t) := fun h => h24 ((hcond3_1 t).mp h)
      rw [Dat.leavesExact_idle (dat3 V c) 2 t (idleAt3_2 t hc1) (noFlush3_2 t hc1)]
      iintro ⟨⟨⟨HS0, HS1⟩, HR, Hg⟩, Ho, ⟨%d0, H0⟩, ⟨%d1, H1⟩, ⟨%d2, H2⟩⟩
      iapply (run3_B c (grid3.coords t) _ _ _ _ _ _ _ _ _ _ hc0 hc1 (iblk3 V c 0 t) (iblk3 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's form back: the accumulators' contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HS1⟩, HR, Hg⟩
  isplitl [HS0 HS1 HR]
  · isplitl [HS0 HS1]
    · isplitl [HS0]
      · iexists _; iexact HS0
      · iexists _; iexact HS1
    · iexact HR
  · iexact Hg

/-- After the last point the invariant gives the launch's form back: the accumulators' contents are forgotten. -/
theorem hout3 (c : Dev nD) : (dat3 V c).Φ (Fin.last cfg3.N) ⊢ (Pipeline.ΦA spec3 c : sProp 𝕄) :=
  Phi_out3 V c _ (by rw [Fin.val_last]; have : cfg3.N = 25 := N_3; omega)

end Cert.KernelIdeal.Hand

end
-- ==== Proof.KI.Run.lean ====
/- The run of the whole program: the contents of each core's unscoped buffers when each of the four kernel regions
   is entered (the launch contents carried through the host stretches, each region's output array replaced by what
   the region's write-backs leave), the four regions as segments between those contents, and the launch: every
   weakly fair execution terminates with the last region's output array at what the pool leaves and every argument
   array as launched. -/
import proofs.«420400_j39874476376561_3_alg».proof.Proof.KI.C0
import proofs.«420400_j39874476376561_3_alg».proof.Proof.KI.C1
import proofs.«420400_j39874476376561_3_alg».proof.Proof.KI.C2
import proofs.«420400_j39874476376561_3_alg».proof.Proof.KI.Pool
import proofs.«420400_j39874476376561_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' ends -/

/-- A valuation of core c's buffers read at the TensorCore's references: the form the regions' proof data take. -/
abbrev atTc (W : Dev nD → Valuation τ sig (Elt F)) : (c : Dev nD) → (b : Ref sig .tc) → Buf (Elt F) ((c : Thread nD τ).loc b) :=
  fun c b => W c b

/-- Core c's unscoped buffers when region 0 is entered: the launch contents after the first host stretch. -/
abbrev E0 (c : Dev nD) : Valuation τ sig (Elt F) := V1 m c
/-- What region 0's write-backs leave in its output array. -/
def o0 (c : Dev nD) : Buf (Elt F) ((c : Thread nD τ).loc main_v28) := (dat0 (atTc (E0 m)) c).arrAt 6 cfg0.N
/-- Core c's unscoped buffers when region 0 is left: as entered, but for the output array. -/
abbrev X0 (c : Dev nD) : Valuation τ sig (Elt F) := Function.update (E0 m c) main_v28 (o0 m c)
/-- Core c's unscoped buffers when region 1 is entered. -/
abbrev E1 (c : Dev nD) : Valuation τ sig (Elt F) := StableHlo.after hostOps1 (X0 m c)
/-- What region 1's write-backs leave in its output array. -/
def o1 (c : Dev nD) : Buf (Elt F) ((c : Thread nD τ).loc main_v43) := (dat1 (atTc (E1 m)) c).arrAt 6 cfg1.N
abbrev X1 (c : Dev nD) : Valuation τ sig (Elt F) := Function.update (E1 m c) main_v43 (o1 m c)
/-- Core c's unscoped buffers when region 2 is entered. -/
abbrev E2 (c : Dev nD) : Valuation τ sig (Elt F) := StableHlo.after hostOps2 (X1 m c)
/-- What region 2's write-backs leave in its output array. -/
def o2 (c : Dev nD) : Buf (Elt F) ((c : Thread nD τ).loc main_v58) := (dat2 (atTc (E2 m)) c).arrAt 6 cfg2.N
abbrev X2 (c : Dev nD) : Valuation τ sig (Elt F) := Function.update (E2 m c) main_v58 (o2 m c)
/-- Core c's unscoped buffers when region 3 is entered. -/
abbrev E3 (c : Dev nD) : Valuation τ sig (Elt F) := StableHlo.after hostOps3 (X2 m c)
/-- What region 3's one write-back leaves in its output array. -/
def o3 (c : Dev nD) : Buf (Elt F) ((c : Thread nD τ).loc main_v60) := (dat3 (atTc (E3 m)) c).arrAt 2 cfg3.N
abbrev X3 (c : Dev nD) : Valuation τ sig (Elt F) := Function.update (E3 m c) main_v60 (o3 m c)

/-- What each region leaves in the one array it may change, as the chain of contents above names it; any other
    reading is never taken. -/
def outs : Outs (F := F) := fun _ r c =>
  if h : r = main_v28 then h ▸ o0 m c
  else if h : r = main_v43 then h ▸ o1 m c
  else if h : r = main_v58 then h ▸ o2 m c
  else if h : r = main_v60 then h ▸ o3 m c
  else m ((c : Thread nD τ).loc r)

theorem outs_v28 (n : ℕ) (c : Dev nD) : outs m n main_v28 c = o0 m c := by
  unfold outs; rw [dif_pos rfl]
theorem outs_v43 (n : ℕ) (c : Dev nD) : outs m n main_v43 c = o1 m c := by
  unfold outs; rw [dif_neg (by decide), dif_pos rfl]
theorem outs_v58 (n : ℕ) (c : Dev nD) : outs m n main_v58 c = o2 m c := by
  unfold outs; rw [dif_neg (by decide), dif_neg (by decide), dif_pos rfl]
theorem outs_v60 (n : ℕ) (c : Dev nD) : outs m n main_v60 c = o3 m c := by
  unfold outs; rw [dif_neg (by decide), dif_neg (by decide), dif_neg (by decide), dif_pos rfl]

/-- The contents between the program's items, written over the unknowns, are the chain above at these outputs. -/
theorem V1_eq (c : Dev nD) : V1 m c = E0 m c := rfl
theorem V2_eq (c : Dev nD) : V2 m (outs m) c = X0 m c := by
  show Function.update (V1 m c) main_v28 (outs m 2 main_v28 c) = _
  rw [outs_v28]
theorem V3_eq (c : Dev nD) : V3 m (outs m) c = E1 m c := by
  show StableHlo.after hostOps1 (V2 m (outs m) c) = _
  rw [V2_eq]
theorem V4_eq (c : Dev nD) : V4 m (outs m) c = X1 m c := by
  show Function.update (V3 m (outs m) c) main_v43 (outs m 4 main_v43 c) = _
  rw [outs_v43, V3_eq]
theorem V5_eq (c : Dev nD) : V5 m (outs m) c = E2 m c := by
  show StableHlo.after hostOps2 (V4 m (outs m) c) = _
  rw [V4_eq]
theorem V6_eq (c : Dev nD) : V6 m (outs m) c = X2 m c := by
  show Function.update (V5 m (outs m) c) main_v58 (outs m 6 main_v58 c) = _
  rw [outs_v58, V5_eq]
theorem V7_eq (c : Dev nD) : V7 m (outs m) c = E3 m c := by
  show StableHlo.after hostOps3 (V6 m (outs m) c) = _
  rw [V6_eq]
theorem V8_eq (c : Dev nD) : V8 m (outs m) c = X3 m c := by
  show Function.update (V7 m (outs m) c) main_v60 (outs m 8 main_v60 c) = _
  rw [outs_v60, V7_eq]

/-- The last region's output array at the end of the program. -/
theorem V8_main_v60 (c : Dev nD) : V8 m (outs m) c main_v60 = o3 m c := by
  rw [V8_eq]; exact Function.update_self _ _ _

/-! ## Readings through the chain

Which buffers each entry and exit contents hold unchanged from an earlier one: no host stretch writes an argument
or a buffer an earlier stretch made, and a region changes its output array only. -/

theorem E0_of (c : Dev nD) (r : Ref sig .tc) (h : r ∉ hostOps0_W) : E0 m c r = m ((c : Thread nD τ).loc r) :=
  (V1_of m c r h).trans rfl
theorem E1_of (c : Dev nD) (r : Ref sig .tc) (h : r ∉ hostOps1_W) : E1 m c r = X0 m c r :=
  StableHlo.after_of_writes_sub hostOps1 _ hostOps1_writes h
theorem E2_of (c : Dev nD) (r : Ref sig .tc) (h : r ∉ hostOps2_W) : E2 m c r = X1 m c r :=
  StableHlo.after_of_writes_sub hostOps2 _ hostOps2_writes h
theorem E3_of (c : Dev nD) (r : Ref sig .tc) (h : r ∉ hostOps3_W) : E3 m c r = X2 m c r :=
  StableHlo.after_of_writes_sub hostOps3 _ hostOps3_writes h
theorem X0_of_ne (c : Dev nD) (b : Ref sig .tc) (h : b ≠ main_v28) : X0 m c b = E0 m c b :=
  Function.update_of_ne (StableHlo.devRef_ne_of_ne h) _ _
theorem X1_of_ne (c : Dev nD) (b : Ref sig .tc) (h : b ≠ main_v43) : X1 m c b = E1 m c b :=
  Function.update_of_ne (StableHlo.devRef_ne_of_ne h) _ _
theorem X2_of_ne (c : Dev nD) (b : Ref sig .tc) (h : b ≠ main_v58) : X2 m c b = E2 m c b :=
  Function.update_of_ne (StableHlo.devRef_ne_of_ne h) _ _
theorem X3_of_ne (c : Dev nD) (b : Ref sig .tc) (h : b ≠ main_v60) : X3 m c b = E3 m c b :=
  Function.update_of_ne (StableHlo.devRef_ne_of_ne h) _ _
theorem X0_v28 (c : Dev nD) : X0 m c main_v28 = o0 m c := Function.update_self _ _ _
theorem X1_v43 (c : Dev nD) : X1 m c main_v43 = o1 m c := Function.update_self _ _ _
theorem X2_v58 (c : Dev nD) : X2 m c main_v58 = o2 m c := Function.update_self _ _ _
theorem X3_v60 (c : Dev nD) : X3 m c main_v60 = o3 m c := Function.update_self _ _ _

theorem E0_arg0 (c : Dev nD) : E0 m c main_arg0 = m ((c : Thread nD τ).loc main_arg0) := E0_of m c _ (by decide)
theorem E0_arg1 (c : Dev nD) : E0 m c main_arg1 = m ((c : Thread nD τ).loc main_arg1) := E0_of m c _ (by decide)
theorem E0_arg3 (c : Dev nD) : E0 m c main_arg3 = m ((c : Thread nD τ).loc main_arg3) := E0_of m c _ (by decide)
theorem E0_arg4 (c : Dev nD) : E0 m c main_arg4 = m ((c : Thread nD τ).loc main_arg4) := E0_of m c _ (by decide)
theorem E0_arg5 (c : Dev nD) : E0 m c main_arg5 = m ((c : Thread nD τ).loc main_arg5) := E0_of m c _ (by decide)
theorem E1_arg6 (c : Dev nD) : E1 m c main_arg6 = m ((c : Thread nD τ).loc main_arg6) :=
  (E1_of m c _ (by decide)).trans <| (X0_of_ne m c _ (by decide)).trans <| E0_of m c _ (by decide)
theorem E1_arg7 (c : Dev nD) : E1 m c main_arg7 = m ((c : Thread nD τ).loc main_arg7) :=
  (E1_of m c _ (by decide)).trans <| (X0_of_ne m c _ (by decide)).trans <| E0_of m c _ (by decide)
theorem E1_arg8 (c : Dev nD) : E1 m c main_arg8 = m ((c : Thread nD τ).loc main_arg8) :=
  (E1_of m c _ (by decide)).trans <| (X0_of_ne m c _ (by decide)).trans <| E0_of m c _ (by decide)
theorem E2_arg9 (c : Dev nD) : E2 m c main_arg9 = m ((c : Thread nD τ).loc main_arg9) :=
  (E2_of m c _ (by decide)).trans <| (X1_of_ne m c _ (by decide)).trans <| (E1_of m c _ (by decide)).trans <|
    (X0_of_ne m c _ (by decide)).trans <| E0_of m c _ (by decide)
theorem E2_arg10 (c : Dev nD) : E2 m c main_arg10 = m ((c : Thread nD τ).loc main_arg10) :=
  (E2_of m c _ (by decide)).trans <| (X1_of_ne m c _ (by decide)).trans <| (E1_of m c _ (by decide)).trans <|
    (X0_of_ne m c _ (by decide)).trans <| E0_of m c _ (by decide)
theorem E2_arg11 (c : Dev nD) : E2 m c main_arg11 = m ((c : Thread nD τ).loc main_arg11) :=
  (E2_of m c _ (by decide)).trans <| (X1_of_ne m c _ (by decide)).trans <| (E1_of m c _ (by decide)).trans <|
    (X0_of_ne m c _ (by decide)).trans <| E0_of m c _ (by decide)
theorem X2_arg2 (c : Dev nD) : X2 m c main_arg2 = m ((c : Thread nD τ).loc main_arg2) :=
  (X2_of_ne m c _ (by decide)).trans <| (E2_of m c _ (by decide)).trans <| (X1_of_ne m c _ (by decide)).trans <|
    (E1_of m c _ (by decide)).trans <| (X0_of_ne m c _ (by decide)).trans <| E0_of m c _ (by decide)
theorem X0_v12 (c : Dev nD) : X0 m c main_v12 = E0 m c main_v12 := X0_of_ne m c _ (by decide)
theorem E1_v12 (c : Dev nD) : E1 m c main_v12 = X0 m c main_v12 := E1_of m c _ (by decide)
theorem X1_v12 (c : Dev nD) : X1 m c main_v12 = E1 m c main_v12 := X1_of_ne m c _ (by decide)
theorem E2_v12 (c : Dev nD) : E2 m c main_v12 = X1 m c main_v12 := E2_of m c _ (by decide)
theorem X2_v12 (c : Dev nD) : X2 m c main_v12 = E2 m c main_v12 := X2_of_ne m c _ (by decide)
theorem X0_v1 (c : Dev nD) : X0 m c main_v1 = E0 m c main_v1 := X0_of_ne m c _ (by decide)
theorem E1_v1 (c : Dev nD) : E1 m c main_v1 = X0 m c main_v1 := E1_of m c _ (by decide)
theorem X1_v1 (c : Dev nD) : X1 m c main_v1 = E1 m c main_v1 := X1_of_ne m c _ (by decide)
theorem E2_v1 (c : Dev nD) : E2 m c main_v1 = X1 m c main_v1 := E2_of m c _ (by decide)
theorem X2_v1 (c : Dev nD) : X2 m c main_v1 = E2 m c main_v1 := X2_of_ne m c _ (by decide)
theorem X0_v3 (c : Dev nD) : X0 m c main_v3 = E0 m c main_v3 := X0_of_ne m c _ (by decide)
theorem E1_v3 (c : Dev nD) : E1 m c main_v3 = X0 m c main_v3 := E1_of m c _ (by decide)
theorem X1_v3 (c : Dev nD) : X1 m c main_v3 = E1 m c main_v3 := X1_of_ne m c _ (by decide)
theorem E2_v3 (c : Dev nD) : E2 m c main_v3 = X1 m c main_v3 := E2_of m c _ (by decide)
theorem X2_v3 (c : Dev nD) : X2 m c main_v3 = E2 m c main_v3 := X2_of_ne m c _ (by decide)
theorem E1_v28 (c : Dev nD) : E1 m c main_v28 = X0 m c main_v28 := E1_of m c _ (by decide)
theorem E2_v43 (c : Dev nD) : E2 m c main_v43 = X1 m c main_v43 := E2_of m c _ (by decide)
theorem E3_v58 (c : Dev nD) : E3 m c main_v58 = X2 m c main_v58 := E3_of m c _ (by decide)

/-! ## The regions, entered from any contents

Each region is first described at arbitrary entry contents: what it leaves is the entry contents with the output
array replaced by what the write-backs leave there. The program's run then reads these at the chain above. -/

section AnyContents

variable (W0 W1 W2 W3 : Dev nD → Valuation τ sig (Elt F))

/-- Every region's proof data, each at its own entry contents. -/
def pdatsAt : (p : Fin 4) → (c : Dev nD) → Dat τ (Elt F) Unit ℕ (UR sig nD τ) ℕ (Pipeline.pin (pcfgs (F := F)) adm p) c
  | ⟨0, _⟩ => fun c => dat0 (atTc W0) c
  | ⟨1, _⟩ => fun c => dat1 (atTc W1) c
  | ⟨2, _⟩ => fun c => dat2 (atTc W2) c
  | ⟨3, _⟩ => fun c => dat3 (atTc W3) c

abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every item: the core's generator register at some state and its dues,
    at nothing. -/
abbrev Rr (c : Dev nD) : sProp 𝕄 := iprop((∃ r, prngReg c r) ∗ ∃ W, owes (c : Thread nD τ) (0 : CellTallies nD τ sig Unit) W)

/-- What region 0 leaves from entry contents W: W but for the output array, which holds what the write-backs leave. -/
abbrev exit0 (W : Dev nD → Valuation τ sig (Elt F)) (c : Dev nD) : Valuation τ sig (Elt F) :=
  Function.update (W c) main_v28 ((dat0 (atTc W) c).arrAt 6 cfg0.N)
theorem exit0_of_ne (W : Dev nD → Valuation τ sig (Elt F)) (c : Dev nD) (b : Ref sig .tc) (h : b ≠ main_v28) :
    exit0 W c b = W c b :=
  Function.update_of_ne (StableHlo.devRef_ne_of_ne h) _ _
theorem exit0_out (W : Dev nD → Valuation τ sig (Elt F)) (c : Dev nD) :
    exit0 W c main_v28 = (dat0 (atTc W) c).arrAt 6 cfg0.N := Function.update_self _ _ _

set_option maxHeartbeats 1000000 in
/-- At region 0's exit each of its arrays holds what the write-backs leave (an input's array is never written), -/
theorem hF0 (W : Dev nD → Valuation τ sig (Elt F)) (c : Dev nD) (w : Fin cfg0.W) :
    (dat0 (atTc W) c).arrAt w cfg0.N = atTc (exit0 W) c (Pipeline.arrRef spec0 w) := by
  fin_cases w
  · exact (((dat0 (atTc W) c).arrAt_in 0 rfl _).trans (A_eq0 (atTc W) c 0)).trans (exit0_of_ne W c (Pipeline.arrRef spec0 0) (by decide)).symm
  · exact (((dat0 (atTc W) c).arrAt_in 1 rfl _).trans (A_eq0 (atTc W) c 1)).trans (exit0_of_ne W c (Pipeline.arrRef spec0 1) (by decide)).symm
  · exact (((dat0 (atTc W) c).arrAt_in 2 rfl _).trans (A_eq0 (atTc W) c 2)).trans (exit0_of_ne W c (Pipeline.arrRef spec0 2) (by decide)).symm
  · exact (((dat0 (atTc W) c).arrAt_in 3 rfl _).trans (A_eq0 (atTc W) c 3)).trans (exit0_of_ne W c (Pipeline.arrRef spec0 3) (by decide)).symm
  · exact (((dat0 (atTc W) c).arrAt_in 4 rfl _).trans (A_eq0 (atTc W) c 4)).trans (exit0_of_ne W c (Pipeline.arrRef spec0 4) (by decide)).symm
  · exact (((dat0 (atTc W) c).arrAt_in 5 rfl _).trans (A_eq0 (atTc W) c 5)).trans (exit0_of_ne W c (Pipeline.arrRef spec0 5) (by decide)).symm
  · exact (exit0_out W c).symm
/-- and every other buffer what it held at the entry. -/
theorem hrest0 (W : Dev nD → Valuation τ sig (Elt F)) (c : Dev nD) :
    ∀ b, b ∉ Finset.univ.image (Pipeline.arrRef spec0) → atTc (exit0 W) c b = atTc W c b :=
  fun b hb => exit0_of_ne W c b fun h => hb (h ▸ Finset.mem_image.mpr ⟨6, Finset.mem_univ _, rfl⟩)

set_option backward.isDefEq.respectTransparency.types false in
/-- Region 0 over the thread state: entered with every unscoped buffer at the entry contents, left with the output
    array at what the write-backs leave and every other buffer as entered. The region's arrays are split out of the
    unscoped buffers at the entry and put back at the exit; the generator register goes into the region's invariant
    and comes back; nothing is owed; the kernel has no semaphore of its own. -/
def regAt0 : Pipeline.RegionSeg (pcfgs (F := F)) adm (pdatsAt W0 W1 W2 W3) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (atTc W0) c).loose
  hwaits := Pipeline.hwaits_of_owed_zero _ _ _ _ L₀ lv₀ 0 fun _ _ => rfl
  pre c := iprop(StableHlo.held (c : Thread nD τ) (Pipeline.ucRefs τ sig) (W0 c) ∗ Rr c)
  post c := iprop(StableHlo.held (c : Thread nD τ) (Pipeline.ucRefs τ sig) (exit0 W0 c) ∗ Rr c)
  X c := iprop(∃ r, prngReg c r)
  Y c := iprop(∃ r, prngReg c r)
  Z c := Pipeline.unscopedRest (Ix := Unit) (Name := ℕ) (U := UR sig nD τ) (Lvl := ℕ) spec0 c (atTc W0 c)
  hentry c := by
    rw [Pipeline.ownSems0_none]
    have hsplit := Pipeline.arrays_of_unscopedBufs (p := 0) (pcfgs (F := F)) adm (pdatsAt W0 W1 W2 W3) launch0.win launch0.arr_whole c
      ((pdatsAt W0 W1 W2 W3 0 c).share_full fun _ => rfl) (atTc W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsAt W0 W1 W2 W3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsAt W0 W1 W2 W3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsAt W0 W1 W2 W3) ((pdatsAt W0 W1 W2 W3 0 c).share_full fun _ => rfl)
      (atTc W0 c) (atTc (exit0 W0) c) ((pdatsAt W0 W1 W2 W3 0 c).arrAt · cfg0.N) (hF0 W0 c) (hrest0 W0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 1 leaves from entry contents W: W but for the output array, which holds what the write-backs leave. -/
abbrev exit1 (W : Dev nD → Valuation τ sig (Elt F)) (c : Dev nD) : Valuation τ sig (Elt F) :=
  Function.update (W c) main_v43 ((dat1 (atTc W) c).arrAt 6 cfg1.N)
theorem exit1_of_ne (W : Dev nD → Valuation τ sig (Elt F)) (c : Dev nD) (b : Ref sig .tc) (h : b ≠ main_v43) :
    exit1 W c b = W c b :=
  Function.update_of_ne (StableHlo.devRef_ne_of_ne h) _ _
theorem exit1_out (W : Dev nD → Valuation τ sig (Elt F)) (c : Dev nD) :
    exit1 W c main_v43 = (dat1 (atTc W) c).arrAt 6 cfg1.N := Function.update_self _ _ _

set_option maxHeartbeats 1000000 in
/-- At region 1's exit each of its arrays holds what the write-backs leave (an input's array is never written), -/
theorem hF1 (W : Dev nD → Valuation τ sig (Elt F)) (c : Dev nD) (w : Fin cfg1.W) :
    (dat1 (atTc W) c).arrAt w cfg1.N = atTc (exit1 W) c (Pipeline.arrRef spec1 w) := by
  fin_cases w
  · exact (((dat1 (atTc W) c).arrAt_in 0 rfl _).trans (A_eq1 (atTc W) c 0)).trans (exit1_of_ne W c (Pipeline.arrRef spec1 0) (by decide)).symm
  · exact (((dat1 (atTc W) c).arrAt_in 1 rfl _).trans (A_eq1 (atTc W) c 1)).trans (exit1_of_ne W c (Pipeline.arrRef spec1 1) (by decide)).symm
  · exact (((dat1 (atTc W) c).arrAt_in 2 rfl _).trans (A_eq1 (atTc W) c 2)).trans (exit1_of_ne W c (Pipeline.arrRef spec1 2) (by decide)).symm
  · exact (((dat1 (atTc W) c).arrAt_in 3 rfl _).trans (A_eq1 (atTc W) c 3)).trans (exit1_of_ne W c (Pipeline.arrRef spec1 3) (by decide)).symm
  · exact (((dat1 (atTc W) c).arrAt_in 4 rfl _).trans (A_eq1 (atTc W) c 4)).trans (exit1_of_ne W c (Pipeline.arrRef spec1 4) (by decide)).symm
  · exact (((dat1 (atTc W) c).arrAt_in 5 rfl _).trans (A_eq1 (atTc W) c 5)).trans (exit1_of_ne W c (Pipeline.arrRef spec1 5) (by decide)).symm
  · exact (exit1_out W c).symm
/-- and every other buffer what it held at the entry. -/
theorem hrest1 (W : Dev nD → Valuation τ sig (Elt F)) (c : Dev nD) :
    ∀ b, b ∉ Finset.univ.image (Pipeline.arrRef spec1) → atTc (exit1 W) c b = atTc W c b :=
  fun b hb => exit1_of_ne W c b fun h => hb (h ▸ Finset.mem_image.mpr ⟨6, Finset.mem_univ _, rfl⟩)

set_option backward.isDefEq.respectTransparency.types false in
/-- Region 1 over the thread state: entered with every unscoped buffer at the entry contents, left with the output
    array at what the write-backs leave and every other buffer as entered. The region's arrays are split out of the
    unscoped buffers at the entry and put back at the exit; the generator register goes into the region's invariant
    and comes back; nothing is owed; the kernel has no semaphore of its own. -/
def regAt1 : Pipeline.RegionSeg (pcfgs (F := F)) adm (pdatsAt W0 W1 W2 W3) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (atTc W1) c).loose
  hwaits := Pipeline.hwaits_of_owed_zero _ _ _ _ L₀ lv₀ 1 fun _ _ => rfl
  pre c := iprop(StableHlo.held (c : Thread nD τ) (Pipeline.ucRefs τ sig) (W1 c) ∗ Rr c)
  post c := iprop(StableHlo.held (c : Thread nD τ) (Pipeline.ucRefs τ sig) (exit1 W1 c) ∗ Rr c)
  X c := iprop(∃ r, prngReg c r)
  Y c := iprop(∃ r, prngReg c r)
  Z c := Pipeline.unscopedRest (Ix := Unit) (Name := ℕ) (U := UR sig nD τ) (Lvl := ℕ) spec1 c (atTc W1 c)
  hentry c := by
    rw [Pipeline.ownSems0_none]
    have hsplit := Pipeline.arrays_of_unscopedBufs (p := 1) (pcfgs (F := F)) adm (pdatsAt W0 W1 W2 W3) launch1.win launch1.arr_whole c
      ((pdatsAt W0 W1 W2 W3 1 c).share_full fun _ => rfl) (atTc W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsAt W0 W1 W2 W3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsAt W0 W1 W2 W3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsAt W0 W1 W2 W3) ((pdatsAt W0 W1 W2 W3 1 c).share_full fun _ => rfl)
      (atTc W1 c) (atTc (exit1 W1) c) ((pdatsAt W0 W1 W2 W3 1 c).arrAt · cfg1.N) (hF1 W1 c) (hrest1 W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 2 leaves from entry contents W: W but for the output array, which holds what the write-backs leave. -/
abbrev exit2 (W : Dev nD → Valuation τ sig (Elt F)) (c : Dev nD) : Valuation τ sig (Elt F) :=
  Function.update (W c) main_v58 ((dat2 (atTc W) c).arrAt 6 cfg2.N)
theorem exit2_of_ne (W : Dev nD → Valuation τ sig (Elt F)) (c : Dev nD) (b : Ref sig .tc) (h : b ≠ main_v58) :
    exit2 W c b = W c b :=
  Function.update_of_ne (StableHlo.devRef_ne_of_ne h) _ _
theorem exit2_out (W : Dev nD → Valuation τ sig (Elt F)) (c : Dev nD) :
    exit2 W c main_v58 = (dat2 (atTc W) c).arrAt 6 cfg2.N := Function.update_self _ _ _

set_option maxHeartbeats 1000000 in
/-- At region 2's exit each of its arrays holds what the write-backs leave (an input's array is never written), -/
theorem hF2 (W : Dev nD → Valuation τ sig (Elt F)) (c : Dev nD) (w : Fin cfg2.W) :
    (dat2 (atTc W) c).arrAt w cfg2.N = atTc (exit2 W) c (Pipeline.arrRef spec2 w) := by
  fin_cases w
  · exact (((dat2 (atTc W) c).arrAt_in 0 rfl _).trans (A_eq2 (atTc W) c 0)).trans (exit2_of_ne W c (Pipeline.arrRef spec2 0) (by decide)).symm
  · exact (((dat2 (atTc W) c).arrAt_in 1 rfl _).trans (A_eq2 (atTc W) c 1)).trans (exit2_of_ne W c (Pipeline.arrRef spec2 1) (by decide)).symm
  · exact (((dat2 (atTc W) c).arrAt_in 2 rfl _).trans (A_eq2 (atTc W) c 2)).trans (exit2_of_ne W c (Pipeline.arrRef spec2 2) (by decide)).symm
  · exact (((dat2 (atTc W) c).arrAt_in 3 rfl _).trans (A_eq2 (atTc W) c 3)).trans (exit2_of_ne W c (Pipeline.arrRef spec2 3) (by decide)).symm
  · exact (((dat2 (atTc W) c).arrAt_in 4 rfl _).trans (A_eq2 (atTc W) c 4)).trans (exit2_of_ne W c (Pipeline.arrRef spec2 4) (by decide)).symm
  · exact (((dat2 (atTc W) c).arrAt_in 5 rfl _).trans (A_eq2 (atTc W) c 5)).trans (exit2_of_ne W c (Pipeline.arrRef spec2 5) (by decide)).symm
  · exact (exit2_out W c).symm
/-- and every other buffer what it held at the entry. -/
theorem hrest2 (W : Dev nD → Valuation τ sig (Elt F)) (c : Dev nD) :
    ∀ b, b ∉ Finset.univ.image (Pipeline.arrRef spec2) → atTc (exit2 W) c b = atTc W c b :=
  fun b hb => exit2_of_ne W c b fun h => hb (h ▸ Finset.mem_image.mpr ⟨6, Finset.mem_univ _, rfl⟩)

set_option backward.isDefEq.respectTransparency.types false in
/-- Region 2 over the thread state: entered with every unscoped buffer at the entry contents, left with the output
    array at what the write-backs leave and every other buffer as entered. The region's arrays are split out of the
    unscoped buffers at the entry and put back at the exit; the generator register goes into the region's invariant
    and comes back; nothing is owed; the kernel has no semaphore of its own. -/
def regAt2 : Pipeline.RegionSeg (pcfgs (F := F)) adm (pdatsAt W0 W1 W2 W3) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (atTc W2) c).loose
  hwaits := Pipeline.hwaits_of_owed_zero _ _ _ _ L₀ lv₀ 2 fun _ _ => rfl
  pre c := iprop(StableHlo.held (c : Thread nD τ) (Pipeline.ucRefs τ sig) (W2 c) ∗ Rr c)
  post c := iprop(StableHlo.held (c : Thread nD τ) (Pipeline.ucRefs τ sig) (exit2 W2 c) ∗ Rr c)
  X c := iprop(∃ r, prngReg c r)
  Y c := iprop(∃ r, prngReg c r)
  Z c := Pipeline.unscopedRest (Ix := Unit) (Name := ℕ) (U := UR sig nD τ) (Lvl := ℕ) spec2 c (atTc W2 c)
  hentry c := by
    rw [Pipeline.ownSems0_none]
    have hsplit := Pipeline.arrays_of_unscopedBufs (p := 2) (pcfgs (F := F)) adm (pdatsAt W0 W1 W2 W3) launch2.win launch2.arr_whole c
      ((pdatsAt W0 W1 W2 W3 2 c).share_full fun _ => rfl) (atTc W2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsAt W0 W1 W2 W3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsAt W0 W1 W2 W3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsAt W0 W1 W2 W3) ((pdatsAt W0 W1 W2 W3 2 c).share_full fun _ => rfl)
      (atTc W2 c) (atTc (exit2 W2) c) ((pdatsAt W0 W1 W2 W3 2 c).arrAt · cfg2.N) (hF2 W2 c) (hrest2 W2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 3 leaves from entry contents W: W but for the output array, which holds what the write-backs leave. -/
abbrev exit3 (W : Dev nD → Valuation τ sig (Elt F)) (c : Dev nD) : Valuation τ sig (Elt F) :=
  Function.update (W c) main_v60 ((dat3 (atTc W) c).arrAt 2 cfg3.N)
theorem exit3_of_ne (W : Dev nD → Valuation τ sig (Elt F)) (c : Dev nD) (b : Ref sig .tc) (h : b ≠ main_v60) :
    exit3 W c b = W c b :=
  Function.update_of_ne (StableHlo.devRef_ne_of_ne h) _ _
theorem exit3_out (W : Dev nD → Valuation τ sig (Elt F)) (c : Dev nD) :
    exit3 W c main_v60 = (dat3 (atTc W) c).arrAt 2 cfg3.N := Function.update_self _ _ _

set_option maxHeartbeats 1000000 in
/-- At region 3's exit each of its arrays holds what the write-backs leave (an input's array is never written), -/
theorem hF3 (W : Dev nD → Valuation τ sig (Elt F)) (c : Dev nD) (w : Fin cfg3.W) :
    (dat3 (atTc W) c).arrAt w cfg3.N = atTc (exit3 W) c (Pipeline.arrRef spec3 w) := by
  fin_cases w
  · exact (((dat3 (atTc W) c).arrAt_in 0 rfl _).trans (A_eq3 (atTc W) c 0)).trans (exit3_of_ne W c (Pipeline.arrRef spec3 0) (by decide)).symm
  · exact (((dat3 (atTc W) c).arrAt_in 1 rfl _).trans (A_eq3 (atTc W) c 1)).trans (exit3_of_ne W c (Pipeline.arrRef spec3 1) (by decide)).symm
  · exact (exit3_out W c).symm
/-- and every other buffer what it held at the entry. -/
theorem hrest3 (W : Dev nD → Valuation τ sig (Elt F)) (c : Dev nD) :
    ∀ b, b ∉ Finset.univ.image (Pipeline.arrRef spec3) → atTc (exit3 W) c b = atTc W c b :=
  fun b hb => exit3_of_ne W c b fun h => hb (h ▸ Finset.mem_image.mpr ⟨2, Finset.mem_univ _, rfl⟩)

set_option backward.isDefEq.respectTransparency.types false in
/-- Region 3 over the thread state: entered with every unscoped buffer at the entry contents, left with the output
    array at what the one write-back leaves and every other buffer as entered. Its invariant carries the two
    accumulators between the points; at the two ends it is the plain form — the scoped buffers at anything beside
    the generator register — which is what the launch hands over and takes back. -/
def regAt3 : Pipeline.RegionSeg (pcfgs (F := F)) adm (pdatsAt W0 W1 W2 W3) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (atTc W3) c).loose
  hwaits := Pipeline.hwaits_of_owed_zero _ _ _ _ L₀ lv₀ 3 fun _ _ => rfl
  pre c := iprop(StableHlo.held (c : Thread nD τ) (Pipeline.ucRefs τ sig) (W3 c) ∗ Rr c)
  post c := iprop(StableHlo.held (c : Thread nD τ) (Pipeline.ucRefs τ sig) (exit3 W3 c) ∗ Rr c)
  X c := iprop(∃ r, prngReg c r)
  Y c := iprop(∃ r, prngReg c r)
  Z c := Pipeline.unscopedRest (Ix := Unit) (Name := ℕ) (U := UR sig nD τ) (Lvl := ℕ) spec3 c (atTc W3 c)
  hentry c := by
    rw [Pipeline.ownSems0_none]
    have hsplit := Pipeline.arrays_of_unscopedBufs (p := 3) (pcfgs (F := F)) adm (pdatsAt W0 W1 W2 W3) launch3.win launch3.arr_whole c
      ((pdatsAt W0 W1 W2 W3 3 c).share_full fun _ => rfl) (atTc W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc W3) c)
    unfold Pipeline.ΦA
    iintro ⟨Hp, -, Hr⟩
    isplitl [Hr]; · iexact Hr
    iexact Hp
  hout c := by
    rw [Pipeline.ownSems0_none]
    refine BIBase.Entails.trans (hout3 (atTc W3) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsAt W0 W1 W2 W3) ((pdatsAt W0 W1 W2 W3 3 c).share_full fun _ => rfl)
      (atTc W3 c) (atTc (exit3 W3) c) ((pdatsAt W0 W1 W2 W3 3 c).arrAt · cfg3.N) (hF3 W3 c) (hrest3 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end AnyContents

/-! ## The regions at the chain's contents -/

/-- Every region's proof data at the contents its region is entered with. -/
abbrev pdats : (p : Fin 4) → (c : Dev nD) → Dat τ (Elt F) Unit ℕ (UR sig nD τ) ℕ (Pipeline.pin (pcfgs (F := F)) adm p) c :=
  pdatsAt (E0 m) (E1 m) (E2 m) (E3 m)
def reg0 : Pipeline.RegionSeg (pcfgs (F := F)) adm (pdats m) () defs₀ 𝒱₀ L₀ lv₀ 0 := regAt0 (E0 m) (E1 m) (E2 m) (E3 m)
def reg1 : Pipeline.RegionSeg (pcfgs (F := F)) adm (pdats m) () defs₀ 𝒱₀ L₀ lv₀ 1 := regAt1 (E0 m) (E1 m) (E2 m) (E3 m)
def reg2 : Pipeline.RegionSeg (pcfgs (F := F)) adm (pdats m) () defs₀ 𝒱₀ L₀ lv₀ 2 := regAt2 (E0 m) (E1 m) (E2 m) (E3 m)
def reg3 : Pipeline.RegionSeg (pcfgs (F := F)) adm (pdats m) () defs₀ 𝒱₀ L₀ lv₀ 3 := regAt3 (E0 m) (E1 m) (E2 m) (E3 m)

/-- Each region is entered from the contents the item before it leaves and leaves those the next item is entered from. -/
theorem hpre0 (c : Dev nD) : iprop(StableHlo.held (c : Thread nD τ) (Pipeline.ucRefs τ sig) (V1 m c) ∗ Rr c) ⊢ (reg0 m).pre c := .rfl
theorem hpost0 (c : Dev nD) : (reg0 m).post c ⊢ iprop(StableHlo.held (c : Thread nD τ) (Pipeline.ucRefs τ sig) (V2 m (outs m) c) ∗ Rr c) := by
  rw [V2_eq]; exact .rfl
theorem hpre1 (c : Dev nD) : iprop(StableHlo.held (c : Thread nD τ) (Pipeline.ucRefs τ sig) (V3 m (outs m) c) ∗ Rr c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ Rr c) := by
  rw [V4_eq]; exact .rfl
theorem hpre2 (c : Dev nD) : iprop(StableHlo.held (c : Thread nD τ) (Pipeline.ucRefs τ sig) (V5 m (outs m) c) ∗ Rr c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ Rr c) := by
  rw [V6_eq]; exact .rfl
theorem hpre3 (c : Dev nD) : iprop(StableHlo.held (c : Thread nD τ) (Pipeline.ucRefs τ sig) (V7 m (outs m) c) ∗ Rr c) ⊢ (reg3 m).pre c := by
  rw [V7_eq]; exact .rfl
/-- The last region leaves the last contents beside the core owing nothing; the generator register is let go. -/
theorem hpost3 (c : Dev nD) : (reg3 m).post c ⊢ iprop(StableHlo.held (c : Thread nD τ) (Pipeline.ucRefs τ sig) (V8 m (outs m) c)
    ∗ ∃ W, owes (c : Thread nD τ) (0 : CellTallies nD τ sig Unit) W) := by
  rw [V8_eq]
  show iprop(StableHlo.held (c : Thread nD τ) (Pipeline.ucRefs τ sig) (X3 m c) ∗ Rr c) ⊢ _
  iintro ⟨Hh, -, HO⟩
  isplitl [Hh]; · iexact Hh
  iexact HO

/-! ## The launch -/

set_option backward.isDefEq.respectTransparency.types false in
theorem run_main : θ_run defs (onTc (τ := τ) (main (F := F))) ⟨m, fun _ => 0, ρ⟩ (fun r => ∀ c : Dev nD,
      r.2.mem ((c.tc : Thread nD τ).loc main_v60) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L₀ lv₀ m ρ main
    (segs m (outs m) 𝒱₀ L₀ lv₀ (fun _ => Rr) () (pdats m) (reg0 m) (reg1 m) (reg2 m) (reg3 m))
    (fun c Q => by
      rewrite [main_chain c, Pipeline.Seg.run_eq_chain,
        show (segs m (outs m) 𝒱₀ L₀ lv₀ (fun _ => Rr) () (pdats m) (reg0 m) (reg1 m) (reg2 m) (reg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V8 m (outs m) c))
    (hch := fun c => ⟨.rfl, hpre0 m c, hpost0 m c, hpre1 m c, hpost1 m c, hpre2 m c, hpost2 m c, hpre3 m c, hpost3 m c⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v60) = o3 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11))
    (hfin := fun c s' => ?_) (hQ := fun _ h => h)
  -- the end: the last region's output array and each argument's buffer, read off the last contents
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    have rd : ∀ b : Ref sig .tc, ¬ (Proc.devRef .tc b : DevRef τ sig).isScoped →
        s'.mem.mem ((c.tc : Thread nD τ).loc b) = V8 m (outs m) c b :=
      fun b hb => h (Proc.devRef .tc b) (Finset.mem_filter.mpr ⟨StableHlo.devRef_mem_tcRefs b, hb⟩)
    exact ⟨(rd main_v60 (by decide)).trans (V8_main_v60 m c),
      (rd main_arg0 (by decide)).trans (V8_main_arg0 m (outs m) c),
      (rd main_arg1 (by decide)).trans (V8_main_arg1 m (outs m) c),
      (rd main_arg2 (by decide)).trans (V8_main_arg2 m (outs m) c),
      (rd main_arg3 (by decide)).trans (V8_main_arg3 m (outs m) c),
      (rd main_arg4 (by decide)).trans (V8_main_arg4 m (outs m) c),
      (rd main_arg5 (by decide)).trans (V8_main_arg5 m (outs m) c),
      (rd main_arg6 (by decide)).trans (V8_main_arg6 m (outs m) c),
      (rd main_arg7 (by decide)).trans (V8_main_arg7 m (outs m) c),
      (rd main_arg8 (by decide)).trans (V8_main_arg8 m (outs m) c),
      (rd main_arg9 (by decide)).trans (V8_main_arg9 m (outs m) c),
      (rd main_arg10 (by decide)).trans (V8_main_arg10 m (outs m) c),
      (rd main_arg11 (by decide)).trans (V8_main_arg11 m (outs m) c)⟩
  · iexact HSI

end Cert.KernelIdeal.Hand

end
-- ==== Proof.Spec.lean ====
/- The mathematics both programs compute, stated over plain coordinate-indexed functions into the extended reals,
   with no program in sight.

   One graph-convolution layer: at node n and output feature o,
     (Σ_k mean n k · Wl k o) + b o + Σ_k x n k · Wr k o,
   where mean n k is the neighbourhood sum agg n k over the in-degree clamped below at one. One program divides by
   the clamped degree; the other multiplies by its reciprocal, computed once: the two agree because the clamped
   degree is never zero. The mean pool: per graph g and feature f, the sum of the rows whose graph id is g over
   their number clamped below at one; one program adds those rows directly, the other multiplies every row by the
   indicator of "its id is g" and adds everything. -/
import Idealize.ShloMosaic.PureOps.Ideal
import Idealize.ShloMosaic.PureOps.Ideal.Laws
import Mathlib.Algebra.BigOperators.Group.Finset.Basic
import Mathlib.Algebra.BigOperators.Ring.Finset

noncomputable section

namespace Cert.Spec

open Idealize.ShloMosaic

variable {N K O G : ℕ}

/-- The neighbourhood mean: the sum over the degree clamped below at one. -/
def mean (agg : Fin N → Fin K → EReal) (cnt : Fin N → EReal) (n : Fin N) (k : Fin K) : EReal :=
  Ideal.div (agg n k) (max (cnt n) 1)

/-- A layer before its activation, from the neighbourhood MEAN a: (Σ_k a n k · Wl k o) + b o + Σ_k x n k · Wr k o. -/
def lin (a x : Fin N → Fin K → EReal) (WlT WrT : Fin K → Fin O → EReal) (bl : Fin O → EReal) (n : Fin N) (o : Fin O) : EReal :=
  (∑ k : Fin K, a n k * WlT k o) + bl o + ∑ k : Fin K, x n k * WrT k o

/-- The rectifier. -/
def relu (v : EReal) : EReal := max v 0

/-- The indicator of "row n belongs to graph g" as an extended real. -/
def ind (b : Fin N → BitVec 32) (g : Fin G) (n : Fin N) : EReal := if b n = BitVec.ofNat 32 g.val then 1 else 0

/-- The mean pool: the rows of graph g added up, over their number clamped below at one. -/
def pool (h : Fin N → Fin O → EReal) (b : Fin N → BitVec 32) (g : Fin G) (f : Fin O) : EReal :=
  Ideal.div (∑ n : Fin N, ind b g n * h n f) (max (∑ n : Fin N, ind b g n * 1) 1)

/-- Multiplying by the reciprocal of a number that is at least one is dividing by it. -/
theorem mul_div_one (a y : EReal) (hy : 1 ≤ y) : a * Ideal.div 1 y = Ideal.div a y := by
  have h0 : y ≠ 0 := fun h => by rw [h] at hy; exact absurd hy (by norm_num)
  unfold Ideal.div
  rw [if_neg h0, if_neg h0, one_mul]

/-- The reciprocal form of the mean: the sum times the reciprocal of the clamped degree. -/
theorem mean_eq_mul (agg : Fin N → Fin K → EReal) (cnt : Fin N → EReal) (n : Fin N) (k : Fin K) :
    agg n k * Ideal.div 1 (max (cnt n) 1) = mean agg cnt n k :=
  mul_div_one _ _ (le_max_right _ _)

/-- The indicator-weighted sum is the sum over the rows of the graph. -/
theorem sum_ind_mul (b : Fin N → BitVec 32) (g : Fin G) (v : Fin N → EReal) :
    ∑ n : Fin N, ind b g n * v n = ∑ n ∈ Finset.univ.filter (fun n => b n = BitVec.ofNat 32 g.val), v n := by
  rw [Finset.sum_filter]
  refine Finset.sum_congr rfl fun n _ => ?_
  unfold ind
  split <;> simp

end Cert.Spec

end
-- ==== Proof.KI.LayerVal0.lean ====
/- Region 0 (the first combine step) read as a value at the ideal numbers: the output array after the region's
   launch is, row by row and column by column, the rectifier of the layer's affine form of the arrays the region
   found. First the body's arithmetic at one element of a block; then what a grid point writes back, as its block
   of one whole-array function; then the tiling of the array by the blocks. -/
import proofs.«420400_j39874476376561_3_alg».proof.Proof.KI.C0
import proofs.«420400_j39874476376561_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

namespace LV0

/-! ## The two contractions at an element -/

theorem lhs_ax0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_ax1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs_ax0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs_ax1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A block's matrix product onto the zero accumulator, at row p and column q: the sum over the contraction index. -/
theorem matmul_at (l : FVec Ideal S2000x64 .bf16) (r : FVec Ideal S64x128 .bf16) (p : Fin 2000) (q : Fin 128) :
    matmul dot_S2000x64_S64x128_S2000x128_1_0_0_1_n_n none l r (constant (F := Ideal) S2000x128 .f32 0x00000000#32) (ix2 p q)
      = ∑ k : Fin 64, l (ix2 p k) * r (ix2 k q) := by
  refine (Ideal.matmul_constant_zero_apply dot_S2000x64_S64x128_S2000x128_1_0_0_1_n_n none l r (ix2 p q)).trans ?_
  rw [← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]

/-- A column broadcast along the rows: at (p, k) it reads the column's entry of row p. -/
theorem bcast_col_at (v : (⟨2, ![2000, 1]⟩ : Shape).Idx → EReal) (h : (⟨2, ![2000, 1]⟩ : Shape).Broadcasts ⟨2, ![2000, 64]⟩)
    (p : Fin 2000) (k : Fin 64) : broadcastTo ⟨2, ![2000, 64]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's arithmetic at one element of the output block: the rectifier of the affine form of row p of the
    blocks (the aggregate scaled by the row's reciprocal count, through the first weight matrix, plus the bias,
    plus the root features through the second). -/
theorem pay_at (x0 : Vec Ideal S2000x64 .f32) (x1 : Vec Ideal S2000x64 .bf16) (x2 : Vec Ideal S2000x1 .f32)
    (x3 : Vec Ideal S64x128 .f32) (x4 : Vec Ideal S64x128 .f32) (x5 : Vec Ideal S1x128 .f32) (p : Fin 2000) (q : Fin 128) :
    k0_pay1 (F := Ideal) x0 x2 x1 x3 x4 x5 (ix2 p q)
      = max ((∑ k : Fin 64, (x0 (ix2 p k) * x2 (ix2 p (0 : Fin 1))) * x3 (ix2 k q)) + x5 (ix2 (0 : Fin 1) q)
          + ∑ k : Fin 64, x1 (ix2 p k) * x4 (ix2 k q)) 0 := by
  unfold k0_pay1
  simp only [shapeCast_self]
  rw [truncf_apply, maximumf_apply, addf_apply, addf_apply, matmul_at, matmul_at, broadcastTo_1b_ab_apply, broadcast_apply]
  simp only [truncf_apply, mulf_apply, bcast_col_at]
  exact congrArg (max _) Ideal.ofBits_zero_f32

/-! ## The blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: a row tile moves with the point, a weight matrix and the
    bias row stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The aggregate's block at point t is rows 2000 t … 2000 t + 1999 of the array. -/
theorem blk0_at (c : Dev nD) (t : Fin cfg0.N) (p : Fin 2000) (k : Fin 64) (n : Fin 50000) (hn : n.val = t.val * 2000 + p.val) :
    (iblk0 V c 0 t : S2000x64.Idx → EReal) (ix2 p k) = (V c main_v24 : S50000x64.Idx → EReal) (ix2 n k) := by
  obtain ⟨e0, e1, -⟩ := idx_facts t
  show (V c main_v24 : S50000x64.Idx → EReal) (((cfg0.win 0).blk t).view.emb (ix2 p k)) = _
  refine congrArg _ (funext fun a => Fin.ext ?_)
  match a with
  | ⟨0, _⟩ => show win0_0.index t (0 : Fin 2) * 2000 + 1 * p.val = n.val; omega
  | ⟨1, _⟩ => show win0_0.index t (1 : Fin 2) * 64 + 1 * k.val = k.val; omega

/-- The root features' block likewise. -/
theorem blk1_at (c : Dev nD) (t : Fin cfg0.N) (p : Fin 2000) (k : Fin 64) (n : Fin 50000) (hn : n.val = t.val * 2000 + p.val) :
    (iblk0 V c 1 t : S2000x64.Idx → EReal) (ix2 p k) = (V c main_v13 : S50000x64.Idx → EReal) (ix2 n k) := by
  obtain ⟨-, -, e0, e1, -⟩ := idx_facts t
  show (V c main_v13 : S50000x64.Idx → EReal) (((cfg0.win 1).blk t).view.emb (ix2 p k)) = _
  refine congrArg _ (funext fun a => Fin.ext ?_)
  match a with
  | ⟨0, _⟩ => show win0_1.index t (0 : Fin 2) * 2000 + 1 * p.val = n.val; omega
  | ⟨1, _⟩ => show win0_1.index t (1 : Fin 2) * 64 + 1 * k.val = k.val; omega

/-- The reciprocal counts' block likewise (one column). -/
theorem blk2_at (c : Dev nD) (t : Fin cfg0.N) (p : Fin 2000) (n : Fin 50000) (hn : n.val = t.val * 2000 + p.val) :
    (iblk0 V c 2 t : S2000x1.Idx → EReal) (ix2 p (0 : Fin 1)) = (V c main_v12 : S50000x1.Idx → EReal) (ix2 n (0 : Fin 1)) := by
  obtain ⟨-, -, -, -, e0, e1, -⟩ := idx_facts t
  show (V c main_v12 : S50000x1.Idx → EReal) (((cfg0.win 2).blk t).view.emb (ix2 p (0 : Fin 1))) = _
  refine congrArg _ (funext fun a => Fin.ext ?_)
  match a with
  | ⟨0, _⟩ => show win0_2.index t (0 : Fin 2) * 2000 + 1 * p.val = n.val; omega
  | ⟨1, _⟩ => show win0_2.index t (1 : Fin 2) * 1 + 1 * 0 = 0; omega

/-- A weight matrix's block is the whole matrix, at every point. -/
theorem blk3_at (c : Dev nD) (t : Fin cfg0.N) (k : Fin 64) (q : Fin 128) :
    (iblk0 V c 3 t : S64x128.Idx → EReal) (ix2 k q) = (V c main_v25 : S64x128.Idx → EReal) (ix2 k q) := by
  obtain ⟨-, -, -, -, -, -, e0, e1, -⟩ := idx_facts t
  show (V c main_v25 : S64x128.Idx → EReal) (((cfg0.win 3).blk t).view.emb (ix2 k q)) = _
  refine congrArg _ (funext fun a => Fin.ext ?_)
  match a with
  | ⟨0, _⟩ => show win0_3.index t (0 : Fin 2) * 64 + 1 * k.val = k.val; omega
  | ⟨1, _⟩ => show win0_3.index t (1 : Fin 2) * 128 + 1 * q.val = q.val; omega

theorem blk4_at (c : Dev nD) (t : Fin cfg0.N) (k : Fin 64) (q : Fin 128) :
    (iblk0 V c 4 t : S64x128.Idx → EReal) (ix2 k q) = (V c main_v26 : S64x128.Idx → EReal) (ix2 k q) := by
  obtain ⟨-, -, -, -, -, -, -, -, e0, e1, -⟩ := idx_facts t
  show (V c main_v26 : S64x128.Idx → EReal) (((cfg0.win 4).blk t).view.emb (ix2 k q)) = _
  refine congrArg _ (funext fun a => Fin.ext ?_)
  match a with
  | ⟨0, _⟩ => show win0_4.index t (0 : Fin 2) * 64 + 1 * k.val = k.val; omega
  | ⟨1, _⟩ => show win0_4.index t (1 : Fin 2) * 128 + 1 * q.val = q.val; omega

/-- The bias row's block is the whole row, at every point. -/
theorem blk5_at (c : Dev nD) (t : Fin cfg0.N) (q : Fin 128) :
    (iblk0 V c 5 t : S1x128.Idx → EReal) (ix2 (0 : Fin 1) q) = (V c main_v27 : S1x128.Idx → EReal) (ix2 (0 : Fin 1) q) := by
  obtain ⟨-, -, -, -, -, -, -, -, -, -, e0, e1, -⟩ := idx_facts t
  show (V c main_v27 : S1x128.Idx → EReal) (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-! ## What a point writes back -/

/-- The whole output array as one function of the arrays the region found: at (n, o) the rectified layer. -/
def G (c : Dev nD) : S50000x128.Idx → EReal := fun j =>
  Spec.relu (Spec.lin (fun n k => @HMul.hMul EReal EReal EReal instHMul ((V c main_v24 : S50000x64.Idx → EReal) (ix2 n k)) ((V c main_v12 : S50000x1.Idx → EReal) (ix2 n (0 : Fin 1))))
    (fun n k => (V c main_v13 : S50000x64.Idx → EReal) (ix2 n k))
    (fun k o => (V c main_v25 : S64x128.Idx → EReal) (ix2 k o)) (fun k o => (V c main_v26 : S64x128.Idx → EReal) (ix2 k o))
    (fun o => (V c main_v27 : S1x128.Idx → EReal) (ix2 (0 : Fin 1) o))
    (⟨(j 0).val, idx2_lt0 j⟩ : Fin 50000) (⟨(j 1).val, idx2_lt1 j⟩ : Fin 128))

/-- Point t writes back its block of that function. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x64) hz, View.ld_unit_zero (S := S2000x1) hz, View.ld_unit_zero (S := S64x128) hz, View.ld_unit_zero (S := S1x128) hz]
  funext j
  obtain ⟨p, q, rfl⟩ : ∃ (p : Fin 2000) (q : Fin 128), j = ix2 p q := ⟨j 0, j 1, eq_ix2 j⟩
  have hN : t.val < 25 := lt_of_lt_of_eq t.isLt N_0
  have hp : p.val < 2000 := p.isLt
  obtain ⟨-, -, -, -, -, -, -, -, -, -, -, -, e0, e1⟩ := idx_facts t
  have hemb : ((cfg0.win 6).blk t).view.emb (ix2 p q) = (ix2 (⟨t.val * 2000 + p.val, by omega⟩ : Fin 50000) q : S50000x128.Idx) :=
    funext fun a => Fin.ext (by
      match a with
      | ⟨0, _⟩ => show win0_6.index t (0 : Fin 2) * 2000 + 1 * p.val = t.val * 2000 + p.val; omega
      | ⟨1, _⟩ => show win0_6.index t (1 : Fin 2) * 128 + 1 * q.val = q.val; omega)
  show k0_pay1 (F := Ideal) (iblk0 V c 0 t) (iblk0 V c 2 t) (iblk0 V c 1 t) (iblk0 V c 3 t) (iblk0 V c 4 t) (iblk0 V c 5 t) (ix2 p q)
    = G V c (((cfg0.win 6).blk t).view.emb (ix2 p q))
  rw [hemb]
  refine (pay_at (iblk0 V c 0 t) (iblk0 V c 1 t) (iblk0 V c 2 t) (iblk0 V c 3 t) (iblk0 V c 4 t) (iblk0 V c 5 t) p q).trans ?_
  unfold G Spec.relu Spec.lin
  simp only [blk0_at V c t p _ ⟨t.val * 2000 + p.val, by omega⟩ rfl, blk1_at V c t p _ ⟨t.val * 2000 + p.val, by omega⟩ rfl,
    blk2_at V c t p ⟨t.val * 2000 + p.val, by omega⟩ rfl, blk3_at V c t, blk4_at V c t, blk5_at V c t]

/-! ## The blocks tile the array -/

theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v28).slice (win0_6.rect t)).set ↔ _
  rw [View.set_slice_whole, Rect.mem_set_unit]
  exact Iff.rfl

/-- Row r of the array is in the block of point r / 2000, and every point writes its block back. -/
theorem cover (i : S50000x128.Idx) : ∃ t : Fin cfg0.N, (cfg0.win 6).flush t = true ∧ i ∈ ((cfg0.win 6).blk t).view.set := by
  have hi0 : (i 0).val < 50000 := idx2_lt0 i
  have hi1 : (i 1).val < 128 := idx2_lt1 i
  have hN : cfg0.N = 25 := N_0
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e1]; omega

end LV0

/-- THE OUTPUT ARRAY OF REGION 0 after its launch, at row n and column o: the rectifier of the layer's affine form of
    the arrays the region found (the aggregate times the row's reciprocal count as the neighbourhood mean). -/
theorem layer0_apply (V : (c : Dev nD) → (b : Ref sig .tc) → Buf (Elt Ideal) ((c : Thread nD τ).loc b)) (c : Dev nD) (n : Fin 50000) (o : Fin 128) :
    (dat0 (F := Ideal) V c).arrAt 6 cfg0.N (ix2 n o)
      = Spec.relu (Spec.lin (fun n k => @HMul.hMul EReal EReal EReal instHMul (V c main_v24 (ix2 n k)) (V c main_v12 (ix2 n 0))) (fun n k => V c main_v13 (ix2 n k))
          (fun k o => V c main_v25 (ix2 k o)) (fun k o => V c main_v26 (ix2 k o)) (fun o => V c main_v27 (ix2 0 o)) n o) := by
  rw [(dat0 (F := Ideal) V c).arrAt_eq_of_cover 6 (LV0.G V c) (fun t _ => LV0.flushed_eq V c t) LV0.cover]
  rfl

end Cert.KernelIdeal.Hand

end
-- ==== Proof.KI.LayerVal1.lean ====
/- Region 1 (combine step 2) read as a value at the ideal numbers: the output array after the region's
   launch is, row by row and column by column, the rectifier of the layer's affine form of the arrays the region
   found. First the body's arithmetic at one element of a block; then what a grid point writes back, as its block
   of one whole-array function; then the tiling of the array by the blocks. -/
import proofs.«420400_j39874476376561_3_alg».proof.Proof.KI.C1
import proofs.«420400_j39874476376561_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

namespace LV1

/-! ## The two contractions at an element -/

theorem lhs_ax0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_ax1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_ax0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_ax1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block's matrix product onto the zero accumulator, at row p and column q: the sum over the contraction index. -/
theorem matmul_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- A column broadcast along the rows: at (p, k) it reads the column's entry of row p. -/
theorem bcast_col_at (v : (⟨2, ![2000, 1]⟩ : Shape).Idx → EReal) (h : (⟨2, ![2000, 1]⟩ : Shape).Broadcasts ⟨2, ![2000, 128]⟩)
    (p : Fin 2000) (k : Fin 128) : broadcastTo ⟨2, ![2000, 128]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's arithmetic at one element of the output block: the rectifier of the affine form of row p of the
    blocks (the aggregate scaled by the row's reciprocal count, through the first weight matrix, plus the bias,
    plus the root features through the second). -/
theorem pay_at (x0 : Vec Ideal S2000x128 .f32) (x1 : Vec Ideal S2000x128 .bf16) (x2 : Vec Ideal S2000x1 .f32)
    (x3 : Vec Ideal S128x128 .f32) (x4 : Vec Ideal S128x128 .f32) (x5 : Vec Ideal S1x128 .f32) (p : Fin 2000) (q : Fin 128) :
    k1_pay1 (F := Ideal) x0 x2 x1 x3 x4 x5 (ix2 p q)
      = max ((∑ k : Fin 128, (x0 (ix2 p k) * x2 (ix2 p (0 : Fin 1))) * x3 (ix2 k q)) + x5 (ix2 (0 : Fin 1) q)
          + ∑ k : Fin 128, x1 (ix2 p k) * x4 (ix2 k q)) 0 := by
  unfold k1_pay1
  simp only [shapeCast_self]
  rw [truncf_apply, maximumf_apply, addf_apply, addf_apply, matmul_at, matmul_at, broadcastTo_1b_ab_apply, broadcast_apply]
  simp only [truncf_apply, mulf_apply, bcast_col_at]
  exact congrArg (max _) Ideal.ofBits_zero_f32

/-! ## The blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: a row tile moves with the point, a weight matrix and the
    bias row stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate's block at point t is rows 2000 t … 2000 t + 1999 of the array. -/
theorem blk0_at (c : Dev nD) (t : Fin cfg1.N) (p : Fin 2000) (k : Fin 128) (n : Fin 50000) (hn : n.val = t.val * 2000 + p.val) :
    (iblk1 V c 0 t : S2000x128.Idx → EReal) (ix2 p k) = (V c main_v39 : S50000x128.Idx → EReal) (ix2 n k) := by
  obtain ⟨e0, e1, -⟩ := idx_facts t
  show (V c main_v39 : S50000x128.Idx → EReal) (((cfg1.win 0).blk t).view.emb (ix2 p k)) = _
  refine congrArg _ (funext fun a => Fin.ext ?_)
  match a with
  | ⟨0, _⟩ => show win1_0.index t (0 : Fin 2) * 2000 + 1 * p.val = n.val; omega
  | ⟨1, _⟩ => show win1_0.index t (1 : Fin 2) * 128 + 1 * k.val = k.val; omega

/-- The root features' block likewise. -/
theorem blk1_at (c : Dev nD) (t : Fin cfg1.N) (p : Fin 2000) (k : Fin 128) (n : Fin 50000) (hn : n.val = t.val * 2000 + p.val) :
    (iblk1 V c 1 t : S2000x128.Idx → EReal) (ix2 p k) = (V c main_v28 : S50000x128.Idx → EReal) (ix2 n k) := by
  obtain ⟨-, -, e0, e1, -⟩ := idx_facts t
  show (V c main_v28 : S50000x128.Idx → EReal) (((cfg1.win 1).blk t).view.emb (ix2 p k)) = _
  refine congrArg _ (funext fun a => Fin.ext ?_)
  match a with
  | ⟨0, _⟩ => show win1_1.index t (0 : Fin 2) * 2000 + 1 * p.val = n.val; omega
  | ⟨1, _⟩ => show win1_1.index t (1 : Fin 2) * 128 + 1 * k.val = k.val; omega

/-- The reciprocal counts' block likewise (one column). -/
theorem blk2_at (c : Dev nD) (t : Fin cfg1.N) (p : Fin 2000) (n : Fin 50000) (hn : n.val = t.val * 2000 + p.val) :
    (iblk1 V c 2 t : S2000x1.Idx → EReal) (ix2 p (0 : Fin 1)) = (V c main_v12 : S50000x1.Idx → EReal) (ix2 n (0 : Fin 1)) := by
  obtain ⟨-, -, -, -, e0, e1, -⟩ := idx_facts t
  show (V c main_v12 : S50000x1.Idx → EReal) (((cfg1.win 2).blk t).view.emb (ix2 p (0 : Fin 1))) = _
  refine congrArg _ (funext fun a => Fin.ext ?_)
  match a with
  | ⟨0, _⟩ => show win1_2.index t (0 : Fin 2) * 2000 + 1 * p.val = n.val; omega
  | ⟨1, _⟩ => show win1_2.index t (1 : Fin 2) * 1 + 1 * 0 = 0; omega

/-- A weight matrix's block is the whole matrix, at every point. -/
theorem blk3_at (c : Dev nD) (t : Fin cfg1.N) (k : Fin 128) (q : Fin 128) :
    (iblk1 V c 3 t : S128x128.Idx → EReal) (ix2 k q) = (V c main_v40 : S128x128.Idx → EReal) (ix2 k q) := by
  obtain ⟨-, -, -, -, -, -, e0, e1, -⟩ := idx_facts t
  show (V c main_v40 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk4_at (c : Dev nD) (t : Fin cfg1.N) (k : Fin 128) (q : Fin 128) :
    (iblk1 V c 4 t : S128x128.Idx → EReal) (ix2 k q) = (V c main_v41 : S128x128.Idx → EReal) (ix2 k q) := by
  obtain ⟨-, -, -, -, -, -, -, -, e0, e1, -⟩ := idx_facts t
  show (V c main_v41 : S128x128.Idx → EReal) (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The bias row's block is the whole row, at every point. -/
theorem blk5_at (c : Dev nD) (t : Fin cfg1.N) (q : Fin 128) :
    (iblk1 V c 5 t : S1x128.Idx → EReal) (ix2 (0 : Fin 1) q) = (V c main_v42 : S1x128.Idx → EReal) (ix2 (0 : Fin 1) q) := by
  obtain ⟨-, -, -, -, -, -, -, -, -, -, e0, e1, -⟩ := idx_facts t
  show (V c main_v42 : S1x128.Idx → EReal) (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-! ## What a point writes back -/

/-- The whole output array as one function of the arrays the region found: at (n, o) the rectified layer. -/
def G (c : Dev nD) : S50000x128.Idx → EReal := fun j =>
  Spec.relu (Spec.lin (fun n k => @HMul.hMul EReal EReal EReal instHMul ((V c main_v39 : S50000x128.Idx → EReal) (ix2 n k)) ((V c main_v12 : S50000x1.Idx → EReal) (ix2 n (0 : Fin 1))))
    (fun n k => (V c main_v28 : S50000x128.Idx → EReal) (ix2 n k))
    (fun k o => (V c main_v40 : S128x128.Idx → EReal) (ix2 k o)) (fun k o => (V c main_v41 : S128x128.Idx → EReal) (ix2 k o))
    (fun o => (V c main_v42 : S1x128.Idx → EReal) (ix2 (0 : Fin 1) o))
    (⟨(j 0).val, idx2_lt0 j⟩ : Fin 50000) (⟨(j 1).val, idx2_lt1 j⟩ : Fin 128))

/-- Point t writes back its block of that function. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hN : t.val < 25 := lt_of_lt_of_eq t.isLt N_1
  have hp : p.val < 2000 := p.isLt
  obtain ⟨-, -, -, -, -, -, -, -, -, -, -, -, e0, e1⟩ := idx_facts t
  have hemb : ((cfg1.win 6).blk t).view.emb (ix2 p q) = (ix2 (⟨t.val * 2000 + p.val, by omega⟩ : Fin 50000) q : S50000x128.Idx) :=
    funext fun a => Fin.ext (by
      match a with
      | ⟨0, _⟩ => show win1_6.index t (0 : Fin 2) * 2000 + 1 * p.val = t.val * 2000 + p.val; omega
      | ⟨1, _⟩ => show win1_6.index t (1 : Fin 2) * 128 + 1 * q.val = q.val; omega)
  show k1_pay1 (F := Ideal) (iblk1 V c 0 t) (iblk1 V c 2 t) (iblk1 V c 1 t) (iblk1 V c 3 t) (iblk1 V c 4 t) (iblk1 V c 5 t) (ix2 p q)
    = G V c (((cfg1.win 6).blk t).view.emb (ix2 p q))
  rw [hemb]
  refine (pay_at (iblk1 V c 0 t) (iblk1 V c 1 t) (iblk1 V c 2 t) (iblk1 V c 3 t) (iblk1 V c 4 t) (iblk1 V c 5 t) p q).trans ?_
  unfold G Spec.relu Spec.lin
  simp only [blk0_at V c t p _ ⟨t.val * 2000 + p.val, by omega⟩ rfl, blk1_at V c t p _ ⟨t.val * 2000 + p.val, by omega⟩ rfl,
    blk2_at V c t p ⟨t.val * 2000 + p.val, by omega⟩ rfl, blk3_at V c t, blk4_at V c t, blk5_at V c t]

/-! ## The blocks tile the array -/

theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v43).slice (win1_6.rect t)).set ↔ _
  rw [View.set_slice_whole, Rect.mem_set_unit]
  exact Iff.rfl

/-- Row r of the array is in the block of point r / 2000, and every point writes its block back. -/
theorem cover (i : S50000x128.Idx) : ∃ t : Fin cfg1.N, (cfg1.win 6).flush t = true ∧ i ∈ ((cfg1.win 6).blk t).view.set := by
  have hi0 : (i 0).val < 50000 := idx2_lt0 i
  have hi1 : (i 1).val < 128 := idx2_lt1 i
  have hN : cfg1.N = 25 := N_1
  have ht : (i 0).val / 2000 < cfg1.N := by rw [hN]; omega
  obtain ⟨-, -, -, -, -, -, -, -, -, -, -, -, e0, e1⟩ := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e1]; omega

end LV1

/-- THE OUTPUT ARRAY OF REGION 1 after its launch, at row n and column o: the rectifier of the layer's affine form of
    the arrays the region found (the aggregate times the row's reciprocal count as the neighbourhood mean). -/
theorem layer1_apply (V : (c : Dev nD) → (b : Ref sig .tc) → Buf (Elt Ideal) ((c : Thread nD τ).loc b)) (c : Dev nD) (n : Fin 50000) (o : Fin 128) :
    (dat1 (F := Ideal) V c).arrAt 6 cfg1.N (ix2 n o)
      = Spec.relu (Spec.lin (fun n k => @HMul.hMul EReal EReal EReal instHMul (V c main_v39 (ix2 n k)) (V c main_v12 (ix2 n 0))) (fun n k => V c main_v28 (ix2 n k))
          (fun k o => V c main_v40 (ix2 k o)) (fun k o => V c main_v41 (ix2 k o)) (fun o => V c main_v42 (ix2 0 o)) n o) := by
  rw [(dat1 (F := Ideal) V c).arrAt_eq_of_cover 6 (LV1.G V c) (fun t _ => LV1.flushed_eq V c t) LV1.cover]
  rfl

end Cert.KernelIdeal.Hand

end
-- ==== Proof.KI.LayerVal2.lean ====
/- Region 2 (combine step 3) read as a value at the ideal numbers: the output array after the region's
   launch is, row by row and column by column, the layer's affine form (no activation follows) of the arrays the region
   found. First the body's arithmetic at one element of a block; then what a grid point writes back, as its block
   of one whole-array function; then the tiling of the array by the blocks. -/
import proofs.«420400_j39874476376561_3_alg».proof.Proof.KI.C2
import proofs.«420400_j39874476376561_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

namespace LV2

/-! ## The two contractions at an element -/

theorem lhs_ax0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_ax1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_ax0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_ax1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block's matrix product onto the zero accumulator, at row p and column q: the sum over the contraction index. -/
theorem matmul_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- A column broadcast along the rows: at (p, k) it reads the column's entry of row p. -/
theorem bcast_col_at (v : (⟨2, ![2000, 1]⟩ : Shape).Idx → EReal) (h : (⟨2, ![2000, 1]⟩ : Shape).Broadcasts ⟨2, ![2000, 128]⟩)
    (p : Fin 2000) (k : Fin 128) : broadcastTo ⟨2, ![2000, 128]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's arithmetic at one element of the output block: the affine form of row p of the
    blocks (the aggregate scaled by the row's reciprocal count, through the first weight matrix, plus the bias,
    plus the root features through the second). -/
theorem pay_at (x0 : Vec Ideal S2000x128 .f32) (x1 : Vec Ideal S2000x128 .bf16) (x2 : Vec Ideal S2000x1 .f32)
    (x3 : Vec Ideal S128x128 .f32) (x4 : Vec Ideal S128x128 .f32) (x5 : Vec Ideal S1x128 .f32) (p : Fin 2000) (q : Fin 128) :
    k2_pay1 (F := Ideal) x0 x2 x1 x3 x4 x5 (ix2 p q)
      = (∑ k : Fin 128, (x0 (ix2 p k) * x2 (ix2 p (0 : Fin 1))) * x3 (ix2 k q)) + x5 (ix2 (0 : Fin 1) q)
          + ∑ k : Fin 128, x1 (ix2 p k) * x4 (ix2 k q) := by
  unfold k2_pay1
  simp only [shapeCast_self]
  rw [truncf_apply, addf_apply, addf_apply, matmul_at, matmul_at, broadcastTo_1b_ab_apply]
  simp only [truncf_apply, mulf_apply, bcast_col_at]

/-! ## The blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: a row tile moves with the point, a weight matrix and the
    bias row stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregate's block at point t is rows 2000 t … 2000 t + 1999 of the array. -/
theorem blk0_at (c : Dev nD) (t : Fin cfg2.N) (p : Fin 2000) (k : Fin 128) (n : Fin 50000) (hn : n.val = t.val * 2000 + p.val) :
    (iblk2 V c 0 t : S2000x128.Idx → EReal) (ix2 p k) = (V c main_v54 : S50000x128.Idx → EReal) (ix2 n k) := by
  obtain ⟨e0, e1, -⟩ := idx_facts t
  show (V c main_v54 : S50000x128.Idx → EReal) (((cfg2.win 0).blk t).view.emb (ix2 p k)) = _
  refine congrArg _ (funext fun a => Fin.ext ?_)
  match a with
  | ⟨0, _⟩ => show win2_0.index t (0 : Fin 2) * 2000 + 1 * p.val = n.val; omega
  | ⟨1, _⟩ => show win2_0.index t (1 : Fin 2) * 128 + 1 * k.val = k.val; omega

/-- The root features' block likewise. -/
theorem blk1_at (c : Dev nD) (t : Fin cfg2.N) (p : Fin 2000) (k : Fin 128) (n : Fin 50000) (hn : n.val = t.val * 2000 + p.val) :
    (iblk2 V c 1 t : S2000x128.Idx → EReal) (ix2 p k) = (V c main_v43 : S50000x128.Idx → EReal) (ix2 n k) := by
  obtain ⟨-, -, e0, e1, -⟩ := idx_facts t
  show (V c main_v43 : S50000x128.Idx → EReal) (((cfg2.win 1).blk t).view.emb (ix2 p k)) = _
  refine congrArg _ (funext fun a => Fin.ext ?_)
  match a with
  | ⟨0, _⟩ => show win2_1.index t (0 : Fin 2) * 2000 + 1 * p.val = n.val; omega
  | ⟨1, _⟩ => show win2_1.index t (1 : Fin 2) * 128 + 1 * k.val = k.val; omega

/-- The reciprocal counts' block likewise (one column). -/
theorem blk2_at (c : Dev nD) (t : Fin cfg2.N) (p : Fin 2000) (n : Fin 50000) (hn : n.val = t.val * 2000 + p.val) :
    (iblk2 V c 2 t : S2000x1.Idx → EReal) (ix2 p (0 : Fin 1)) = (V c main_v12 : S50000x1.Idx → EReal) (ix2 n (0 : Fin 1)) := by
  obtain ⟨-, -, -, -, e0, e1, -⟩ := idx_facts t
  show (V c main_v12 : S50000x1.Idx → EReal) (((cfg2.win 2).blk t).view.emb (ix2 p (0 : Fin 1))) = _
  refine congrArg _ (funext fun a => Fin.ext ?_)
  match a with
  | ⟨0, _⟩ => show win2_2.index t (0 : Fin 2) * 2000 + 1 * p.val = n.val; omega
  | ⟨1, _⟩ => show win2_2.index t (1 : Fin 2) * 1 + 1 * 0 = 0; omega

/-- A weight matrix's block is the whole matrix, at every point. -/
theorem blk3_at (c : Dev nD) (t : Fin cfg2.N) (k : Fin 128) (q : Fin 128) :
    (iblk2 V c 3 t : S128x128.Idx → EReal) (ix2 k q) = (V c main_v55 : S128x128.Idx → EReal) (ix2 k q) := by
  obtain ⟨-, -, -, -, -, -, e0, e1, -⟩ := idx_facts t
  show (V c main_v55 : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem blk4_at (c : Dev nD) (t : Fin cfg2.N) (k : Fin 128) (q : Fin 128) :
    (iblk2 V c 4 t : S128x128.Idx → EReal) (ix2 k q) = (V c main_v56 : S128x128.Idx → EReal) (ix2 k q) := by
  obtain ⟨-, -, -, -, -, -, -, -, e0, e1, -⟩ := idx_facts t
  show (V c main_v56 : S128x128.Idx → EReal) (((cfg2.win 4).blk t).view.emb (ix2 k q)) = _
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The bias row's block is the whole row, at every point. -/
theorem blk5_at (c : Dev nD) (t : Fin cfg2.N) (q : Fin 128) :
    (iblk2 V c 5 t : S1x128.Idx → EReal) (ix2 (0 : Fin 1) q) = (V c main_v57 : S1x128.Idx → EReal) (ix2 (0 : Fin 1) q) := by
  obtain ⟨-, -, -, -, -, -, -, -, -, -, e0, e1, -⟩ := idx_facts t
  show (V c main_v57 : S1x128.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-! ## What a point writes back -/

/-- The whole output array as one function of the arrays the region found: at (n, o) the layer before any activation. -/
def G (c : Dev nD) : S50000x128.Idx → EReal := fun j =>
  (Spec.lin (fun n k => @HMul.hMul EReal EReal EReal instHMul ((V c main_v54 : S50000x128.Idx → EReal) (ix2 n k)) ((V c main_v12 : S50000x1.Idx → EReal) (ix2 n (0 : Fin 1))))
    (fun n k => (V c main_v43 : S50000x128.Idx → EReal) (ix2 n k))
    (fun k o => (V c main_v55 : S128x128.Idx → EReal) (ix2 k o)) (fun k o => (V c main_v56 : S128x128.Idx → EReal) (ix2 k o))
    (fun o => (V c main_v57 : S1x128.Idx → EReal) (ix2 (0 : Fin 1) o))
    (⟨(j 0).val, idx2_lt0 j⟩ : Fin 50000) (⟨(j 1).val, idx2_lt1 j⟩ : Fin 128))

/-- Point t writes back its block of that function. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hN : t.val < 25 := lt_of_lt_of_eq t.isLt N_2
  have hp : p.val < 2000 := p.isLt
  obtain ⟨-, -, -, -, -, -, -, -, -, -, -, -, e0, e1⟩ := idx_facts t
  have hemb : ((cfg2.win 6).blk t).view.emb (ix2 p q) = (ix2 (⟨t.val * 2000 + p.val, by omega⟩ : Fin 50000) q : S50000x128.Idx) :=
    funext fun a => Fin.ext (by
      match a with
      | ⟨0, _⟩ => show win2_6.index t (0 : Fin 2) * 2000 + 1 * p.val = t.val * 2000 + p.val; omega
      | ⟨1, _⟩ => show win2_6.index t (1 : Fin 2) * 128 + 1 * q.val = q.val; omega)
  show k2_pay1 (F := Ideal) (iblk2 V c 0 t) (iblk2 V c 2 t) (iblk2 V c 1 t) (iblk2 V c 3 t) (iblk2 V c 4 t) (iblk2 V c 5 t) (ix2 p q)
    = G V c (((cfg2.win 6).blk t).view.emb (ix2 p q))
  rw [hemb]
  refine (pay_at (iblk2 V c 0 t) (iblk2 V c 1 t) (iblk2 V c 2 t) (iblk2 V c 3 t) (iblk2 V c 4 t) (iblk2 V c 5 t) p q).trans ?_
  unfold G Spec.lin
  simp only [blk0_at V c t p _ ⟨t.val * 2000 + p.val, by omega⟩ rfl, blk1_at V c t p _ ⟨t.val * 2000 + p.val, by omega⟩ rfl,
    blk2_at V c t p ⟨t.val * 2000 + p.val, by omega⟩ rfl, blk3_at V c t, blk4_at V c t, blk5_at V c t]

/-! ## The blocks tile the array -/

theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v58).slice (win2_6.rect t)).set ↔ _
  rw [View.set_slice_whole, Rect.mem_set_unit]
  exact Iff.rfl

/-- Row r of the array is in the block of point r / 2000, and every point writes its block back. -/
theorem cover (i : S50000x128.Idx) : ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 25 := N_2
  have ht : (i 0).val / 2000 < cfg2.N := by rw [hN]; omega
  obtain ⟨-, -, -, -, -, -, -, -, -, -, -, -, e0, e1⟩ := idx_facts ⟨(i 0).val / 2000, ht⟩
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e1]; omega

end LV2

/-- THE OUTPUT ARRAY OF REGION 2 after its launch, at row n and column o: the layer's affine form of
    the arrays the region found (the aggregate times the row's reciprocal count as the neighbourhood mean). -/
theorem layer2_apply (V : (c : Dev nD) → (b : Ref sig .tc) → Buf (Elt Ideal) ((c : Thread nD τ).loc b)) (c : Dev nD) (n : Fin 50000) (o : Fin 128) :
    (dat2 (F := Ideal) V c).arrAt 6 cfg2.N (ix2 n o)
      = (Spec.lin (fun n k => @HMul.hMul EReal EReal EReal instHMul (V c main_v54 (ix2 n k)) (V c main_v12 (ix2 n 0))) (fun n k => V c main_v43 (ix2 n k))
          (fun k o => V c main_v55 (ix2 k o)) (fun k o => V c main_v56 (ix2 k o)) (fun o => V c main_v57 (ix2 0 o)) n o) := by
  rw [(dat2 (F := Ideal) V c).arrAt_eq_of_cover 6 (LV2.G V c) (fun t _ => LV2.flushed_eq V c t) LV2.cover]
  rfl

end Cert.KernelIdeal.Hand

end
-- ==== Proof.KI.PoolVal.lean ====
/- The value of the mean-pool region at the ideal values: the two accumulators the kernel carries from grid
   point to grid point are partial sums over the rows seen so far, and the block written back at the last point
   is the per-graph mean of the rows. -/
import proofs.«420400_j39874476376561_3_alg».proof.Proof.KI.Pool
import proofs.«420400_j39874476376561_3_alg».proof.Proof.Spec
import proofs.«420400_j39874476376561_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The payloads at an index -/

/-- A column of a [2000,1] vector of words broadcast along 64 lanes reads the column's entry. -/
theorem bcast_col_apply (v : IVec S2000x1 32) (r : Fin 2000) (g : Fin 64) :
    broadcastTo S2000x64 v broadcasts_S2000x1_S2000x64 (ix2 r g) = v (ix2 r (0 : Fin 1)) := by
  refine broadcastTo_apply v _ (ix2 r g) (ix2 r (0 : Fin 1)) fun ax => ?_
  match ax with
  | ⟨0, _⟩ => rfl
  | ⟨1, _⟩ => rfl

/-- A row of lane numbers broadcast down 2000 rows reads the lane's number. -/
theorem bcast_row_apply (v : IVec S1x64 32) (r : Fin 2000) (g : Fin 64) :
    broadcastTo S2000x64 v broadcasts_S1x64_S2000x64 (ix2 r g) = v (ix2 (0 : Fin 1) g) :=
  broadcastTo_1b_ab_apply v _ r g

/-- The one-hot matrix of a tile's graph numbers: entry (r, g) is one when row r belongs to graph g, else zero. -/
theorem onehot_apply (b : Vec Ideal S2000x1 .i32) (r : Fin 2000) (g : Fin 64) :
    k3_pay3 (F := Ideal) b (ix2 r g) = if b (ix2 r (0 : Fin 1)) = BitVec.ofNat 32 g.val then (1 : EReal) else 0 := by
  unfold k3_pay3
  rw [truncf_apply, sitofp_apply, extui_apply]
  show FloatOps.sitofp (F := Ideal) .f32 ((IntOp.cmpi .eq (broadcastTo S2000x64 (shapeCast S2000x1 b shapeCasts_S2000x1_S2000x1) broadcasts_S2000x1_S2000x64 (ix2 r g))
      (broadcastTo S2000x64 (iota .tc S1x64 32 [1] iota_S1x64_d1_w32) broadcasts_S1x64_S2000x64 (ix2 r g))).setWidth 32) = _
  rw [bcast_col_apply, bcast_row_apply, shapeCast_self, iota_single_apply]
  show ((((IntOp.cmpi .eq (b (ix2 r (0 : Fin 1))) (BitVec.ofNat 32 g.val)).setWidth 32).toInt : ℝ) : EReal) = _
  unfold IntOp.cmpi
  by_cases h : b (ix2 r (0 : Fin 1)) = BitVec.ofNat 32 g.val
  · rw [if_pos h, h]; simp
  · rw [if_neg h]
    have : (b (ix2 r (0 : Fin 1)) == BitVec.ofNat 32 g.val) = false := by simpa using h
    simp [this]
/-! The two products contract the ROW axis of both operands. -/

theorem lhs_sum_0 (j : S64x128.Idx) (q : dot_S2000x64_S2000x128_S64x128_0_0_1_1_n_n.contr.Idx) :
    (dot_S2000x64_S2000x128_S64x128_0_0_1_1_n_n.lhsIdx j q 0).val = (q ⟨0, by decide⟩).val :=
  dot_S2000x64_S2000x128_S64x128_0_0_1_1_n_n.lhsIdx_val_of_single rfl j q
theorem lhs_sum_1 (j : S64x128.Idx) (q : dot_S2000x64_S2000x128_S64x128_0_0_1_1_n_n.contr.Idx) :
    (dot_S2000x64_S2000x128_S64x128_0_0_1_1_n_n.lhsIdx j q 1).val = (j 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_sum_0 (j : S64x128.Idx) (q : dot_S2000x64_S2000x128_S64x128_0_0_1_1_n_n.contr.Idx) :
    (dot_S2000x64_S2000x128_S64x128_0_0_1_1_n_n.rhsIdx j q 0).val = (q ⟨0, by decide⟩).val :=
  dot_S2000x64_S2000x128_S64x128_0_0_1_1_n_n.rhsIdx_val_of_single rfl j q
theorem rhs_sum_1 (j : S64x128.Idx) (q : dot_S2000x64_S2000x128_S64x128_0_0_1_1_n_n.contr.Idx) :
    (dot_S2000x64_S2000x128_S64x128_0_0_1_1_n_n.rhsIdx j q 1).val = (j 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

theorem lhs_cnt_0 (j : S64x1.Idx) (q : dot_S2000x64_S2000x1_S64x1_0_0_1_1_n_n.contr.Idx) :
    (dot_S2000x64_S2000x1_S64x1_0_0_1_1_n_n.lhsIdx j q 0).val = (q ⟨0, by decide⟩).val :=
  dot_S2000x64_S2000x1_S64x1_0_0_1_1_n_n.lhsIdx_val_of_single rfl j q
theorem lhs_cnt_1 (j : S64x1.Idx) (q : dot_S2000x64_S2000x1_S64x1_0_0_1_1_n_n.contr.Idx) :
    (dot_S2000x64_S2000x1_S64x1_0_0_1_1_n_n.lhsIdx j q 1).val = (j 0).val := by
  unfold DotDims.lhsIdx
  rw [dif_neg (show ¬(1 : Fin S2000x64.rank) ∈ dot_S2000x64_S2000x1_S64x1_0_0_1_1_n_n.lhsBatch by decide), dif_pos (show (1 : Fin S2000x64.rank) ∈ dot_S2000x64_S2000x1_S64x1_0_0_1_1_n_n.lhsNonContracting by decide)]
  rfl

/-- The product of the one-hot matrix (transposed) with a tile, at an entry: the tile's rows of graph g, added up. -/
theorem onehot_matmul_apply (h : FVec Ideal S2000x128 .bf16) (b : Vec Ideal S2000x1 .i32) (g : Fin 64) (f : Fin 128) :
    matmul (F := Ideal) dot_S2000x64_S2000x128_S64x128_0_0_1_1_n_n none (k3_pay3 (F := Ideal) b) h (constant (F := Ideal) S64x128 .f32 0x00000000#32) (ix2 g f)
      = ∑ r : Fin 2000, (if b (ix2 r (0 : Fin 1)) = BitVec.ofNat 32 g.val then (1 : EReal) else 0) * h (ix2 r f) := by
  simp only [matmul]
  rw [Ideal.matmul_constant_zero_apply, ← Equiv.sum_comp (contrEquiv1 dot_S2000x64_S2000x128_S64x128_0_0_1_1_n_n 2000 rfl rfl).symm]
  refine Finset.sum_congr rfl fun r _ => ?_
  have hk := contrEquiv1_symm_val dot_S2000x64_S2000x128_S64x128_0_0_1_1_n_n 2000 rfl rfl r
  have el : dot_S2000x64_S2000x128_S64x128_0_0_1_1_n_n.lhsIdx (ix2 g f) ((contrEquiv1 dot_S2000x64_S2000x128_S64x128_0_0_1_1_n_n 2000 rfl rfl).symm r) = ix2 r g := funext fun a => Fin.ext (by
    match a with
    | ⟨0, _⟩ => exact (lhs_sum_0 _ _).trans hk
    | ⟨1, _⟩ => exact lhs_sum_1 _ _)
  have er : dot_S2000x64_S2000x128_S64x128_0_0_1_1_n_n.rhsIdx (ix2 g f) ((contrEquiv1 dot_S2000x64_S2000x128_S64x128_0_0_1_1_n_n 2000 rfl rfl).symm r) = ix2 r f := funext fun a => Fin.ext (by
    match a with
    | ⟨0, _⟩ => exact (rhs_sum_0 _ _).trans hk
    | ⟨1, _⟩ => exact rhs_sum_1 _ _)
  rw [el, er, onehot_apply]

/-- The sums' accumulator after a point: what it held plus the tile's rows of each graph. -/
theorem sums_step_apply (h : Vec Ideal S2000x128 .bf16) (b : Vec Ideal S2000x1 .i32) (s : Vec Ideal S64x128 .f32) (g : Fin 64) (f : Fin 128) :
    k3_pay4 (F := Ideal) h b s (ix2 g f)
      = s (ix2 g f) + ∑ r : Fin 2000, (if b (ix2 r (0 : Fin 1)) = BitVec.ofNat 32 g.val then (1 : EReal) else 0) * h (ix2 r f) := by
  unfold k3_pay4
  rw [shapeCast_self, addf_apply, shapeCast_self, onehot_matmul_apply]

/-- The product of the one-hot matrix (transposed) with a column of ones, at an entry: the number of the tile's
    rows of graph g. -/
theorem onehot_ones_apply (b : Vec Ideal S2000x1 .i32) (g : Fin 64) :
    matmul (F := Ideal) dot_S2000x64_S2000x1_S64x1_0_0_1_1_n_n none (k3_pay3 (F := Ideal) b)
        (broadcast S2000x1 (Scalar.ofBits (F := Ideal) .bf16 0x3F80#16) : FVec Ideal S2000x1 .bf16) (constant (F := Ideal) S64x1 .f32 0x00000000#32) (ix2 g (0 : Fin 1))
      = ∑ r : Fin 2000, (if b (ix2 r (0 : Fin 1)) = BitVec.ofNat 32 g.val then (1 : EReal) else 0) * 1 := by
  simp only [matmul]
  rw [Ideal.matmul_constant_zero_apply, ← Equiv.sum_comp (contrEquiv1 dot_S2000x64_S2000x1_S64x1_0_0_1_1_n_n 2000 rfl rfl).symm]
  refine Finset.sum_congr rfl fun r _ => ?_
  have hk := contrEquiv1_symm_val dot_S2000x64_S2000x1_S64x1_0_0_1_1_n_n 2000 rfl rfl r
  have el : dot_S2000x64_S2000x1_S64x1_0_0_1_1_n_n.lhsIdx (ix2 g (0 : Fin 1)) ((contrEquiv1 dot_S2000x64_S2000x1_S64x1_0_0_1_1_n_n 2000 rfl rfl).symm r) = ix2 r g := funext fun a => Fin.ext (by
    match a with
    | ⟨0, _⟩ => exact (lhs_cnt_0 _ _).trans hk
    | ⟨1, _⟩ => exact lhs_cnt_1 _ _)
  rw [el, onehot_apply, broadcast_apply]
  congr 1
  exact Ideal.ofBits_one_bf16

/-- The counts' accumulator after a point: what it held plus the number of the tile's rows of each graph. -/
theorem cnts_step_apply (b : Vec Ideal S2000x1 .i32) (k : Vec Ideal S64x1 .f32) (g : Fin 64) :
    k3_pay5 (F := Ideal) b k (ix2 g (0 : Fin 1))
      = k (ix2 g (0 : Fin 1)) + ∑ r : Fin 2000, (if b (ix2 r (0 : Fin 1)) = BitVec.ofNat 32 g.val then (1 : EReal) else 0) * 1 := by
  unfold k3_pay5
  rw [shapeCast_self, addf_apply, onehot_ones_apply]

/-- A column of a [64,1] vector broadcast along 128 lanes reads the column's entry. -/
theorem bcast_cnt_apply (v : FVec Ideal S64x1 .f32) (g : Fin 64) (f : Fin 128) :
    broadcastTo S64x128 v broadcasts_S64x1_S64x128 (ix2 g f) = v (ix2 g (0 : Fin 1)) := by
  refine broadcastTo_apply v _ (ix2 g f) (ix2 g (0 : Fin 1)) fun ax => ?_
  match ax with
  | ⟨0, _⟩ => rfl
  | ⟨1, _⟩ => rfl

/-- The quotient the last point stores, at an entry: the sum over the count clamped below at one. -/
theorem quot_apply (s : Vec Ideal S64x128 .f32) (k : Vec Ideal S64x1 .f32) (g : Fin 64) (f : Fin 128) :
    k3_pay6 (F := Ideal) s k (ix2 g f) = Ideal.div (s (ix2 g f)) (max (k (ix2 g (0 : Fin 1))) 1) := by
  unfold k3_pay6
  rw [divf_apply, bcast_cnt_apply, maximumf_apply, broadcast_apply]
  congr 2
  exact Ideal.ofBits_one_f32

/-- The zeroed accumulators. -/
theorem zero_sums_apply (j : S64x128.Idx) : (k3_pay1 (F := Ideal)) j = 0 := by
  unfold k3_pay1
  rw [shapeCast_self, broadcast_apply]
  exact Ideal.ofBits_zero_f32
theorem zero_cnts_apply (j : S64x1.Idx) : (k3_pay2 (F := Ideal)) j = 0 := by
  unfold k3_pay2
  rw [shapeCast_self, broadcast_apply]
  exact Ideal.ofBits_zero_f32

/-! ## The blocks the region reads -/

variable (V : (c : Dev nD) → (b : Ref sig .tc) → Buf (Elt Ideal) ((c : Thread nD τ).loc b))

/-- The rows' features as the region finds them. -/
abbrev feat (c : Dev nD) : Fin 50000 → Fin 128 → EReal := fun n f => (V c main_v58 : S50000x128.Idx → EReal) (ix2 n f)

/-- The rows' graph numbers as the region finds them. -/
abbrev gid (c : Dev nD) : Fin 50000 → BitVec 32 := fun n => (V c main_v59 : S50000x1.Idx → BitVec 32) (ix2 n (0 : Fin 1))

/-- The printed index maps, decided once over the grid: the two input windows walk down the row tiles, the
    output window stays on its one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Row r of tile t, of the 25 tiles of 2000 rows. -/
def tileRow (t : ℕ) (ht : t < 25) (r : Fin 2000) : Fin 50000 := ⟨t * 2000 + r.val, by have := r.isLt; omega⟩

theorem lt25 (t : Fin cfg3.N) : t.val < 25 := by have := t.isLt; have : cfg3.N = 25 := N_3; omega

/-- The feature block at point t is tile t of the rows. -/
theorem feat_blk (c : Dev nD) (t : Fin cfg3.N) (r : Fin 2000) (f : Fin 128) :
    iblk3 (F := Ideal) V c 0 t (ix2 r f) = feat V c (tileRow t.val (lt25 t) r) f := by
  obtain ⟨e0, e1, -⟩ := idx_facts3 t
  show (V c main_v58 : S50000x128.Idx → EReal) (((cfg3.win 0).blk t).view.emb (ix2 r f)) = _
  refine congrArg (V c main_v58 : S50000x128.Idx → EReal) (funext fun a => Fin.ext ?_)
  match a with
  | ⟨0, _⟩ => show win3_0.index t (0 : Fin 2) * 2000 + 1 * r.val = t.val * 2000 + r.val; rw [e0]; omega
  | ⟨1, _⟩ => show win3_0.index t (1 : Fin 2) * 128 + 1 * f.val = f.val; rw [e1]; omega

/-- The graph-number block at point t is tile t of the rows. -/
theorem gid_blk (c : Dev nD) (t : Fin cfg3.N) (r : Fin 2000) :
    iblk3 (F := Ideal) V c 1 t (ix2 r (0 : Fin 1)) = gid V c (tileRow t.val (lt25 t) r) := by
  obtain ⟨-, -, e0, e1, -⟩ := idx_facts3 t
  show (V c main_v59 : S50000x1.Idx → BitVec 32) (((cfg3.win 1).blk t).view.emb (ix2 r (0 : Fin 1))) = _
  refine congrArg (V c main_v59 : S50000x1.Idx → BitVec 32) (funext fun a => Fin.ext ?_)
  match a with
  | ⟨0, _⟩ => show win3_1.index t (0 : Fin 2) * 2000 + 1 * r.val = t.val * 2000 + r.val; rw [e0]; omega
  | ⟨1, _⟩ => show win3_1.index t (1 : Fin 2) * 1 + 1 * 0 = 0; rw [e1]

/-! ## The accumulators, point by point -/

/-- What tile t adds to the sum of graph g in feature f (nothing beyond the last tile). -/
def tileSum (c : Dev nD) (g : Fin 64) (f : Fin 128) (t : ℕ) : EReal :=
  if ht : t < 25 then ∑ r : Fin 2000, Spec.ind (gid V c) g (tileRow t ht r) * feat V c (tileRow t ht r) f else 0

/-- What tile t adds to the count of graph g. -/
def tileCnt (c : Dev nD) (g : Fin 64) (t : ℕ) : EReal :=
  if ht : t < 25 then ∑ r : Fin 2000, Spec.ind (gid V c) g (tileRow t ht r) * 1 else 0

theorem sums_step (c : Dev nD) (g : Fin 64) (f : Fin 128) (t : Fin cfg3.N) (s : Vec Ideal S64x128 .f32) :
    k3_pay4 (F := Ideal) (iblk3 V c 0 t) (iblk3 V c 1 t) s (ix2 g f) = s (ix2 g f) + tileSum V c g f t.val := by
  refine (sums_step_apply (iblk3 V c 0 t) (iblk3 V c 1 t) s g f).trans ?_
  unfold tileSum
  rw [dif_pos (lt25 t)]
  refine congrArg (s (ix2 g f) + ·) (Finset.sum_congr rfl fun r _ => ?_)
  rw [feat_blk V c t r f, gid_blk V c t r]
  rfl

theorem cnts_step (c : Dev nD) (g : Fin 64) (t : Fin cfg3.N) (k : Vec Ideal S64x1 .f32) :
    k3_pay5 (F := Ideal) (iblk3 V c 1 t) k (ix2 g (0 : Fin 1)) = k (ix2 g (0 : Fin 1)) + tileCnt V c g t.val := by
  refine (cnts_step_apply (iblk3 V c 1 t) k g).trans ?_
  unfold tileCnt
  rw [dif_pos (lt25 t)]
  refine congrArg (k (ix2 g (0 : Fin 1)) + ·) (Finset.sum_congr rfl fun r _ => ?_)
  rw [gid_blk V c t r]
  rfl

/-- After point n the sums' accumulator holds the rows of graph g in the tiles up to n, added up. -/
theorem sums_acc (c : Dev nD) (g : Fin 64) (f : Fin 128) : ∀ (n : ℕ) (hn : n < cfg3.N),
    (acc3 (F := Ideal) V c n hn).1 (ix2 g f) = ∑ t ∈ Finset.range (n + 1), tileSum V c g f t
  | 0, hn => by
    rw [acc3_zero, Finset.sum_range_one]
    refine (sums_step V c g f ⟨0, hn⟩ _).trans ?_
    rw [zero_sums_apply, zero_add]
  | n + 1, hn => by
    rw [acc3_succ, Finset.sum_range_succ, ← sums_acc c g f n (Nat.lt_of_succ_lt hn)]
    exact sums_step V c g f ⟨n + 1, hn⟩ _

/-- After point n the counts' accumulator holds the number of rows of graph g in the tiles up to n. -/
theorem cnts_acc (c : Dev nD) (g : Fin 64) : ∀ (n : ℕ) (hn : n < cfg3.N),
    (acc3 (F := Ideal) V c n hn).2 (ix2 g (0 : Fin 1)) = ∑ t ∈ Finset.range (n + 1), tileCnt V c g t
  | 0, hn => by
    rw [acc3_zero, Finset.sum_range_one]
    refine (cnts_step V c g ⟨0, hn⟩ _).trans ?_
    rw [zero_cnts_apply, zero_add]
  | n + 1, hn => by
    rw [acc3_succ, Finset.sum_range_succ, ← cnts_acc c g n (Nat.lt_of_succ_lt hn)]
    exact cnts_step V c g ⟨n + 1, hn⟩ _

/-! ## Twenty-five tiles of 2000 rows are the 50000 rows -/

/-- A row is a tile and a row inside the tile. -/
def tileEquiv : Fin 25 × Fin 2000 ≃ Fin 50000 where
  toFun p := tileRow p.1.val p.1.isLt p.2
  invFun n := (⟨n.val / 2000, by have := n.isLt; omega⟩, ⟨n.val % 2000, Nat.mod_lt _ (by decide)⟩)
  left_inv p := by
    obtain ⟨t, r⟩ := p
    have := r.isLt
    have := t.isLt
    refine Prod.ext (Fin.ext ?_) (Fin.ext ?_)
    · show (t.val * 2000 + r.val) / 2000 = t.val; omega
    · show (t.val * 2000 + r.val) % 2000 = r.val; omega
  right_inv n := Fin.ext (by show n.val / 2000 * 2000 + n.val % 2000 = n.val; omega)

theorem sum_tiles (G : Fin 50000 → EReal) :
    ∑ t ∈ Finset.range 25, (if ht : t < 25 then ∑ r : Fin 2000, G (tileRow t ht r) else 0) = ∑ n : Fin 50000, G n := by
  rw [Finset.sum_range, ← Equiv.sum_comp tileEquiv G, Fintype.sum_prod_type]
  refine Finset.sum_congr rfl fun t _ => ?_
  rw [dif_pos t.isLt]
  rfl

/-! ## The array after the region -/

/-- The output window's one block is its whole array. -/
theorem out_blk_read (t : Fin cfg3.N) (G : S64x128.Idx → EReal) :
    ((cfg3.win 2).blk t).view.read (Elt Ideal) G = G := by
  obtain ⟨-, -, -, -, e0, e1⟩ := idx_facts3 t
  funext j
  obtain ⟨g, f, rfl⟩ : ∃ (g : Fin 64) (f : Fin 128), j = ix2 g f := ⟨j 0, j 1, eq_ix2 j⟩
  show G (((cfg3.win 2).blk t).view.emb (ix2 g f)) = G (ix2 g f)
  refine congrArg G (funext fun a => Fin.ext ?_)
  match a with
  | ⟨0, _⟩ => show win3_2.index t (0 : Fin 2) * 64 + 1 * g.val = g.val; rw [e0]; omega
  | ⟨1, _⟩ => show win3_2.index t (1 : Fin 2) * 128 + 1 * f.val = f.val; rw [e1]; omega

/-- The output window's block is not cut: what a point writes back is all of what the body left. -/
theorem cut3_2 (t : Fin cfg3.N) (X : Vec Ideal S64x128 .f32) : (cfg3.win 2).cut (grid3.coords t) X = X := rfl

/-- The accumulators depend on the point's number only. -/
theorem acc3_congr (c : Dev nD) (n m : ℕ) (hn : n < cfg3.N) (hm : m < cfg3.N) (h : n = m) :
    acc3 (F := Ideal) V c n hn = acc3 (F := Ideal) V c m hm := by
  subst h; rfl

/-- What a point that writes back hands the output array: the quotient of the last point's accumulators, read as
    the window's (one) block. Only the last point writes back. -/
theorem flushed3_eq (c : Dev nD) (t : Fin cfg3.N) (hf : (cfg3.win 2).flush t = true) :
    (dat3 (F := Ideal) V c).flushed 2 t = ((cfg3.win 2).blk t).view.read (Elt Ideal) (out3 (F := Ideal) V c) := by
  rw [out_blk_read]
  show (cfg3.win 2).cut (grid3.coords t) ((dat3 (F := Ideal) V c).after 2 t) = _
  rw [after3_2, cut3_2]
  have h24 : t.val = 24 := by
    have := (flush3_2 t).mp hf
    have := lt25 t
    omega
  unfold out3
  rw [acc3_congr V c t.val 24 t.isLt lt24 h24]

/-- An index of the output array is in point t's block iff each coordinate is in the block's range on its axis. -/
theorem mem_blk3 (t : Fin cfg3.N) (i : S64x128.Idx) :
    i ∈ ((cfg3.win 2).blk t).view.set ↔ ∀ a : Fin 2, win3_2.index t a * S64x128.size a ≤ (i a).val ∧ (i a).val < win3_2.index t a * S64x128.size a + S64x128.size a := by
  show i ∈ ((View.whole main_v60).slice (win3_2.rect t)).set ↔ _
  rw [View.set_slice_whole, Rect.mem_set_unit]
  exact Iff.rfl

/-- Every index of the output array is in the block of a point that writes back (the last). -/
theorem cover3 (t : Fin cfg3.N) (ht : t.val = 24) (i : S64x128.Idx) :
    (cfg3.win 2).flush t = true ∧ i ∈ ((cfg3.win 2).blk t).view.set := by
  have hi0 : (i 0).val < 64 := idx2_lt0 i
  have hi1 : (i 1).val < 128 := idx2_lt1 i
  obtain ⟨-, -, -, -, e0, e1⟩ := idx_facts3 t
  refine ⟨(flush3_2 t).mpr (by rw [ht]), ?_⟩
  rw [mem_blk3]
  intro a
  match a with
  | ⟨0, _⟩ =>
    show win3_2.index t (0 : Fin 2) * 64 ≤ (i 0).val ∧ (i 0).val < win3_2.index t (0 : Fin 2) * 64 + 64
    rw [e0]; omega
  | ⟨1, _⟩ =>
    show win3_2.index t (1 : Fin 2) * 128 ≤ (i 1).val ∧ (i 1).val < win3_2.index t (1 : Fin 2) * 128 + 128
    rw [e1]; omega

/-- The output array after the region: the quotient the last point stores (the only one written back). -/
theorem final3 (c : Dev nD) : (dat3 (F := Ideal) V c).arrAt 2 cfg3.N = out3 (F := Ideal) V c :=
  (dat3 (F := Ideal) V c).arrAt_eq_of_cover 2 (out3 (F := Ideal) V c) (fun t hf => flushed3_eq V c t hf)
    (fun i => ⟨⟨24, lt24⟩, cover3 ⟨24, lt24⟩ rfl i⟩)
/-- THE VALUE OF THE POOL REGION: the output array, entry by entry, is the mean pool of the rows as the region finds
    them — the rows of graph g added up, over their number clamped below at one. -/
theorem pool_apply (c : Dev nD) (g : Fin 64) (f : Fin 128) :
    (dat3 (F := Ideal) V c).arrAt 2 cfg3.N (ix2 g f)
      = Spec.pool (fun n f => (V c main_v58 : S50000x128.Idx → EReal) (ix2 n f)) (fun n => (V c main_v59 : S50000x1.Idx → BitVec 32) (ix2 n (0 : Fin 1))) g f := by
  rw [final3 V c]
  unfold out3
  have hs : ∑ t ∈ Finset.range (24 + 1), tileSum V c g f t = ∑ n : Fin 50000, Spec.ind (gid V c) g n * feat V c n f :=
    sum_tiles (fun n => Spec.ind (gid V c) g n * feat V c n f)
  have hc : ∑ t ∈ Finset.range (24 + 1), tileCnt V c g t = ∑ n : Fin 50000, Spec.ind (gid V c) g n * 1 :=
    sum_tiles (fun n => Spec.ind (gid V c) g n * 1)
  rw [quot_apply, sums_acc V c g f 24 lt24, cnts_acc V c g 24 lt24, hs, hc]
  rfl

end Cert.KernelIdeal.Hand

end
-- ==== Proof.Ref.Layers.lean ====
import proofs.«420400_j39874476376561_3_alg».proof.Proof.Gen.ReferenceIdeal.Read
import proofs.«420400_j39874476376561_3_alg».proof.Proof.Spec
import Idealize.ShloMosaic.Lib.IdealHost

/-!
# The reference's three layers as the specification's layer function

Each layer of the reference network is a chain of element-wise and layout operations around two
contractions. Read at one element `(n, o)` the chain collapses to
`(Σ_k mean n k · Wl k o) + b o + Σ_k x n k · Wr k o` (followed by the rectifier in the first two
layers), where `mean n k` is the neighbourhood sum over the in-degree clamped below at one.
The neighbourhood sums and the in-degree counts are kept as the opaque arrays the reference
computes them as; the second half of the file exposes those arrays as a gather followed by a
scatter-add of the layer's input only.
-/

noncomputable section

namespace Cert.RefVal

open Cert.ReferenceIdeal Cert.ReferenceIdeal.Gen Cert.ReferenceIdeal.Read Idealize.ShloMosaic Idealize.ShloMosaic.ValueIdx
open scoped BigOperators

/-! ## Index equations

The composed index functions of the generated reading, evaluated at an index built from explicit
coordinates. Each is an equality of two functions on `Fin 2` (or `Fin 1`) that agree at every axis. -/

section idx
variable {K : ℕ}

/-- Row `n`, contraction position `k`: the left operand's index of a `[50000, K] · [K, 128]` product. -/
theorem lidx64 (n : Fin 50000) (o : Fin 128) (k : Fin 64) : lidx_main_v24 (ix2 n o) k = ix2 n k :=
  funext fun a => Fin.ext (by match a with | ⟨0, _⟩ => rfl | ⟨1, _⟩ => rfl)
theorem ridx64 (n : Fin 50000) (o : Fin 128) (k : Fin 64) : ridx_main_v24 (ix2 n o) k = ix2 k o :=
  funext fun a => Fin.ext (by match a with | ⟨0, _⟩ => rfl | ⟨1, _⟩ => rfl)

theorem lidx64' (n : Fin 50000) (o : Fin 128) (k : Fin 64) : lidx_main_v29 (ix2 n o) k = ix2 n k :=
  funext fun a => Fin.ext (by match a with | ⟨0, _⟩ => rfl | ⟨1, _⟩ => rfl)
theorem ridx64' (n : Fin 50000) (o : Fin 128) (k : Fin 64) : ridx_main_v29 (ix2 n o) k = ix2 k o :=
  funext fun a => Fin.ext (by match a with | ⟨0, _⟩ => rfl | ⟨1, _⟩ => rfl)

end idx

/-! ## Layer 1 -/

/-- The clamped-degree broadcast of layer 1, read at `(n, k)`: `max (cnt n) 1`. -/
theorem v21_apply (x1 : (⟨S2x800000, .i32⟩ : BufTy).Contents (Elt Ideal)) (n : Fin 50000) (k : Fin 64) :
    val_main_v21 (F := Ideal) x1 (ix2 n k) = max (val_main_v17 (F := Ideal) x1 (ix1 n)) 1 := by
  have e : idx_main_v20 (idx_main_v21 (ix2 n k)) = ix1 n :=
    funext fun a => Fin.ext (by match a with | ⟨0, _⟩ => rfl)
  rw [val_main_v21_apply, val_main_v20_apply, val_main_v19_apply, val_main_v18_apply, val_main_cst_3_apply, e]
  simp only [Ideal.maximumf_def, Ideal.ofBits_def, Ideal.ofBits_one_f32]

/-- The neighbourhood mean of layer 1 at `(n, k)`. -/
theorem v22_apply (x0 : (⟨S50000x64, .f32⟩ : BufTy).Contents (Elt Ideal)) (x1 : (⟨S2x800000, .i32⟩ : BufTy).Contents (Elt Ideal)) (n : Fin 50000) (k : Fin 64) :
    val_main_v22 (F := Ideal) x0 x1 (ix2 n k)
      = Spec.mean (fun n k => val_main_v13 (F := Ideal) x0 x1 (ix2 n k)) (fun n => val_main_v17 (F := Ideal) x1 (ix1 n)) n k := by
  rw [val_main_v22_apply, v21_apply]
  rfl

/-- The bias broadcast of layer 1 at `(n, o)`. -/
theorem v26_apply (x4 : (⟨S128, .f32⟩ : BufTy).Contents (Elt Ideal)) (n : Fin 50000) (o : Fin 128) :
    val_main_v26 (F := Ideal) x4 (ix2 n o) = x4 (ix1 o) := by
  have e : idx_main_v25 (idx_main_v26 (ix2 n o)) = ix1 o :=
    funext fun a => Fin.ext (by match a with | ⟨0, _⟩ => rfl)
  rw [val_main_v26_apply, val_main_v25_apply, e]

/-- The rectifier's zero array of layer 1. -/
theorem call0_v0_apply (i : S50000x128.Idx) : val_main_call0_v0 (F := Ideal) i = 0 := by
  rw [val_main_call0_v0_apply, val_main_call0_cst_apply]
  simp only [Ideal.ofBits_def, Ideal.ofBits_zero_f32]

theorem layer1_apply (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (n : Fin 50000) (o : Fin 128) :
    val_main_v31 (F := Ideal) x0 x1 x3 x4 x5 (ix2 n o)
      = Spec.relu (Spec.lin (Spec.mean (fun n k => val_main_v13 (F := Ideal) x0 x1 (ix2 n k)) (fun n => val_main_v17 (F := Ideal) x1 (ix1 n)))
          (fun n k => x0 (ix2 n k)) (fun k o => val_main_v23 (F := Ideal) x3 (ix2 k o)) (fun k o => val_main_v28 (F := Ideal) x5 (ix2 k o)) (fun o => x4 (ix1 o)) n o) := by
  rw [val_main_v31_apply, val_main_v30_apply, val_main_v27_apply, val_main_v24_apply, val_main_v29_apply, v26_apply, call0_v0_apply]
  simp only [Ideal.maximumf_def, Ideal.addf_def, lidx64, ridx64, lidx64', ridx64', v22_apply]
  rfl

/-! ## Layer 2 -/

theorem lidx2l (n : Fin 50000) (o : Fin 128) (k : Fin 128) : lidx_main_v52 (ix2 n o) k = ix2 n k :=
  funext fun a => Fin.ext (by match a with | ⟨0, _⟩ => rfl | ⟨1, _⟩ => rfl)
theorem ridx2l (n : Fin 50000) (o : Fin 128) (k : Fin 128) : ridx_main_v52 (ix2 n o) k = ix2 k o :=
  funext fun a => Fin.ext (by match a with | ⟨0, _⟩ => rfl | ⟨1, _⟩ => rfl)
theorem lidx2r (n : Fin 50000) (o : Fin 128) (k : Fin 128) : lidx_main_v57 (ix2 n o) k = ix2 n k :=
  funext fun a => Fin.ext (by match a with | ⟨0, _⟩ => rfl | ⟨1, _⟩ => rfl)
theorem ridx2r (n : Fin 50000) (o : Fin 128) (k : Fin 128) : ridx_main_v57 (ix2 n o) k = ix2 k o :=
  funext fun a => Fin.ext (by match a with | ⟨0, _⟩ => rfl | ⟨1, _⟩ => rfl)

/-- The clamped-degree broadcast of layer 2, read at `(n, k)`: `max (cnt n) 1`. -/
theorem v49_apply (x1 : (⟨S2x800000, .i32⟩ : BufTy).Contents (Elt Ideal)) (n : Fin 50000) (k : Fin 128) :
    val_main_v49 (F := Ideal) x1 (ix2 n k) = max (val_main_v45 (F := Ideal) x1 (ix1 n)) 1 := by
  have e : idx_main_v48 (idx_main_v49 (ix2 n k)) = ix1 n :=
    funext fun a => Fin.ext (by match a with | ⟨0, _⟩ => rfl)
  rw [val_main_v49_apply, val_main_v48_apply, val_main_v47_apply, val_main_v46_apply, val_main_cst_9_apply, e]
  simp only [Ideal.maximumf_def, Ideal.ofBits_def, Ideal.ofBits_one_f32]

/-- The neighbourhood mean of layer 2 at `(n, k)`. -/
theorem v50_apply (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (n : Fin 50000) (k : Fin 128) :
    val_main_v50 (F := Ideal) x0 x1 x3 x4 x5 (ix2 n k)
      = Spec.mean (fun n k => val_main_v41 (F := Ideal) x0 x1 x3 x4 x5 (ix2 n k)) (fun n => val_main_v45 (F := Ideal) x1 (ix1 n)) n k := by
  rw [val_main_v50_apply, v49_apply]
  rfl

/-- The bias broadcast of layer 2 at `(n, o)`. -/
theorem v54_apply (x7 : (⟨S128, .f32⟩ : BufTy).Contents (Elt Ideal)) (n : Fin 50000) (o : Fin 128) :
    val_main_v54 (F := Ideal) x7 (ix2 n o) = x7 (ix1 o) := by
  have e : idx_main_v53 (idx_main_v54 (ix2 n o)) = ix1 o :=
    funext fun a => Fin.ext (by match a with | ⟨0, _⟩ => rfl)
  rw [val_main_v54_apply, val_main_v53_apply, e]

/-- The rectifier's zero array of layer 2. -/
theorem call1_v0_apply (i : S50000x128.Idx) : val_main_call1_v0 (F := Ideal) i = 0 := by
  rw [val_main_call1_v0_apply, val_main_call1_cst_apply]
  simp only [Ideal.ofBits_def, Ideal.ofBits_zero_f32]

theorem layer2_apply (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (n : Fin 50000) (o : Fin 128) :
    val_main_v59 (F := Ideal) x0 x1 x3 x4 x5 x6 x7 x8 (ix2 n o)
      = Spec.relu (Spec.lin (Spec.mean (fun n k => val_main_v41 (F := Ideal) x0 x1 x3 x4 x5 (ix2 n k)) (fun n => val_main_v45 (F := Ideal) x1 (ix1 n)))
          (fun n k => val_main_v31 (F := Ideal) x0 x1 x3 x4 x5 (ix2 n k)) (fun k o => val_main_v51 (F := Ideal) x6 (ix2 k o)) (fun k o => val_main_v56 (F := Ideal) x8 (ix2 k o)) (fun o => x7 (ix1 o)) n o) := by
  rw [val_main_v59_apply, val_main_v58_apply, val_main_v55_apply, val_main_v52_apply, val_main_v57_apply, v54_apply, call1_v0_apply]
  simp only [Ideal.maximumf_def, Ideal.addf_def, lidx2l, ridx2l, lidx2r, ridx2r, v50_apply]
  rfl

/-! ## Layer 3 -/

theorem lidx3l (n : Fin 50000) (o : Fin 128) (k : Fin 128) : lidx_main_v80 (ix2 n o) k = ix2 n k :=
  funext fun a => Fin.ext (by match a with | ⟨0, _⟩ => rfl | ⟨1, _⟩ => rfl)
theorem ridx3l (n : Fin 50000) (o : Fin 128) (k : Fin 128) : ridx_main_v80 (ix2 n o) k = ix2 k o :=
  funext fun a => Fin.ext (by match a with | ⟨0, _⟩ => rfl | ⟨1, _⟩ => rfl)
theorem lidx3r (n : Fin 50000) (o : Fin 128) (k : Fin 128) : lidx_main_v85 (ix2 n o) k = ix2 n k :=
  funext fun a => Fin.ext (by match a with | ⟨0, _⟩ => rfl | ⟨1, _⟩ => rfl)
theorem ridx3r (n : Fin 50000) (o : Fin 128) (k : Fin 128) : ridx_main_v85 (ix2 n o) k = ix2 k o :=
  funext fun a => Fin.ext (by match a with | ⟨0, _⟩ => rfl | ⟨1, _⟩ => rfl)

/-- The clamped-degree broadcast of layer 3, read at `(n, k)`: `max (cnt n) 1`. -/
theorem v77_apply (x1 : (⟨S2x800000, .i32⟩ : BufTy).Contents (Elt Ideal)) (n : Fin 50000) (k : Fin 128) :
    val_main_v77 (F := Ideal) x1 (ix2 n k) = max (val_main_v73 (F := Ideal) x1 (ix1 n)) 1 := by
  have e : idx_main_v76 (idx_main_v77 (ix2 n k)) = ix1 n :=
    funext fun a => Fin.ext (by match a with | ⟨0, _⟩ => rfl)
  rw [val_main_v77_apply, val_main_v76_apply, val_main_v75_apply, val_main_v74_apply, val_main_cst_15_apply, e]
  simp only [Ideal.maximumf_def, Ideal.ofBits_def, Ideal.ofBits_one_f32]

/-- The neighbourhood mean of layer 3 at `(n, k)`. -/
theorem v78_apply (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (n : Fin 50000) (k : Fin 128) :
    val_main_v78 (F := Ideal) x0 x1 x3 x4 x5 x6 x7 x8 (ix2 n k)
      = Spec.mean (fun n k => val_main_v69 (F := Ideal) x0 x1 x3 x4 x5 x6 x7 x8 (ix2 n k)) (fun n => val_main_v73 (F := Ideal) x1 (ix1 n)) n k := by
  rw [val_main_v78_apply, v77_apply]
  rfl

/-- The bias broadcast of layer 3 at `(n, o)`. -/
theorem v82_apply (x10 : (⟨S128, .f32⟩ : BufTy).Contents (Elt Ideal)) (n : Fin 50000) (o : Fin 128) :
    val_main_v82 (F := Ideal) x10 (ix2 n o) = x10 (ix1 o) := by
  have e : idx_main_v81 (idx_main_v82 (ix2 n o)) = ix1 o :=
    funext fun a => Fin.ext (by match a with | ⟨0, _⟩ => rfl)
  rw [val_main_v82_apply, val_main_v81_apply, e]

theorem layer3_apply (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (n : Fin 50000) (o : Fin 128) :
    val_main_v86 (F := Ideal) x0 x1 x3 x4 x5 x6 x7 x8 x9 x10 x11 (ix2 n o)
      = Spec.lin (Spec.mean (fun n k => val_main_v69 (F := Ideal) x0 x1 x3 x4 x5 x6 x7 x8 (ix2 n k)) (fun n => val_main_v73 (F := Ideal) x1 (ix1 n)))
          (fun n k => val_main_v59 (F := Ideal) x0 x1 x3 x4 x5 x6 x7 x8 (ix2 n k)) (fun k o => val_main_v79 (F := Ideal) x9 (ix2 k o)) (fun k o => val_main_v84 (F := Ideal) x11 (ix2 k o)) (fun o => x10 (ix1 o)) n o := by
  rw [val_main_v86_apply, val_main_v83_apply, val_main_v80_apply, val_main_v85_apply, v82_apply]
  simp only [Ideal.addf_def, lidx3l, ridx3l, lidx3r, ridx3r, v78_apply]
  rfl

/-! ## The opaque stages as functions of the layer's input

The neighbourhood sums are a scatter-add, onto a zero array at the edges' target rows, of the rows
gathered at the edges' source rows; the in-degree counts are a scatter-add of ones at the target
rows. The equations below display each of these arrays with the layer's input array as the only
float operand; all three count arrays are one and the same function of the edge list, and the
index and zero arrays of the third layer are those of the second. -/

theorem v13_eq (x0 : (⟨S50000x64, .f32⟩ : BufTy).Contents (Elt Ideal)) (x1 : (⟨S2x800000, .i32⟩ : BufTy).Contents (Elt Ideal)) :
    val_main_v13 (F := Ideal) x0 x1
      = Host.scatterAdd (F := Ideal) (φ := .f32) scatter_S50000x64_S800000x1_S800000x64_1_0_0_1 (val_main_v11 (F := Ideal)) (val_main_v12 (F := Ideal) x1)
          (Host.gather gather_S50000x64_S800000x1_S800000x64_1_0_n_n_0_1_164 x0 (val_main_v9 (F := Ideal) x1)) := rfl

theorem v41_eq (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) :
    val_main_v41 (F := Ideal) x0 x1 x3 x4 x5
      = Host.scatterAdd (F := Ideal) (φ := .f32) scatter_S50000x128_S800000x1_S800000x128_1_0_0_1 (val_main_v39 (F := Ideal)) (val_main_v40 (F := Ideal) x1)
          (Host.gather gather_S50000x128_S800000x1_S800000x128_1_0_n_n_0_1_1128 (val_main_v31 (F := Ideal) x0 x1 x3 x4 x5) (val_main_v37 (F := Ideal) x1)) := rfl

theorem v69_eq (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v69 (F := Ideal) x0 x1 x3 x4 x5 x6 x7 x8
      = Host.scatterAdd (F := Ideal) (φ := .f32) scatter_S50000x128_S800000x1_S800000x128_1_0_0_1 (val_main_v67 (F := Ideal)) (val_main_v68 (F := Ideal) x1)
          (Host.gather gather_S50000x128_S800000x1_S800000x128_1_0_n_n_0_1_1128 (val_main_v59 (F := Ideal) x0 x1 x3 x4 x5 x6 x7 x8) (val_main_v65 (F := Ideal) x1)) := rfl

/-- The third layer's zero array, target-row indices and source-row indices are the second layer's. -/
theorem v67_eq : val_main_v67 (F := Ideal) = val_main_v39 (F := Ideal) := rfl
theorem v68_eq (x1 : (⟨S2x800000, .i32⟩ : BufTy).Contents (Elt Ideal)) : val_main_v68 (F := Ideal) x1 = val_main_v40 (F := Ideal) x1 := rfl
theorem v65_eq (x1 : (⟨S2x800000, .i32⟩ : BufTy).Contents (Elt Ideal)) : val_main_v65 (F := Ideal) x1 = val_main_v37 (F := Ideal) x1 := rfl

/-- The third layer's neighbourhood sums over the second layer's index and zero arrays. -/
theorem v69_eq' (x0 : (⟨S50000x64, .f32⟩ : BufTy).Contents (Elt Ideal)) (x1 : (⟨S2x800000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v69 (F := Ideal) x0 x1 x3 x4 x5 x6 x7 x8
      = Host.scatterAdd (F := Ideal) (φ := .f32) scatter_S50000x128_S800000x1_S800000x128_1_0_0_1 (val_main_v39 (F := Ideal)) (val_main_v40 (F := Ideal) x1)
          (Host.gather gather_S50000x128_S800000x1_S800000x128_1_0_n_n_0_1_1128 (val_main_v59 (F := Ideal) x0 x1 x3 x4 x5 x6 x7 x8) (val_main_v37 (F := Ideal) x1)) := by
  rw [v69_eq, v67_eq, v68_eq, v65_eq]

theorem v17_eq (x1 : (⟨S2x800000, .i32⟩ : BufTy).Contents (Elt Ideal)) :
    val_main_v17 (F := Ideal) x1
      = Host.scatterAdd (F := Ideal) (φ := .f32) scatter_S50000_S800000x1_S800000_n_0_0_1 (val_main_v15 (F := Ideal)) (val_main_v16 (F := Ideal) x1) (val_main_v14 (F := Ideal)) := rfl

/-- The in-degree counts do not depend on the layer. -/
theorem v45_eq (x1 : (⟨S2x800000, .i32⟩ : BufTy).Contents (Elt Ideal)) : val_main_v45 (F := Ideal) x1 = val_main_v17 (F := Ideal) x1 := rfl
theorem v73_eq (x1 : (⟨S2x800000, .i32⟩ : BufTy).Contents (Elt Ideal)) : val_main_v73 (F := Ideal) x1 = val_main_v17 (F := Ideal) x1 := rfl

end Cert.RefVal

end
-- ==== Proof.Ref.Pool.lean ====
/-
  The reference's mean pool, read at the ideal values. The last stretch of the reference adds the rows of the third
  layer's output into one row per graph (an accumulating scatter keyed by each row's graph word), counts the rows of
  each graph the same way (scattering ones), clamps the count below at one and divides. Here: where an update of each
  of the two scatters lands, as a condition on the row's graph word; each scatter's result at an index as a sum over
  the rows weighted by the graph's indicator; and the program's result at an index as the specification's pool.
-/
import proofs.«420400_j39874476376561_3_alg».proof.Proof.Gen.ReferenceIdeal.Read
import proofs.«420400_j39874476376561_3_alg».proof.Proof.Spec
import Idealize.ShloMosaic.Lib.ValueIdx
import Idealize.ShloMosaic.PureOps.Ideal.Laws
import Idealize.ShloMosaic.Lib.IdealHost

noncomputable section

open scoped BigOperators

namespace Cert.RefVal

open Cert.ReferenceIdeal Cert.ReferenceIdeal.Gen Cert.ReferenceIdeal.Read Idealize.ShloMosaic Idealize.ShloMosaic.ValueIdx

/-- A 32-bit word whose signed value is a natural number below 64 is that number's word, and conversely. -/
theorem word_toInt_eq (w : BitVec 32) (g : ℕ) (hg : g < 64) : w.toInt = (g : ℤ) ↔ w = BitVec.ofNat 32 g := by
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    have : g % 2 ^ 32 = g := Nat.mod_eq_of_lt (by omega)
    rw [this]
    split <;> omega

/-- Where an update of the per-graph SUMS lands: update (n, f') goes to (g, f) exactly when the feature is the same
    and row n's graph word is g. -/
theorem sums_resultIdx (idx : IVec S50000x1 32) (n : Fin 50000) (f' f : Fin 128) (g : Fin 64) :
    scatter_S64x128_S50000x1_S50000x128_1_0_0_1.resultIdx? (ix2 n f') idx = some (ix2 g f)
      ↔ f' = f ∧ idx (ix2 n 0) = BitVec.ofNat 32 g.val := by
  have hs0 : scatter_S64x128_S50000x1_S50000x128_1_0_0_1.start (ix2 n f') idx (0 : Fin 2) = (idx (ix2 n 0)).toInt := by
    unfold ScatterDims.start
    rw [dif_pos (show (0 : Fin 2) ∈ scatter_S64x128_S50000x1_S50000x128_1_0_0_1.scatterDimsToOperandDims from List.mem_singleton.mpr rfl)]
    congr 2
    funext b; refine Fin.ext ?_
    match b with
    | ⟨0, _⟩ => rfl
    | ⟨1, _⟩ => rfl
  have hs1 : scatter_S64x128_S50000x1_S50000x128_1_0_0_1.start (ix2 n f') idx (1 : Fin 2) = 0 := by
    unfold ScatterDims.start
    rw [dif_neg (show ¬ (1 : Fin 2) ∈ scatter_S64x128_S50000x1_S50000x128_1_0_0_1.scatterDimsToOperandDims by decide)]
  have hw0 : scatter_S64x128_S50000x1_S50000x128_1_0_0_1.window (ix2 n f') (0 : Fin 2) = 0 := by
    unfold ScatterDims.window
    rw [dif_neg (show ¬ (0 : Fin 2) ∈ scatter_S64x128_S50000x1_S50000x128_1_0_0_1.sKept by decide)]
  have hw1 : scatter_S64x128_S50000x1_S50000x128_1_0_0_1.window (ix2 n f') (1 : Fin 2) = f'.val := by
    unfold ScatterDims.window
    rw [dif_pos (show (1 : Fin 2) ∈ scatter_S64x128_S50000x1_S50000x128_1_0_0_1.sKept by decide)]
    rfl
  unfold ScatterDims.resultIdx?
  constructor
  · intro h
    split at h
    · rename_i hc
      have h' := Option.some.inj h
      have e0 := congrArg Fin.val (congrFun h' (0 : Fin 2))
      have e1 := congrArg Fin.val (congrFun h' (1 : Fin 2))
      have c0 := (hc (0 : Fin 2)).1
      simp only [hs0, hs1, hw0, hw1] at e0 e1 c0
      have hg : ((ix2 g f : S64x128.Idx) (0 : Fin 2)).val = g.val := rfl
      have hf : ((ix2 g f : S64x128.Idx) (1 : Fin 2)).val = f.val := rfl
      rw [hg] at e0; rw [hf] at e1
      refine ⟨Fin.ext (by omega), (word_toInt_eq _ _ g.isLt).1 (by omega)⟩
    · exact absurd h (by simp)
  · rintro ⟨rfl, hw⟩
    have ht := (word_toInt_eq _ _ g.isLt).2 hw
    have hc : ∀ a : Fin 2, 0 ≤ scatter_S64x128_S50000x1_S50000x128_1_0_0_1.start (ix2 n f') idx a + scatter_S64x128_S50000x1_S50000x128_1_0_0_1.window (ix2 n f') a
        ∧ scatter_S64x128_S50000x1_S50000x128_1_0_0_1.start (ix2 n f') idx a + scatter_S64x128_S50000x1_S50000x128_1_0_0_1.window (ix2 n f') a < S64x128.size a := by
      intro a
      match a with
      | ⟨0, _⟩ =>
        show 0 ≤ scatter_S64x128_S50000x1_S50000x128_1_0_0_1.start (ix2 n f') idx (0 : Fin 2) + scatter_S64x128_S50000x1_S50000x128_1_0_0_1.window (ix2 n f') (0 : Fin 2) ∧ scatter_S64x128_S50000x1_S50000x128_1_0_0_1.start (ix2 n f') idx (0 : Fin 2) + scatter_S64x128_S50000x1_S50000x128_1_0_0_1.window (ix2 n f') (0 : Fin 2) < ((64 : ℕ) : ℤ)
        rw [hs0, hw0, ht]; have := g.isLt; omega
      | ⟨1, _⟩ =>
        show 0 ≤ scatter_S64x128_S50000x1_S50000x128_1_0_0_1.start (ix2 n f') idx (1 : Fin 2) + scatter_S64x128_S50000x1_S50000x128_1_0_0_1.window (ix2 n f') (1 : Fin 2) ∧ scatter_S64x128_S50000x1_S50000x128_1_0_0_1.start (ix2 n f') idx (1 : Fin 2) + scatter_S64x128_S50000x1_S50000x128_1_0_0_1.window (ix2 n f') (1 : Fin 2) < ((128 : ℕ) : ℤ)
        rw [hs1, hw1]; have := f'.isLt; omega
    rw [dif_pos hc]
    congr 1
    funext a
    refine Fin.ext ?_
    match a with
    | ⟨0, _⟩ =>
      show (scatter_S64x128_S50000x1_S50000x128_1_0_0_1.start (ix2 n f') idx (0 : Fin 2) + scatter_S64x128_S50000x1_S50000x128_1_0_0_1.window (ix2 n f') (0 : Fin 2)).toNat = g.val
      rw [hs0, hw0, ht]; omega
    | ⟨1, _⟩ =>
      show (scatter_S64x128_S50000x1_S50000x128_1_0_0_1.start (ix2 n f') idx (1 : Fin 2) + scatter_S64x128_S50000x1_S50000x128_1_0_0_1.window (ix2 n f') (1 : Fin 2)).toNat = f'.val
      rw [hs1, hw1]; omega

/-- Where an update of the per-graph COUNTS lands: update n goes to g exactly when row n's graph word is g. -/
theorem counts_resultIdx (idx : IVec S50000x1 32) (n : Fin 50000) (g : Fin 64) :
    scatter_S64_S50000x1_S50000_n_0_0_1.resultIdx? (ix1 n) idx = some (ix1 g)
      ↔ idx (ix2 n 0) = BitVec.ofNat 32 g.val := by
  have hs0 : scatter_S64_S50000x1_S50000_n_0_0_1.start (ix1 n) idx (0 : Fin 1) = (idx (ix2 n 0)).toInt := by
    unfold ScatterDims.start
    rw [dif_pos (show (0 : Fin 1) ∈ scatter_S64_S50000x1_S50000_n_0_0_1.scatterDimsToOperandDims from List.mem_singleton.mpr rfl)]
    congr 2
    funext b; refine Fin.ext ?_
    match b with
    | ⟨0, _⟩ => rfl
    | ⟨1, _⟩ => rfl
  have hw0 : scatter_S64_S50000x1_S50000_n_0_0_1.window (ix1 n) (0 : Fin 1) = 0 := by
    unfold ScatterDims.window
    rw [dif_neg (show ¬ (0 : Fin 1) ∈ scatter_S64_S50000x1_S50000_n_0_0_1.sKept by decide)]
  unfold ScatterDims.resultIdx?
  constructor
  · intro h
    split at h
    · rename_i hc
      have h' := Option.some.inj h
      have e0 := congrArg Fin.val (congrFun h' (0 : Fin 1))
      have c0 := (hc (0 : Fin 1)).1
      simp only [hs0, hw0] at e0 c0
      have hg : ((ix1 g : S64.Idx) (0 : Fin 1)).val = g.val := rfl
      rw [hg] at e0
      exact (word_toInt_eq _ _ g.isLt).1 (by omega)
    · exact absurd h (by simp)
  · intro hw
    have ht := (word_toInt_eq _ _ g.isLt).2 hw
    have hc : ∀ a : Fin 1, 0 ≤ scatter_S64_S50000x1_S50000_n_0_0_1.start (ix1 n) idx a + scatter_S64_S50000x1_S50000_n_0_0_1.window (ix1 n) a
        ∧ scatter_S64_S50000x1_S50000_n_0_0_1.start (ix1 n) idx a + scatter_S64_S50000x1_S50000_n_0_0_1.window (ix1 n) a < S64.size a := by
      intro a
      match a with
      | ⟨0, _⟩ =>
        show 0 ≤ scatter_S64_S50000x1_S50000_n_0_0_1.start (ix1 n) idx (0 : Fin 1) + scatter_S64_S50000x1_S50000_n_0_0_1.window (ix1 n) (0 : Fin 1) ∧ scatter_S64_S50000x1_S50000_n_0_0_1.start (ix1 n) idx (0 : Fin 1) + scatter_S64_S50000x1_S50000_n_0_0_1.window (ix1 n) (0 : Fin 1) < ((64 : ℕ) : ℤ)
        rw [hs0, hw0, ht]; have := g.isLt; omega
    rw [dif_pos hc]
    congr 1
    funext a
    refine Fin.ext ?_
    match a with
    | ⟨0, _⟩ =>
      show (scatter_S64_S50000x1_S50000_n_0_0_1.start (ix1 n) idx (0 : Fin 1) + scatter_S64_S50000x1_S50000_n_0_0_1.window (ix1 n) (0 : Fin 1)).toNat = g.val
      rw [hs0, hw0, ht]; omega

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The column of graph words both scatters read: row n's word. -/
theorem v88_at (x2 : (⟨S50000, .i32⟩ : BufTy).Contents (Elt Ideal)) (n : Fin 50000) :
    val_main_v88 (F := Ideal) x2 (ix2 n 0) = x2 (ix1 n) := by
  rw [val_main_v88_apply]
  congr 1
  funext a
  match a with
  | ⟨0, _⟩ => rfl
theorem v92_at (x2 : (⟨S50000, .i32⟩ : BufTy).Contents (Elt Ideal)) (n : Fin 50000) :
    val_main_v92 (F := Ideal) x2 (ix2 n 0) = x2 (ix1 n) := by
  rw [val_main_v92_apply]
  congr 1
  funext a
  match a with
  | ⟨0, _⟩ => rfl

/-- The per-graph SUMS: entry (g, f) is the sum over the rows of graph g of feature f of the third layer's output. -/
theorem sums_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (g : Fin 64) (f : Fin 128) :
    val_main_v89 (F := Ideal) x0 x1 x2 x3 x4 x5 x6 x7 x8 x9 x10 x11 (ix2 g f)
      = ∑ n : Fin 50000, Spec.ind (fun n => x2 (ix1 n)) g n * val_main_v86 (F := Ideal) x0 x1 x3 x4 x5 x6 x7 x8 x9 x10 x11 (ix2 n f) := by
  unfold val_main_v89
  generalize val_main_v86 (F := Ideal) x0 x1 x3 x4 x5 x6 x7 x8 x9 x10 x11 = V
  unfold Host.scatterAdd
  rw [Ideal.hostScatterAdd_def]
  unfold Ideal.hostScatterAdd
  rw [val_main_v87_apply, val_main_cst_16_apply, Ideal.ofBits_def, Ideal.ofBits_zero_f32, zero_add]
  rw [Finset.sum_filter, sum_idx2]
  refine Finset.sum_congr rfl fun n _ => ?_
  simp only [sums_resultIdx, v88_at]
  unfold Spec.ind
  by_cases hq : x2 (ix1 n) = BitVec.ofNat 32 g.val
  · simp only [hq, and_true, if_true, one_mul, Finset.sum_ite_eq', Finset.mem_univ]
  · simp only [hq, and_false, if_false, zero_mul, Finset.sum_const_zero]

/-- The per-graph COUNTS: entry g is the number of rows of graph g (as a sum of ones). -/
theorem counts_apply (x2 : (⟨S50000, .i32⟩ : BufTy).Contents (Elt Ideal)) (g : Fin 64) :
    val_main_v93 (F := Ideal) x2 (ix1 g) = ∑ n : Fin 50000, Spec.ind (fun n => x2 (ix1 n)) g n * 1 := by
  unfold val_main_v93
  unfold Host.scatterAdd
  rw [Ideal.hostScatterAdd_def]
  unfold Ideal.hostScatterAdd
  rw [val_main_v91_apply, val_main_cst_18_apply, Ideal.ofBits_def, Ideal.ofBits_zero_f32, zero_add]
  rw [Finset.sum_filter, sum_idx1]
  refine Finset.sum_congr rfl fun n _ => ?_
  simp only [counts_resultIdx, v92_at]
  rw [val_main_v90_apply, val_main_cst_17_apply, Ideal.ofBits_def, Ideal.ofBits_one_f32]
  unfold Spec.ind
  by_cases hq : x2 (ix1 n) = BitVec.ofNat 32 g.val
  · simp only [hq, if_true, one_mul]
  · simp only [hq, if_false, zero_mul]

/-- THE REFERENCE'S RESULT: the mean pool of the third layer's output over the graphs. -/
theorem pool_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S128, .f32⟩ : BufTy).Contents (Elt Ideal)) (x5 : (⟨S128x64, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (g : Fin 64) (f : Fin 128) :
    val_main_v98 (F := Ideal) x0 x1 x2 x3 x4 x5 x6 x7 x8 x9 x10 x11 (ix2 g f)
      = Spec.pool (fun n f => val_main_v86 (F := Ideal) x0 x1 x3 x4 x5 x6 x7 x8 x9 x10 x11 (ix2 n f)) (fun n => x2 (ix1 n)) g f := by
  have hi : idx_main_v96 (idx_main_v97 (ix2 g f : S64x128.Idx)) = ix1 g := by
    funext a
    match a with
    | ⟨0, _⟩ => rfl
  rw [val_main_v98_apply, val_main_v97_apply, val_main_v96_apply, val_main_v95_apply, val_main_v94_apply,
    val_main_cst_19_apply, hi, sums_apply, counts_apply]
  simp only [Ideal.hostDivf_def, Ideal.maximumf_def, Ideal.ofBits_def, Ideal.ofBits_one_f32]
  rfl

end Cert.RefVal

end
-- ==== Proof.Bridge.Stages.lean ====
/-
  The per-stage bridge between the two programs, at the ideal values. Each lemma says: if the arrays a region of the
  kernel program finds on entry agree, entry by entry, with the corresponding stages of the reference (the
  neighbourhood sums, the reciprocal of the degree clamped below at one, the layer's input, the two transposed weight
  matrices and the bias row; for the last region the third layer's output and the column of graph words), then the
  array the region leaves behind is the reference's next stage, entry by entry. Both sides have already been read as
  the same specification term (a layer's affine form of the neighbourhood mean, with or without the rectifier; the
  mean pool), so each proof rewrites both sides to that term and identifies the arguments; the one step that is not a
  renaming is that the aggregate times the reciprocal of the clamped degree is the neighbourhood mean.
-/
import proofs.«420400_j39874476376561_3_alg».proof.Proof.KI.LayerVal0
import proofs.«420400_j39874476376561_3_alg».proof.Proof.KI.LayerVal1
import proofs.«420400_j39874476376561_3_alg».proof.Proof.KI.LayerVal2
import proofs.«420400_j39874476376561_3_alg».proof.Proof.KI.PoolVal
import proofs.«420400_j39874476376561_3_alg».proof.Proof.Ref.Layers
import proofs.«420400_j39874476376561_3_alg».proof.Proof.Ref.Pool
import proofs.«420400_j39874476376561_3_alg».proof.Proof.Spec
import Idealize.ShloMosaic.Lib.ValueIdx
import Idealize.ShloMosaic.Lib.IdealHost

noncomputable section

open scoped BigOperators

namespace Cert.Bridge

open Cert.KernelIdeal Cert.KernelIdeal.Gen Cert.KernelIdeal.Hand
open Cert.ReferenceIdeal.Read
open Idealize.ShloMosaic Idealize.ShloMosaic.TcCoe Idealize.ShloMosaic.ValueIdx

/-- Region 0 leaves the reference's first layer in its output array. -/
theorem stage1 (V : (c : Dev nD) → (b : Ref sig .tc) → Buf (Elt Ideal) ((c : Thread nD τ).loc b)) (c : Dev nD)
    (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal))
    (hsum : ∀ (n : Fin 50000) (k : Fin 64), V c main_v24 (ix2 n k) = val_main_v13 (F := Ideal) x0 x1 (ix2 n k))
    (hinv : ∀ (n : Fin 50000), V c main_v12 (ix2 n 0) = Ideal.div 1 (max (val_main_v17 (F := Ideal) x1 (ix1 n) : EReal) 1))
    (hx : ∀ (n : Fin 50000) (k : Fin 64), V c main_v13 (ix2 n k) = x0 (ix2 n k))
    (hwl : ∀ (k : Fin 64) (o : Fin 128), V c main_v25 (ix2 k o) = val_main_v23 (F := Ideal) x3 (ix2 k o))
    (hwr : ∀ (k : Fin 64) (o : Fin 128), V c main_v26 (ix2 k o) = val_main_v28 (F := Ideal) x5 (ix2 k o))
    (hb : ∀ (o : Fin 128), V c main_v27 (ix2 0 o) = x4 (ix1 o)) :
    ∀ (n : Fin 50000) (o : Fin 128), (dat0 (F := Ideal) V c).arrAt 6 cfg0.N (ix2 n o) = val_main_v31 (F := Ideal) x0 x1 x3 x4 x5 (ix2 n o) := by
  intro n o
  have hm : (fun (n : Fin 50000) (k : Fin 64) => @HMul.hMul EReal EReal EReal instHMul (V c main_v24 (ix2 n k)) (V c main_v12 (ix2 n 0)))
      = Spec.mean (fun n k => val_main_v13 (F := Ideal) x0 x1 (ix2 n k)) (fun n => val_main_v17 (F := Ideal) x1 (ix1 n)) := by
    funext n k
    rw [hsum, hinv]
    exact Spec.mean_eq_mul (fun n k => val_main_v13 (F := Ideal) x0 x1 (ix2 n k)) (fun n => val_main_v17 (F := Ideal) x1 (ix1 n)) n k
  rw [Cert.KernelIdeal.Hand.layer0_apply, Cert.RefVal.layer1_apply, hm]
  simp only [hx, hwl, hwr, hb]

/-- Region 1 leaves the reference's second layer in its output array. -/
theorem stage2 (V : (c : Dev nD) → (b : Ref sig .tc) → Buf (Elt Ideal) ((c : Thread nD τ).loc b)) (c : Dev nD)
    (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal))
    (hsum : ∀ (n : Fin 50000) (k : Fin 128), V c main_v39 (ix2 n k) = val_main_v41 (F := Ideal) x0 x1 x3 x4 x5 (ix2 n k))
    (hinv : ∀ (n : Fin 50000), V c main_v12 (ix2 n 0) = Ideal.div 1 (max (val_main_v45 (F := Ideal) x1 (ix1 n) : EReal) 1))
    (hx : ∀ (n : Fin 50000) (k : Fin 128), V c main_v28 (ix2 n k) = val_main_v31 (F := Ideal) x0 x1 x3 x4 x5 (ix2 n k))
    (hwl : ∀ (k : Fin 128) (o : Fin 128), V c main_v40 (ix2 k o) = val_main_v51 (F := Ideal) x6 (ix2 k o))
    (hwr : ∀ (k : Fin 128) (o : Fin 128), V c main_v41 (ix2 k o) = val_main_v56 (F := Ideal) x8 (ix2 k o))
    (hb : ∀ (o : Fin 128), V c main_v42 (ix2 0 o) = x7 (ix1 o)) :
    ∀ (n : Fin 50000) (o : Fin 128), (dat1 (F := Ideal) V c).arrAt 6 cfg1.N (ix2 n o) = val_main_v59 (F := Ideal) x0 x1 x3 x4 x5 x6 x7 x8 (ix2 n o) := by
  intro n o
  have hm : (fun (n : Fin 50000) (k : Fin 128) => @HMul.hMul EReal EReal EReal instHMul (V c main_v39 (ix2 n k)) (V c main_v12 (ix2 n 0)))
      = Spec.mean (fun n k => val_main_v41 (F := Ideal) x0 x1 x3 x4 x5 (ix2 n k)) (fun n => val_main_v45 (F := Ideal) x1 (ix1 n)) := by
    funext n k
    rw [hsum, hinv]
    exact Spec.mean_eq_mul (fun n k => val_main_v41 (F := Ideal) x0 x1 x3 x4 x5 (ix2 n k)) (fun n => val_main_v45 (F := Ideal) x1 (ix1 n)) n k
  rw [Cert.KernelIdeal.Hand.layer1_apply, Cert.RefVal.layer2_apply, hm]
  simp only [hx, hwl, hwr, hb]

/-- Region 2 leaves the reference's third layer (no rectifier) in its output array. -/
theorem stage3 (V : (c : Dev nD) → (b : Ref sig .tc) → Buf (Elt Ideal) ((c : Thread nD τ).loc b)) (c : Dev nD)
    (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal))
    (hsum : ∀ (n : Fin 50000) (k : Fin 128), V c main_v54 (ix2 n k) = val_main_v69 (F := Ideal) x0 x1 x3 x4 x5 x6 x7 x8 (ix2 n k))
    (hinv : ∀ (n : Fin 50000), V c main_v12 (ix2 n 0) = Ideal.div 1 (max (val_main_v73 (F := Ideal) x1 (ix1 n) : EReal) 1))
    (hx : ∀ (n : Fin 50000) (k : Fin 128), V c main_v43 (ix2 n k) = val_main_v59 (F := Ideal) x0 x1 x3 x4 x5 x6 x7 x8 (ix2 n k))
    (hwl : ∀ (k : Fin 128) (o : Fin 128), V c main_v55 (ix2 k o) = val_main_v79 (F := Ideal) x9 (ix2 k o))
    (hwr : ∀ (k : Fin 128) (o : Fin 128), V c main_v56 (ix2 k o) = val_main_v84 (F := Ideal) x11 (ix2 k o))
    (hb : ∀ (o : Fin 128), V c main_v57 (ix2 0 o) = x10 (ix1 o)) :
    ∀ (n : Fin 50000) (o : Fin 128), (dat2 (F := Ideal) V c).arrAt 6 cfg2.N (ix2 n o) = val_main_v86 (F := Ideal) x0 x1 x3 x4 x5 x6 x7 x8 x9 x10 x11 (ix2 n o) := by
  intro n o
  have hm : (fun (n : Fin 50000) (k : Fin 128) => @HMul.hMul EReal EReal EReal instHMul (V c main_v54 (ix2 n k)) (V c main_v12 (ix2 n 0)))
      = Spec.mean (fun n k => val_main_v69 (F := Ideal) x0 x1 x3 x4 x5 x6 x7 x8 (ix2 n k)) (fun n => val_main_v73 (F := Ideal) x1 (ix1 n)) := by
    funext n k
    rw [hsum, hinv]
    exact Spec.mean_eq_mul (fun n k => val_main_v69 (F := Ideal) x0 x1 x3 x4 x5 x6 x7 x8 (ix2 n k)) (fun n => val_main_v73 (F := Ideal) x1 (ix1 n)) n k
  rw [Cert.KernelIdeal.Hand.layer2_apply, Cert.RefVal.layer3_apply, hm]
  simp only [hx, hwl, hwr, hb]

/-- Region 3 leaves the reference's result, the mean pool, in its output array. -/
theorem stage4 (V : (c : Dev nD) → (b : Ref sig .tc) → Buf (Elt Ideal) ((c : Thread nD τ).loc b)) (c : Dev nD)
    (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal))
    (hh : ∀ (n : Fin 50000) (f : Fin 128), V c main_v58 (ix2 n f) = val_main_v86 (F := Ideal) x0 x1 x3 x4 x5 x6 x7 x8 x9 x10 x11 (ix2 n f))
    (hb : ∀ (n : Fin 50000), V c main_v59 (ix2 n 0) = x2 (ix1 n)) :
    ∀ (g : Fin 64) (f : Fin 128), (dat3 (F := Ideal) V c).arrAt 2 cfg3.N (ix2 g f) = val_main_v98 (F := Ideal) x0 x1 x2 x3 x4 x5 x6 x7 x8 x9 x10 x11 (ix2 g f) := by
  intro g f
  rw [Cert.KernelIdeal.Hand.pool_apply, Cert.RefVal.pool_apply]
  simp only [hh, hb]

end Cert.Bridge

end
-- ==== Proof.KI.HostVal.lean ====
/- What the host stretches between the kernel regions leave in the arrays the regions stage, read off an arbitrary
   valuation W of the buffers at the stretch's entry, over the extended reals: the neighbourhood sums (a gather of
   the source rows scattered onto the destination rows), the reciprocal of the clamped in-degree, the transposed
   weight matrices, the bias rows and the graph ids; then the same at an index, with the narrowing and widening
   casts gone (over the extended reals they change nothing). -/
import proofs.«420400_j39874476376561_3_alg».proof.Proof.Gen.KernelIdeal.Regions
import proofs.«420400_j39874476376561_3_alg».proof.Proof.Spec
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe
open Idealize.ShloMosaic.StableHlo (after)

/-! ## The edge list's two rows, as index columns -/

/-- Row 0 of the edge list: each edge's source node. -/
def srcRow (e : S2x800000.Idx → BitVec 32) : S800000.Idx → BitVec 32 :=
  shapeCast S800000 (extractStridedSlice S1x800000 ![0, 0] e slices_S2x800000_S1x800000_0_0) shapeCasts_S1x800000_S800000

/-- Row 1 of the edge list: each edge's destination node. -/
def dstRow (e : S2x800000.Idx → BitVec 32) : S800000.Idx → BitVec 32 :=
  shapeCast S800000 (extractStridedSlice S1x800000 ![1, 0] e slices_S2x800000_S1x800000_1_0) shapeCasts_S1x800000_S800000

/-- A gather index wrapped into range: a negative index counts from the end of the 50000 rows. -/
def wrapIdx (v : S800000.Idx → BitVec 32) : S800000.Idx → BitVec 32 :=
  select (cmpi .slt v (broadcastInDim S800000 ![] bcast_S_S800000 (constantI S_ 32 0#32)))
    (addi v (broadcastInDim S800000 ![] bcast_S_S800000 (constantI S_ 32 50000#32))) v

/-- A vector of edges as a one-column matrix, the form the gather and the scatter take their indices in. -/
def colOf (v : S800000.Idx → BitVec 32) : S800000x1.Idx → BitVec 32 :=
  broadcastInDim S800000x1 ![0] bcast_S800000_S800000x1_0 v

/-- The gather's index column from the source row, and the scatter's from the destination row. -/
def srcIdx (v1 : S800000.Idx → BitVec 32) : S800000x1.Idx → BitVec 32 := colOf (wrapIdx v1)
def dstIdx (v3 : S800000.Idx → BitVec 32) : S800000x1.Idx → BitVec 32 := colOf v3

/-! ## Constant arrays -/

def zerosN : S50000.Idx → EReal := broadcastInDim S50000 ![] bcast_S_S50000 (constant (F := Ideal) S_ .f32 0x00000000#32)
def onesN : S50000.Idx → EReal := broadcastInDim S50000 ![] bcast_S_S50000 (constant (F := Ideal) S_ .f32 0x3F800000#32)
def onesE : S800000.Idx → EReal := broadcastInDim S800000 ![] bcast_S_S800000 (constant (F := Ideal) S_ .f32 0x3F800000#32)
def zeros64 : S50000x64.Idx → EReal := broadcastInDim S50000x64 ![] bcast_S_S50000x64 (constant (F := Ideal) S_ .f32 0x00000000#32)
def zeros128 : S50000x128.Idx → EReal := broadcastInDim S50000x128 ![] bcast_S_S50000x128 (constant (F := Ideal) S_ .f32 0x00000000#32)

/-- The in-degree of every node: ones scattered onto the destination rows. -/
def cntOf (v3 : S800000.Idx → BitVec 32) : S50000.Idx → EReal :=
  Host.scatterAdd (F := Ideal) (φ := .f32) scatter_S50000_S800000x1_S800000_n_0_0_1 zerosN (dstIdx v3) onesE

/-- The reciprocal of the in-degree clamped below at one, as a column. -/
def invCntOf (v3 : S800000.Idx → BitVec 32) : S50000x1.Idx → EReal :=
  shapeCast S50000x1 (Host.divf (F := Ideal) (φ := .f32) onesN (maximumf (F := Ideal) (φ := .f32) (cntOf v3) onesN)) shapeCasts_S50000_S50000x1

variable (W : Valuation τ sig (Elt Ideal))

/-! ## The first stretch: the edge rows, the in-degree, the first layer's neighbourhood sums and weights -/

theorem srcRow0_eq : (after hostOps0 W main_v1 : S800000.Idx → BitVec 32) = srcRow (W main_arg1) := by
  after_results <;> rfl

theorem dstRow0_eq : (after hostOps0 W main_v3 : S800000.Idx → BitVec 32) = dstRow (W main_arg1) := by
  after_results <;> rfl

theorem xRoot0_eq : (after hostOps0 W main_v13 : S50000x64.Idx → EReal)
    = truncf (F := Ideal) .bf16 (W main_arg0 : S50000x64.Idx → EReal) bitsLt_bf16_f32 := by
  after_results <;> rfl

set_option maxHeartbeats 4000000 in
theorem invCnt0_eq : (after hostOps0 W main_v12 : S50000x1.Idx → EReal) = invCntOf (dstRow (W main_arg1)) := by
  after_results <;> rfl

set_option maxHeartbeats 4000000 in
theorem aggOf0_eq : (after hostOps0 W main_v24 : S50000x64.Idx → EReal)
    = Host.scatterAdd (F := Ideal) (φ := .f32) scatter_S50000x64_S800000x1_S800000x64_1_0_0_1 zeros64 (dstIdx (dstRow (W main_arg1)))
        (extf (F := Ideal) .f32 (Host.gather gather_S50000x64_S800000x1_S800000x64_1_0_n_n_0_1_164
          (truncf (F := Ideal) .bf16 (W main_arg0 : S50000x64.Idx → EReal) bitsLt_bf16_f32) (srcIdx (srcRow (W main_arg1)))) bitsLt_bf16_f32) := by
  after_results <;> rfl

theorem wlT0_eq : (after hostOps0 W main_v25 : S64x128.Idx → EReal)
    = transpose S64x128 [1, 0] (W main_arg3 : S128x64.Idx → EReal) transposes_S128x64_S64x128_1_0 := by
  after_results <;> rfl

theorem wrT0_eq : (after hostOps0 W main_v26 : S64x128.Idx → EReal)
    = transpose S64x128 [1, 0] (W main_arg5 : S128x64.Idx → EReal) transposes_S128x64_S64x128_1_0 := by
  after_results <;> rfl

theorem bias0_eq : (after hostOps0 W main_v27 : S1x128.Idx → EReal)
    = shapeCast S1x128 (W main_arg4 : S128.Idx → EReal) shapeCasts_S128_S1x128 := by
  after_results <;> rfl

/-! ## The second stretch: the second layer's neighbourhood sums and weights -/

set_option maxHeartbeats 4000000 in
theorem aggOf1_eq : (after hostOps1 W main_v39 : S50000x128.Idx → EReal)
    = Host.scatterAdd (F := Ideal) (φ := .f32) scatter_S50000x128_S800000x1_S800000x128_1_0_0_1 zeros128 (dstIdx (W main_v3))
        (extf (F := Ideal) .f32 (Host.gather gather_S50000x128_S800000x1_S800000x128_1_0_n_n_0_1_1128
          (W main_v28 : S50000x128.Idx → EReal) (srcIdx (W main_v1))) bitsLt_bf16_f32) := by
  after_results <;> rfl

theorem wlT1_eq : (after hostOps1 W main_v40 : S128x128.Idx → EReal)
    = transpose S128x128 [1, 0] (W main_arg6 : S128x128.Idx → EReal) transposes_S128x128_S128x128_1_0 := by
  after_results <;> rfl

theorem wrT1_eq : (after hostOps1 W main_v41 : S128x128.Idx → EReal)
    = transpose S128x128 [1, 0] (W main_arg8 : S128x128.Idx → EReal) transposes_S128x128_S128x128_1_0 := by
  after_results <;> rfl

theorem bias1_eq : (after hostOps1 W main_v42 : S1x128.Idx → EReal)
    = shapeCast S1x128 (W main_arg7 : S128.Idx → EReal) shapeCasts_S128_S1x128 := by
  after_results <;> rfl

/-- A buffer the second stretch does not write keeps its contents. -/
theorem keeps1 (r : Ref sig .tc) (h : r ∉ hostOps1_W) : after hostOps1 W r = W r :=
  StableHlo.after_of_writes_sub hostOps1 W hostOps1_writes h

theorem keeps1_h : after hostOps1 W main_v28 = W main_v28 := keeps1 W main_v28 (by decide)
theorem keeps1_invCnt : after hostOps1 W main_v12 = W main_v12 := keeps1 W main_v12 (by decide)
theorem keeps1_srcRow : after hostOps1 W main_v1 = W main_v1 := keeps1 W main_v1 (by decide)
theorem keeps1_dstRow : after hostOps1 W main_v3 = W main_v3 := keeps1 W main_v3 (by decide)

/-! ## The third stretch: the third layer's neighbourhood sums and weights -/

set_option maxHeartbeats 4000000 in
theorem aggOf2_eq : (after hostOps2 W main_v54 : S50000x128.Idx → EReal)
    = Host.scatterAdd (F := Ideal) (φ := .f32) scatter_S50000x128_S800000x1_S800000x128_1_0_0_1 zeros128 (dstIdx (W main_v3))
        (extf (F := Ideal) .f32 (Host.gather gather_S50000x128_S800000x1_S800000x128_1_0_n_n_0_1_1128
          (W main_v43 : S50000x128.Idx → EReal) (srcIdx (W main_v1))) bitsLt_bf16_f32) := by
  after_results <;> rfl

theorem wlT2_eq : (after hostOps2 W main_v55 : S128x128.Idx → EReal)
    = transpose S128x128 [1, 0] (W main_arg9 : S128x128.Idx → EReal) transposes_S128x128_S128x128_1_0 := by
  after_results <;> rfl

theorem wrT2_eq : (after hostOps2 W main_v56 : S128x128.Idx → EReal)
    = transpose S128x128 [1, 0] (W main_arg11 : S128x128.Idx → EReal) transposes_S128x128_S128x128_1_0 := by
  after_results <;> rfl

theorem bias2_eq : (after hostOps2 W main_v57 : S1x128.Idx → EReal)
    = shapeCast S1x128 (W main_arg10 : S128.Idx → EReal) shapeCasts_S128_S1x128 := by
  after_results <;> rfl

/-- A buffer the third stretch does not write keeps its contents. -/
theorem keeps2 (r : Ref sig .tc) (h : r ∉ hostOps2_W) : after hostOps2 W r = W r :=
  StableHlo.after_of_writes_sub hostOps2 W hostOps2_writes h

theorem keeps2_h : after hostOps2 W main_v43 = W main_v43 := keeps2 W main_v43 (by decide)
theorem keeps2_invCnt : after hostOps2 W main_v12 = W main_v12 := keeps2 W main_v12 (by decide)
theorem keeps2_srcRow : after hostOps2 W main_v1 = W main_v1 := keeps2 W main_v1 (by decide)
theorem keeps2_dstRow : after hostOps2 W main_v3 = W main_v3 := keeps2 W main_v3 (by decide)

/-! ## The last stretch: the graph ids as a column -/

theorem batchCol_eq : (after hostOps3 W main_v59 : S50000x1.Idx → BitVec 32)
    = shapeCast S50000x1 (W main_arg2 : S50000.Idx → BitVec 32) shapeCasts_S50000_S50000x1 := by
  after_results <;> rfl

/-- A buffer the last stretch does not write keeps its contents. -/
theorem keeps3 (r : Ref sig .tc) (h : r ∉ hostOps3_W) : after hostOps3 W r = W r :=
  StableHlo.after_of_writes_sub hostOps3 W hostOps3_writes h

theorem keeps3_h : after hostOps3 W main_v58 = W main_v58 := keeps3 W main_v58 (by decide)

/-- A buffer the first stretch does not write keeps its contents. -/
theorem keeps0 (r : Ref sig .tc) (h : r ∉ hostOps0_W) : after hostOps0 W r = W r :=
  StableHlo.after_of_writes_sub hostOps0 W hostOps0_writes h

/-! ## At an index -/

section AtIndex
open Idealize.ShloMosaic.ValueIdx

/-- Over the extended reals narrowing a value changes nothing, -/
theorem truncf_id {s : Shape} {φ ψ : FTy} (x : FVec Ideal s φ) (h : ψ.bits < φ.bits) :
    (truncf (F := Ideal) ψ x h : s.Idx → EReal) = x := funext fun i => truncf_apply x h i

/-- and neither does widening it. -/
theorem extf_id {s : Shape} {φ ψ : FTy} (x : FVec Ideal s φ) (h : φ.bits < ψ.bits) :
    (extf (F := Ideal) ψ x h : s.Idx → EReal) = x := funext fun i => extf_apply x h i

theorem onesN_apply (i : S50000.Idx) : onesN i = 1 := by
  unfold onesN; rw [broadcastInDim_scalar_apply, constant_apply, Ideal.ofBits_one_f32]

theorem onesE_apply (i : S800000.Idx) : onesE i = 1 := by
  unfold onesE; rw [broadcastInDim_scalar_apply, constant_apply, Ideal.ofBits_one_f32]

theorem zerosN_apply (i : S50000.Idx) : zerosN i = 0 := by
  unfold zerosN; rw [broadcastInDim_scalar_apply, constant_apply, Ideal.ofBits_zero_f32]

theorem zeros64_apply (i : S50000x64.Idx) : zeros64 i = 0 := by
  unfold zeros64; rw [broadcastInDim_scalar_apply, constant_apply, Ideal.ofBits_zero_f32]

theorem zeros128_apply (i : S50000x128.Idx) : zeros128 i = 0 := by
  unfold zeros128; rw [broadcastInDim_scalar_apply, constant_apply, Ideal.ofBits_zero_f32]

/-- A vector cast to a one-column matrix reads, at row n, the vector at n. -/
theorem shapeCast_a_a1_apply {α : Type} {a : ℕ} (x : (⟨1, ![a]⟩ : Shape).Idx → α)
    (h : (⟨1, ![a]⟩ : Shape).ShapeCasts ⟨2, ![a, 1]⟩) (n : Fin a) (u : Fin 1) :
    shapeCast ⟨2, ![a, 1]⟩ x h (ix2 n u) = x (ix1 n) :=
  shapeCast_apply x h _ _ (by
    have hu : u.val = 0 := by omega
    rw [Shape.rowMajor_val_two, Shape.rowMajor_val_one]
    show n.val = n.val * 1 + u.val
    rw [hu, Nat.mul_one, Nat.add_zero])

/-- The reciprocal column at node n: one over the in-degree clamped below at one. -/
theorem invCnt_apply (v3 : S800000.Idx → BitVec 32) (n : Fin 50000) :
    invCntOf v3 (ix2 n (0 : Fin 1)) = Ideal.div 1 (max (cntOf v3 (ix1 n)) 1) := by
  unfold invCntOf
  rw [shapeCast_a_a1_apply, hostDivf_apply, maximumf_apply, onesN_apply]

/-- A one-column index matrix reads, at row j, the vector at j. -/
theorem colOf_apply (v : S800000.Idx → BitVec 32) (j : Fin 800000) (u : Fin 1) : colOf v (ix2 j u) = v (ix1 j) := by
  unfold colOf
  exact broadcastInDim_apply _ _ v _ _ (fun a => match a with | ⟨0, _⟩ => rfl)

/-- The first layer's transposed weights at (k, o) are the weights at (o, k). -/
theorem wT64_apply (w : S128x64.Idx → EReal) (k : Fin 64) (o : Fin 128) :
    transpose S64x128 [1, 0] w transposes_S128x64_S64x128_1_0 (ix2 k o) = w (ix2 o k) :=
  transpose_ix2_apply w _ k o

/-- The later layers' transposed weights at (k, o) are the weights at (o, k). -/
theorem wT128_apply (w : S128x128.Idx → EReal) (k : Fin 128) (o : Fin 128) :
    transpose S128x128 [1, 0] w transposes_S128x128_S128x128_1_0 (ix2 k o) = w (ix2 o k) :=
  transpose_ix2_apply w _ k o

/-- The bias row at (0, o) is the bias at o. -/
theorem biasRow_apply (b : S128.Idx → EReal) (u : Fin 1) (o : Fin 128) :
    shapeCast S1x128 b shapeCasts_S128_S1x128 (ix2 u o) = b (ix1 o) :=
  shapeCast_a_1a_apply b _ u o

/-- The graph-id column at (n, 0) is the graph id of node n. -/
theorem batchCol_apply (b : S50000.Idx → BitVec 32) (n : Fin 50000) (u : Fin 1) :
    shapeCast S50000x1 b shapeCasts_S50000_S50000x1 (ix2 n u) = b (ix1 n) :=
  shapeCast_a_a1_apply b _ n u

/-! ### The stretches' arrays at an index, casts gone -/

theorem invCnt0_apply (n : Fin 50000) :
    (after hostOps0 W main_v12 : S50000x1.Idx → EReal) (ix2 n (0 : Fin 1))
      = Ideal.div 1 (max (cntOf (dstRow (W main_arg1)) (ix1 n)) 1) := by
  rw [invCnt0_eq, invCnt_apply]

theorem xRoot0_id : (after hostOps0 W main_v13 : S50000x64.Idx → EReal) = (W main_arg0 : S50000x64.Idx → EReal) := by
  rw [xRoot0_eq]; exact truncf_id _ _

theorem aggOf0_id : (after hostOps0 W main_v24 : S50000x64.Idx → EReal)
    = Host.scatterAdd (F := Ideal) (φ := .f32) scatter_S50000x64_S800000x1_S800000x64_1_0_0_1 zeros64 (dstIdx (dstRow (W main_arg1)))
        (Host.gather gather_S50000x64_S800000x1_S800000x64_1_0_n_n_0_1_164 (W main_arg0 : S50000x64.Idx → EReal) (srcIdx (srcRow (W main_arg1)))) := by
  rw [aggOf0_eq, extf_id, truncf_id]

theorem aggOf1_id : (after hostOps1 W main_v39 : S50000x128.Idx → EReal)
    = Host.scatterAdd (F := Ideal) (φ := .f32) scatter_S50000x128_S800000x1_S800000x128_1_0_0_1 zeros128 (dstIdx (W main_v3))
        (Host.gather gather_S50000x128_S800000x1_S800000x128_1_0_n_n_0_1_1128 (W main_v28 : S50000x128.Idx → EReal) (srcIdx (W main_v1))) := by
  rw [aggOf1_eq, extf_id]

theorem aggOf2_id : (after hostOps2 W main_v54 : S50000x128.Idx → EReal)
    = Host.scatterAdd (F := Ideal) (φ := .f32) scatter_S50000x128_S800000x1_S800000x128_1_0_0_1 zeros128 (dstIdx (W main_v3))
        (Host.gather gather_S50000x128_S800000x1_S800000x128_1_0_n_n_0_1_1128 (W main_v43 : S50000x128.Idx → EReal) (srcIdx (W main_v1))) := by
  rw [aggOf2_eq, extf_id]

theorem wlT0_apply (k : Fin 64) (o : Fin 128) :
    (after hostOps0 W main_v25 : S64x128.Idx → EReal) (ix2 k o) = (W main_arg3 : S128x64.Idx → EReal) (ix2 o k) := by
  rw [wlT0_eq, wT64_apply]
theorem wrT0_apply (k : Fin 64) (o : Fin 128) :
    (after hostOps0 W main_v26 : S64x128.Idx → EReal) (ix2 k o) = (W main_arg5 : S128x64.Idx → EReal) (ix2 o k) := by
  rw [wrT0_eq, wT64_apply]
theorem bias0_apply (u : Fin 1) (o : Fin 128) :
    (after hostOps0 W main_v27 : S1x128.Idx → EReal) (ix2 u o) = (W main_arg4 : S128.Idx → EReal) (ix1 o) := by
  rw [bias0_eq, biasRow_apply]

theorem wlT1_apply (k o : Fin 128) :
    (after hostOps1 W main_v40 : S128x128.Idx → EReal) (ix2 k o) = (W main_arg6 : S128x128.Idx → EReal) (ix2 o k) := by
  rw [wlT1_eq, wT128_apply]
theorem wrT1_apply (k o : Fin 128) :
    (after hostOps1 W main_v41 : S128x128.Idx → EReal) (ix2 k o) = (W main_arg8 : S128x128.Idx → EReal) (ix2 o k) := by
  rw [wrT1_eq, wT128_apply]
theorem bias1_apply (u : Fin 1) (o : Fin 128) :
    (after hostOps1 W main_v42 : S1x128.Idx → EReal) (ix2 u o) = (W main_arg7 : S128.Idx → EReal) (ix1 o) := by
  rw [bias1_eq, biasRow_apply]

theorem wlT2_apply (k o : Fin 128) :
    (after hostOps2 W main_v55 : S128x128.Idx → EReal) (ix2 k o) = (W main_arg9 : S128x128.Idx → EReal) (ix2 o k) := by
  rw [wlT2_eq, wT128_apply]
theorem wrT2_apply (k o : Fin 128) :
    (after hostOps2 W main_v56 : S128x128.Idx → EReal) (ix2 k o) = (W main_arg11 : S128x128.Idx → EReal) (ix2 o k) := by
  rw [wrT2_eq, wT128_apply]
theorem bias2_apply (u : Fin 1) (o : Fin 128) :
    (after hostOps2 W main_v57 : S1x128.Idx → EReal) (ix2 u o) = (W main_arg10 : S128.Idx → EReal) (ix1 o) := by
  rw [bias2_eq, biasRow_apply]

theorem batchCol3_apply (n : Fin 50000) (u : Fin 1) :
    (after hostOps3 W main_v59 : S50000x1.Idx → BitVec 32) (ix2 n u) = (W main_arg2 : S50000.Idx → BitVec 32) (ix1 n) := by
  rw [batchCol_eq, batchCol_apply]

end AtIndex

end Cert.KernelIdeal.Hand

end
-- ==== Proof.Bridge.Inputs.lean ====
import proofs.«420400_j39874476376561_3_alg».proof.Proof.KI.HostVal
import proofs.«420400_j39874476376561_3_alg».proof.Proof.Ref.Layers
import proofs.«420400_j39874476376561_3_alg».proof.Proof.Spec

/-!
# The two programs feed their layers the same arrays

Both programs prepare a layer's operands by the same host operations: the two rows of the edge
list as index columns (the source row wrapped into range), the gather of the source rows of the
layer's input scattered onto zeros at the destination rows, ones scattered the same way for the
in-degree, and the transposed weights. The two printed programs name their shapes and their
gather and scatter records separately, but the names abbreviate the same literals and the stated
shape relations are proofs, so each pair of arrays below is equal by unfolding both sides.
The bias row and the graph-id column are a reshape on one side and a broadcast on the other:
those two are compared element by element.
-/

noncomputable section

namespace Cert.Bridge

open Cert.ReferenceIdeal.Read Cert.KernelIdeal.Hand Idealize.ShloMosaic Idealize.ShloMosaic.ValueIdx

/-! ## The edge list's index columns and the constant arrays -/

/-- The destination rows as a column: every scatter of the reference takes this one array. -/
theorem dstIdx_v12 (e : Cert.KernelIdeal.S2x800000.Idx → BitVec 32) : dstIdx (dstRow e) = val_main_v12 (F := Ideal) e := rfl
theorem dstIdx_v16 (e : Cert.KernelIdeal.S2x800000.Idx → BitVec 32) : dstIdx (dstRow e) = val_main_v16 (F := Ideal) e := rfl
theorem dstIdx_v40 (e : Cert.KernelIdeal.S2x800000.Idx → BitVec 32) : dstIdx (dstRow e) = val_main_v40 (F := Ideal) e := rfl
theorem dstIdx_v44 (e : Cert.KernelIdeal.S2x800000.Idx → BitVec 32) : dstIdx (dstRow e) = val_main_v44 (F := Ideal) e := rfl
theorem dstIdx_v68 (e : Cert.KernelIdeal.S2x800000.Idx → BitVec 32) : dstIdx (dstRow e) = val_main_v68 (F := Ideal) e := rfl
theorem dstIdx_v72 (e : Cert.KernelIdeal.S2x800000.Idx → BitVec 32) : dstIdx (dstRow e) = val_main_v72 (F := Ideal) e := rfl

/-- The source rows, wrapped into range, as a column: every gather of the reference takes this one array. -/
theorem srcIdx_v9 (e : Cert.KernelIdeal.S2x800000.Idx → BitVec 32) : srcIdx (srcRow e) = val_main_v9 (F := Ideal) e := rfl
theorem srcIdx_v37 (e : Cert.KernelIdeal.S2x800000.Idx → BitVec 32) : srcIdx (srcRow e) = val_main_v37 (F := Ideal) e := rfl
theorem srcIdx_v65 (e : Cert.KernelIdeal.S2x800000.Idx → BitVec 32) : srcIdx (srcRow e) = val_main_v65 (F := Ideal) e := rfl

/-- The rows themselves. -/
theorem srcRow_v1 (e : Cert.KernelIdeal.S2x800000.Idx → BitVec 32) : srcRow e = val_main_v1 (F := Ideal) e := rfl
theorem dstRow_v3 (e : Cert.KernelIdeal.S2x800000.Idx → BitVec 32) : dstRow e = val_main_v3 (F := Ideal) e := rfl

/-- The zero arrays the scatters start from, and the ones they add. -/
theorem zeros64_v11 : zeros64 = val_main_v11 (F := Ideal) := rfl
theorem zeros128_v39 : zeros128 = val_main_v39 (F := Ideal) := rfl
theorem zeros128_v67 : zeros128 = val_main_v67 (F := Ideal) := rfl
theorem zerosN_v15 : zerosN = val_main_v15 (F := Ideal) := rfl
theorem zerosN_v43 : zerosN = val_main_v43 (F := Ideal) := rfl
theorem zerosN_v71 : zerosN = val_main_v71 (F := Ideal) := rfl
theorem onesE_v14 : onesE = val_main_v14 (F := Ideal) := rfl
theorem onesE_v42 : onesE = val_main_v42 (F := Ideal) := rfl
theorem onesE_v70 : onesE = val_main_v70 (F := Ideal) := rfl
theorem onesN_v18 : onesN = val_main_v18 (F := Ideal) := rfl
theorem onesN_v46 : onesN = val_main_v46 (F := Ideal) := rfl
theorem onesN_v74 : onesN = val_main_v74 (F := Ideal) := rfl

/-! ## The neighbourhood sums and the in-degree -/

/-- The first layer's neighbourhood sums of an input `h` over the edge list `e`. -/
theorem agg64_v13 (h : Cert.KernelIdeal.S50000x64.Idx → EReal) (e : Cert.KernelIdeal.S2x800000.Idx → BitVec 32) :
    Host.scatterAdd (F := Ideal) (φ := .f32) Cert.KernelIdeal.scatter_S50000x64_S800000x1_S800000x64_1_0_0_1 zeros64 (dstIdx (dstRow e))
        (Host.gather Cert.KernelIdeal.gather_S50000x64_S800000x1_S800000x64_1_0_n_n_0_1_164 h (srcIdx (srcRow e)))
      = val_main_v13 (F := Ideal) h e := rfl

/-- The later layers' neighbourhood sums of an input `h` over the edge list `e`, as the reference spells them in its second layer. -/
theorem agg128_ref (h : Cert.KernelIdeal.S50000x128.Idx → EReal) (e : Cert.KernelIdeal.S2x800000.Idx → BitVec 32) :
    Host.scatterAdd (F := Ideal) (φ := .f32) Cert.KernelIdeal.scatter_S50000x128_S800000x1_S800000x128_1_0_0_1 zeros128 (dstIdx (dstRow e))
        (Host.gather Cert.KernelIdeal.gather_S50000x128_S800000x1_S800000x128_1_0_n_n_0_1_1128 h (srcIdx (srcRow e)))
      = Host.scatterAdd (F := Ideal) (φ := .f32) Cert.ReferenceIdeal.scatter_S50000x128_S800000x1_S800000x128_1_0_0_1 (val_main_v39 (F := Ideal)) (val_main_v40 (F := Ideal) e)
          (Host.gather Cert.ReferenceIdeal.gather_S50000x128_S800000x1_S800000x128_1_0_n_n_0_1_1128 h (val_main_v37 (F := Ideal) e)) := rfl

/-- The second layer's neighbourhood sums: the sums of the first layer's output. -/
theorem agg128_v41 (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) :
    Host.scatterAdd (F := Ideal) (φ := .f32) Cert.KernelIdeal.scatter_S50000x128_S800000x1_S800000x128_1_0_0_1 zeros128 (dstIdx (dstRow x1))
        (Host.gather Cert.KernelIdeal.gather_S50000x128_S800000x1_S800000x128_1_0_n_n_0_1_1128 (val_main_v31 (F := Ideal) x0 x1 x3 x4 x5) (srcIdx (srcRow x1)))
      = val_main_v41 (F := Ideal) x0 x1 x3 x4 x5 := rfl

/-- The third layer's neighbourhood sums: the sums of the second layer's output. -/
theorem agg128_v69 (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) :
    Host.scatterAdd (F := Ideal) (φ := .f32) Cert.KernelIdeal.scatter_S50000x128_S800000x1_S800000x128_1_0_0_1 zeros128 (dstIdx (dstRow x1))
        (Host.gather Cert.KernelIdeal.gather_S50000x128_S800000x1_S800000x128_1_0_n_n_0_1_1128 (val_main_v59 (F := Ideal) x0 x1 x3 x4 x5 x6 x7 x8) (srcIdx (srcRow x1)))
      = val_main_v69 (F := Ideal) x0 x1 x3 x4 x5 x6 x7 x8 := rfl

/-- The in-degree: one array for all three layers. -/
theorem cnt_v17 (e : Cert.KernelIdeal.S2x800000.Idx → BitVec 32) : cntOf (dstRow e) = val_main_v17 (F := Ideal) e := rfl
theorem cnt_v45 (e : Cert.KernelIdeal.S2x800000.Idx → BitVec 32) : cntOf (dstRow e) = val_main_v45 (F := Ideal) e := rfl
theorem cnt_v73 (e : Cert.KernelIdeal.S2x800000.Idx → BitVec 32) : cntOf (dstRow e) = val_main_v73 (F := Ideal) e := rfl

/-! ## The transposed weights -/

theorem wT64_v23 (w : Cert.KernelIdeal.S128x64.Idx → EReal) :
    transpose Cert.KernelIdeal.S64x128 [1, 0] w Cert.KernelIdeal.Facts₀.transposes_S128x64_S64x128_1_0 = val_main_v23 (F := Ideal) w := rfl
theorem wT64_v28 (w : Cert.KernelIdeal.S128x64.Idx → EReal) :
    transpose Cert.KernelIdeal.S64x128 [1, 0] w Cert.KernelIdeal.Facts₀.transposes_S128x64_S64x128_1_0 = val_main_v28 (F := Ideal) w := rfl
theorem wT128_v51 (w : Cert.KernelIdeal.S128x128.Idx → EReal) :
    transpose Cert.KernelIdeal.S128x128 [1, 0] w Cert.KernelIdeal.Facts₀.transposes_S128x128_S128x128_1_0 = val_main_v51 (F := Ideal) w := rfl
theorem wT128_v56 (w : Cert.KernelIdeal.S128x128.Idx → EReal) :
    transpose Cert.KernelIdeal.S128x128 [1, 0] w Cert.KernelIdeal.Facts₀.transposes_S128x128_S128x128_1_0 = val_main_v56 (F := Ideal) w := rfl
theorem wT128_v79 (w : Cert.KernelIdeal.S128x128.Idx → EReal) :
    transpose Cert.KernelIdeal.S128x128 [1, 0] w Cert.KernelIdeal.Facts₀.transposes_S128x128_S128x128_1_0 = val_main_v79 (F := Ideal) w := rfl
theorem wT128_v84 (w : Cert.KernelIdeal.S128x128.Idx → EReal) :
    transpose Cert.KernelIdeal.S128x128 [1, 0] w Cert.KernelIdeal.Facts₀.transposes_S128x128_S128x128_1_0 = val_main_v84 (F := Ideal) w := rfl

/-! ## The bias row and the graph-id column

One program reshapes the vector, the other broadcasts it along a new axis of extent one; every
element of either is the vector's element at the remaining coordinate. -/

/-- The bias as a one-row matrix. -/
theorem biasRow_v25 (b : Cert.KernelIdeal.S128.Idx → EReal) :
    shapeCast Cert.KernelIdeal.S1x128 b Cert.KernelIdeal.Facts₀.shapeCasts_S128_S1x128 = val_main_v25 (F := Ideal) b := by
  funext j
  obtain ⟨u, o, rfl⟩ : ∃ (u : Fin 1) (o : Fin 128), j = ix2 u o := ⟨j 0, j 1, eq_ix2 j⟩
  rw [biasRow_apply, val_main_v25_apply]
  exact congrArg b (funext fun a => Fin.ext (by match a with | ⟨0, _⟩ => rfl))

/-- The graph ids as a one-column matrix. -/
theorem batchCol_v88 (b : Cert.KernelIdeal.S50000.Idx → BitVec 32) :
    shapeCast Cert.KernelIdeal.S50000x1 b Cert.KernelIdeal.Facts₀.shapeCasts_S50000_S50000x1 = val_main_v88 (F := Ideal) b := by
  funext j
  obtain ⟨n, u, rfl⟩ : ∃ (n : Fin 50000) (u : Fin 1), j = ix2 n u := ⟨j 0, j 1, eq_ix2 j⟩
  rw [batchCol_apply, val_main_v88_apply]
  exact congrArg b (funext fun a => Fin.ext (by match a with | ⟨0, _⟩ => rfl))

/-! ## The regions' operands after each host stretch

What each host stretch of the kernel program leaves in the arrays the next region stages, from
buffer contents `W` that hold the reference's arrays where the stretch reads: element by element
it is the reference's own stage. -/

section stretches
open Cert.KernelIdeal Cert.KernelIdeal.Gen Idealize.ShloMosaic.TcCoe

/-! ### The first stretch -/

theorem in0_sum (W : Valuation Cert.KernelIdeal.τ Cert.KernelIdeal.sig (Elt Ideal)) (x0 : (⟨Cert.ReferenceIdeal.S50000x64, .f32⟩ : BufTy).Contents (Elt Ideal)) (x1 : (⟨Cert.ReferenceIdeal.S2x800000, .i32⟩ : BufTy).Contents (Elt Ideal)) (h0 : W main_arg0 = x0) (h1 : W main_arg1 = x1) :
    ∀ (n : Fin 50000) (k : Fin 64), StableHlo.after hostOps0 W main_v24 (ix2 n k) = val_main_v13 (F := Ideal) x0 x1 (ix2 n k) := by
  intro n k
  subst h0; subst h1
  exact congrFun ((aggOf0_id W).trans (agg64_v13 _ _)) (ix2 n k)

theorem in0_inv (W : Valuation Cert.KernelIdeal.τ Cert.KernelIdeal.sig (Elt Ideal)) (x1 : (⟨Cert.ReferenceIdeal.S2x800000, .i32⟩ : BufTy).Contents (Elt Ideal)) (h1 : W main_arg1 = x1) :
    ∀ (n : Fin 50000), StableHlo.after hostOps0 W main_v12 (ix2 n 0) = Ideal.div 1 (max (val_main_v17 (F := Ideal) x1 (ix1 n) : EReal) 1) := by
  intro n
  subst h1
  exact (invCnt0_apply W n).trans (by rw [cnt_v17])

theorem in0_x (W : Valuation Cert.KernelIdeal.τ Cert.KernelIdeal.sig (Elt Ideal)) (x0 : (⟨Cert.ReferenceIdeal.S50000x64, .f32⟩ : BufTy).Contents (Elt Ideal)) (h0 : W main_arg0 = x0) :
    ∀ (n : Fin 50000) (k : Fin 64), StableHlo.after hostOps0 W main_v13 (ix2 n k) = x0 (ix2 n k) := by
  intro n k
  subst h0
  exact congrFun (xRoot0_id W) (ix2 n k)

theorem in0_wl (W : Valuation Cert.KernelIdeal.τ Cert.KernelIdeal.sig (Elt Ideal)) (x3 : (⟨Cert.ReferenceIdeal.S128x64, .f32⟩ : BufTy).Contents (Elt Ideal)) (h3 : W main_arg3 = x3) :
    ∀ (k : Fin 64) (o : Fin 128), StableHlo.after hostOps0 W main_v25 (ix2 k o) = val_main_v23 (F := Ideal) x3 (ix2 k o) := by
  intro k o
  subst h3
  exact congrFun ((wlT0_eq W).trans (wT64_v23 _)) (ix2 k o)

theorem in0_wr (W : Valuation Cert.KernelIdeal.τ Cert.KernelIdeal.sig (Elt Ideal)) (x5 : (⟨Cert.ReferenceIdeal.S128x64, .f32⟩ : BufTy).Contents (Elt Ideal)) (h5 : W main_arg5 = x5) :
    ∀ (k : Fin 64) (o : Fin 128), StableHlo.after hostOps0 W main_v26 (ix2 k o) = val_main_v28 (F := Ideal) x5 (ix2 k o) := by
  intro k o
  subst h5
  exact congrFun ((wrT0_eq W).trans (wT64_v28 _)) (ix2 k o)

theorem in0_b (W : Valuation Cert.KernelIdeal.τ Cert.KernelIdeal.sig (Elt Ideal)) (x4 : (⟨Cert.ReferenceIdeal.S128, .f32⟩ : BufTy).Contents (Elt Ideal)) (h4 : W main_arg4 = x4) :
    ∀ (o : Fin 128), StableHlo.after hostOps0 W main_v27 (ix2 0 o) = x4 (ix1 o) := by
  intro o
  subst h4
  exact bias0_apply W 0 o

/-- The source row, whole array. -/
theorem in0_v1 (W : Valuation Cert.KernelIdeal.τ Cert.KernelIdeal.sig (Elt Ideal)) (x1 : (⟨Cert.ReferenceIdeal.S2x800000, .i32⟩ : BufTy).Contents (Elt Ideal)) (h1 : W main_arg1 = x1) :
    StableHlo.after hostOps0 W main_v1 = val_main_v1 (F := Ideal) x1 := by
  subst h1
  exact (srcRow0_eq W).trans (srcRow_v1 _)

/-- The destination row, whole array. -/
theorem in0_v3 (W : Valuation Cert.KernelIdeal.τ Cert.KernelIdeal.sig (Elt Ideal)) (x1 : (⟨Cert.ReferenceIdeal.S2x800000, .i32⟩ : BufTy).Contents (Elt Ideal)) (h1 : W main_arg1 = x1) :
    StableHlo.after hostOps0 W main_v3 = val_main_v3 (F := Ideal) x1 := by
  subst h1
  exact (dstRow0_eq W).trans (dstRow_v3 _)

/-! ### The second stretch -/

theorem in1_sum (W : Valuation Cert.KernelIdeal.τ Cert.KernelIdeal.sig (Elt Ideal)) (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal))
    (hv1 : W main_v1 = val_main_v1 (F := Ideal) x1) (hv3 : W main_v3 = val_main_v3 (F := Ideal) x1)
    (hh : ∀ (n : Fin 50000) (k : Fin 128), W main_v28 (ix2 n k) = val_main_v31 (F := Ideal) x0 x1 x3 x4 x5 (ix2 n k)) :
    ∀ (n : Fin 50000) (k : Fin 128), StableHlo.after hostOps1 W main_v39 (ix2 n k) = val_main_v41 (F := Ideal) x0 x1 x3 x4 x5 (ix2 n k) := by
  intro n k
  have hh' : (W main_v28 : Cert.KernelIdeal.S50000x128.Idx → EReal) = val_main_v31 (F := Ideal) x0 x1 x3 x4 x5 :=
    funext fun j => by
      obtain ⟨n', k', rfl⟩ : ∃ (n' : Fin 50000) (k' : Fin 128), j = ix2 n' k' := ⟨j 0, j 1, eq_ix2 j⟩
      exact hh n' k'
  have e : (StableHlo.after hostOps1 W main_v39 : Cert.KernelIdeal.S50000x128.Idx → EReal) = val_main_v41 (F := Ideal) x0 x1 x3 x4 x5 := by
    rw [aggOf1_id W, hv1, hv3, hh']
    exact agg128_v41 x0 x1 x3 x4 x5
  exact congrFun e (ix2 n k)

theorem in1_wl (W : Valuation Cert.KernelIdeal.τ Cert.KernelIdeal.sig (Elt Ideal)) (x6 : (⟨Cert.ReferenceIdeal.S128x128, .f32⟩ : BufTy).Contents (Elt Ideal)) (h6 : W main_arg6 = x6) :
    ∀ (k : Fin 128) (o : Fin 128), StableHlo.after hostOps1 W main_v40 (ix2 k o) = val_main_v51 (F := Ideal) x6 (ix2 k o) := by
  intro k o
  subst h6
  exact congrFun ((wlT1_eq W).trans (wT128_v51 _)) (ix2 k o)

theorem in1_wr (W : Valuation Cert.KernelIdeal.τ Cert.KernelIdeal.sig (Elt Ideal)) (x8 : (⟨Cert.ReferenceIdeal.S128x128, .f32⟩ : BufTy).Contents (Elt Ideal)) (h8 : W main_arg8 = x8) :
    ∀ (k : Fin 128) (o : Fin 128), StableHlo.after hostOps1 W main_v41 (ix2 k o) = val_main_v56 (F := Ideal) x8 (ix2 k o) := by
  intro k o
  subst h8
  exact congrFun ((wrT1_eq W).trans (wT128_v56 _)) (ix2 k o)

theorem in1_b (W : Valuation Cert.KernelIdeal.τ Cert.KernelIdeal.sig (Elt Ideal)) (x7 : (⟨Cert.ReferenceIdeal.S128, .f32⟩ : BufTy).Contents (Elt Ideal)) (h7 : W main_arg7 = x7) :
    ∀ (o : Fin 128), StableHlo.after hostOps1 W main_v42 (ix2 0 o) = x7 (ix1 o) := by
  intro o
  subst h7
  exact bias1_apply W 0 o

/-! ### The third stretch -/

theorem in2_sum (W : Valuation Cert.KernelIdeal.τ Cert.KernelIdeal.sig (Elt Ideal)) (x0 : (⟨Cert.ReferenceIdeal.S50000x64, .f32⟩ : BufTy).Contents (Elt Ideal)) (x1 : (⟨Cert.ReferenceIdeal.S2x800000, .i32⟩ : BufTy).Contents (Elt Ideal)) (x3 : (⟨Cert.ReferenceIdeal.S128x64, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal))
    (hv1 : W main_v1 = val_main_v1 (F := Ideal) x1) (hv3 : W main_v3 = val_main_v3 (F := Ideal) x1)
    (hh : ∀ (n : Fin 50000) (k : Fin 128), W main_v43 (ix2 n k) = val_main_v59 (F := Ideal) x0 x1 x3 x4 x5 x6 x7 x8 (ix2 n k)) :
    ∀ (n : Fin 50000) (k : Fin 128), StableHlo.after hostOps2 W main_v54 (ix2 n k) = val_main_v69 (F := Ideal) x0 x1 x3 x4 x5 x6 x7 x8 (ix2 n k) := by
  intro n k
  have hh' : (W main_v43 : Cert.KernelIdeal.S50000x128.Idx → EReal) = val_main_v59 (F := Ideal) x0 x1 x3 x4 x5 x6 x7 x8 :=
    funext fun j => by
      obtain ⟨n', k', rfl⟩ : ∃ (n' : Fin 50000) (k' : Fin 128), j = ix2 n' k' := ⟨j 0, j 1, eq_ix2 j⟩
      exact hh n' k'
  have e : (StableHlo.after hostOps2 W main_v54 : Cert.KernelIdeal.S50000x128.Idx → EReal) = val_main_v69 (F := Ideal) x0 x1 x3 x4 x5 x6 x7 x8 := by
    rw [aggOf2_id W, hv1, hv3, hh']
    exact agg128_v69 x0 x1 x3 x4 x5 x6 x7 x8
  exact congrFun e (ix2 n k)

theorem in2_wl (W : Valuation Cert.KernelIdeal.τ Cert.KernelIdeal.sig (Elt Ideal)) (x9 : (⟨Cert.ReferenceIdeal.S128x128, .f32⟩ : BufTy).Contents (Elt Ideal)) (h9 : W main_arg9 = x9) :
    ∀ (k : Fin 128) (o : Fin 128), StableHlo.after hostOps2 W main_v55 (ix2 k o) = val_main_v79 (F := Ideal) x9 (ix2 k o) := by
  intro k o
  subst h9
  exact congrFun ((wlT2_eq W).trans (wT128_v79 _)) (ix2 k o)

theorem in2_wr (W : Valuation Cert.KernelIdeal.τ Cert.KernelIdeal.sig (Elt Ideal)) (x11 : (⟨Cert.ReferenceIdeal.S128x128, .f32⟩ : BufTy).Contents (Elt Ideal)) (h11 : W main_arg11 = x11) :
    ∀ (k : Fin 128) (o : Fin 128), StableHlo.after hostOps2 W main_v56 (ix2 k o) = val_main_v84 (F := Ideal) x11 (ix2 k o) := by
  intro k o
  subst h11
  exact congrFun ((wrT2_eq W).trans (wT128_v84 _)) (ix2 k o)

theorem in2_b (W : Valuation Cert.KernelIdeal.τ Cert.KernelIdeal.sig (Elt Ideal)) (x10 : (⟨Cert.ReferenceIdeal.S128, .f32⟩ : BufTy).Contents (Elt Ideal)) (h10 : W main_arg10 = x10) :
    ∀ (o : Fin 128), StableHlo.after hostOps2 W main_v57 (ix2 0 o) = x10 (ix1 o) := by
  intro o
  subst h10
  exact bias2_apply W 0 o

/-! ### The last stretch -/

theorem in3_b (W : Valuation Cert.KernelIdeal.τ Cert.KernelIdeal.sig (Elt Ideal)) (x2 : (⟨Cert.ReferenceIdeal.S50000, .i32⟩ : BufTy).Contents (Elt Ideal)) (h2 : W main_arg2 = x2) :
    ∀ (n : Fin 50000), StableHlo.after hostOps3 W main_v59 (ix2 n 0) = x2 (ix1 n) := by
  intro n
  subst h2
  exact batchCol3_apply W n 0

end stretches

end Cert.Bridge

end
-- ==== Proof.Bridge.Final.lean ====
/-
  The final composition, at the ideal values. The kernel program's run is a chain of buffer contents: the launch
  contents carried through a host stretch, then a region that replaces one array, four times over. Here each
  region's output array is identified with a stage of the reference, in order: the first three are the three
  layers, the fourth the mean pool, which is the reference's result. Each step feeds the previous one into the
  next host stretch (the neighbourhood sums of the layer just computed), carries the two index rows and the
  reciprocal of the clamped degree along unchanged, and reads the weights and biases off the launch contents. The
  last statement compares the two programs' results from launch contents that agree on the twelve arguments.
-/
import proofs.«420400_j39874476376561_3_alg».proof.Proof.KI.Run
import proofs.«420400_j39874476376561_3_alg».proof.Proof.Bridge.Stages
import proofs.«420400_j39874476376561_3_alg».proof.Proof.Bridge.Inputs
import proofs.«420400_j39874476376561_3_alg».proof.Proof.Gen.ReferenceIdeal.Read
import Idealize.ShloMosaic.Lib.ValueIdx
import Idealize.ShloMosaic.Lib.IdealHost

noncomputable section

open scoped BigOperators

namespace Cert.Bridge

open Cert.KernelIdeal Cert.KernelIdeal.Gen Cert.KernelIdeal.Hand
open Cert.ReferenceIdeal.Read
open Idealize.ShloMosaic Idealize.ShloMosaic.TcCoe Idealize.ShloMosaic.ValueIdx

variable (m : (ℓ : Loc nD τ sig) → Buf (Elt Ideal) ℓ) (c : Dev nD)

/-- Argument 0 as launched on core c, read at the reference's array type. -/
abbrev a0 : (⟨Cert.ReferenceIdeal.S50000x64, .f32⟩ : BufTy).Contents (Elt Ideal) := m ((c.tc : Thread nD τ).loc main_arg0)
/-- Argument 1 as launched on core c, read at the reference's array type. -/
abbrev a1 : (⟨Cert.ReferenceIdeal.S2x800000, .i32⟩ : BufTy).Contents (Elt Ideal) := m ((c.tc : Thread nD τ).loc main_arg1)
/-- Argument 2 as launched on core c, read at the reference's array type. -/
abbrev a2 : (⟨Cert.ReferenceIdeal.S50000, .i32⟩ : BufTy).Contents (Elt Ideal) := m ((c.tc : Thread nD τ).loc main_arg2)
/-- Argument 3 as launched on core c, read at the reference's array type. -/
abbrev a3 : (⟨Cert.ReferenceIdeal.S128x64, .f32⟩ : BufTy).Contents (Elt Ideal) := m ((c.tc : Thread nD τ).loc main_arg3)
/-- Argument 4 as launched on core c, read at the reference's array type. -/
abbrev a4 : (⟨Cert.ReferenceIdeal.S128, .f32⟩ : BufTy).Contents (Elt Ideal) := m ((c.tc : Thread nD τ).loc main_arg4)
/-- Argument 5 as launched on core c, read at the reference's array type. -/
abbrev a5 : (⟨Cert.ReferenceIdeal.S128x64, .f32⟩ : BufTy).Contents (Elt Ideal) := m ((c.tc : Thread nD τ).loc main_arg5)
/-- Argument 6 as launched on core c, read at the reference's array type. -/
abbrev a6 : (⟨Cert.ReferenceIdeal.S128x128, .f32⟩ : BufTy).Contents (Elt Ideal) := m ((c.tc : Thread nD τ).loc main_arg6)
/-- Argument 7 as launched on core c, read at the reference's array type. -/
abbrev a7 : (⟨Cert.ReferenceIdeal.S128, .f32⟩ : BufTy).Contents (Elt Ideal) := m ((c.tc : Thread nD τ).loc main_arg7)
/-- Argument 8 as launched on core c, read at the reference's array type. -/
abbrev a8 : (⟨Cert.ReferenceIdeal.S128x128, .f32⟩ : BufTy).Contents (Elt Ideal) := m ((c.tc : Thread nD τ).loc main_arg8)
/-- Argument 9 as launched on core c, read at the reference's array type. -/
abbrev a9 : (⟨Cert.ReferenceIdeal.S128x128, .f32⟩ : BufTy).Contents (Elt Ideal) := m ((c.tc : Thread nD τ).loc main_arg9)
/-- Argument 10 as launched on core c, read at the reference's array type. -/
abbrev a10 : (⟨Cert.ReferenceIdeal.S128, .f32⟩ : BufTy).Contents (Elt Ideal) := m ((c.tc : Thread nD τ).loc main_arg10)
/-- Argument 11 as launched on core c, read at the reference's array type. -/
abbrev a11 : (⟨Cert.ReferenceIdeal.S128x128, .f32⟩ : BufTy).Contents (Elt Ideal) := m ((c.tc : Thread nD τ).loc main_arg11)

/-! ## The carried arrays: the two index rows and the reciprocal of the clamped degree -/

theorem E0_v1_eq : E0 m c main_v1 = val_main_v1 (F := Ideal) (a1 m c) := in0_v1 (V0 m c) (a1 m c) rfl
theorem E0_v3_eq : E0 m c main_v3 = val_main_v3 (F := Ideal) (a1 m c) := in0_v3 (V0 m c) (a1 m c) rfl
theorem X0_v1_eq : X0 m c main_v1 = val_main_v1 (F := Ideal) (a1 m c) := (X0_v1 m c).trans (E0_v1_eq m c)
theorem X0_v3_eq : X0 m c main_v3 = val_main_v3 (F := Ideal) (a1 m c) := (X0_v3 m c).trans (E0_v3_eq m c)
theorem X1_v1_eq : X1 m c main_v1 = val_main_v1 (F := Ideal) (a1 m c) := (X1_v1 m c).trans ((E1_v1 m c).trans (X0_v1_eq m c))
theorem X1_v3_eq : X1 m c main_v3 = val_main_v3 (F := Ideal) (a1 m c) := (X1_v3 m c).trans ((E1_v3 m c).trans (X0_v3_eq m c))

/-- The reference's three degree arrays are one function of the edge list. -/
theorem deg2_eq (x1 : (⟨Cert.ReferenceIdeal.S2x800000, .i32⟩ : BufTy).Contents (Elt Ideal)) : val_main_v45 (F := Ideal) x1 = val_main_v17 (F := Ideal) x1 := rfl
theorem deg3_eq (x1 : (⟨Cert.ReferenceIdeal.S2x800000, .i32⟩ : BufTy).Contents (Elt Ideal)) : val_main_v73 (F := Ideal) x1 = val_main_v17 (F := Ideal) x1 := rfl

theorem inv_E0 (n : Fin 50000) : E0 m c main_v12 (ix2 n 0) = Ideal.div 1 (max (val_main_v17 (F := Ideal) (a1 m c) (ix1 n) : EReal) 1) :=
  in0_inv (V0 m c) (a1 m c) rfl n
theorem inv_E1 (n : Fin 50000) : E1 m c main_v12 (ix2 n 0) = Ideal.div 1 (max (val_main_v45 (F := Ideal) (a1 m c) (ix1 n) : EReal) 1) := by
  rw [E1_v12, X0_v12, deg2_eq]; exact inv_E0 m c n
theorem inv_E2 (n : Fin 50000) : E2 m c main_v12 (ix2 n 0) = Ideal.div 1 (max (val_main_v73 (F := Ideal) (a1 m c) (ix1 n) : EReal) 1) := by
  rw [E2_v12, X1_v12, E1_v12, X0_v12, deg3_eq]; exact inv_E0 m c n

/-! ## The four regions' outputs are the reference's stages -/

/-- Region 0 leaves the reference's first layer. -/
theorem L1 : ∀ (n : Fin 50000) (o : Fin 128), o0 m c (ix2 n o) = val_main_v31 (F := Ideal) (a0 m c) (a1 m c) (a3 m c) (a4 m c) (a5 m c) (ix2 n o) := by
  unfold o0
  exact stage1 (atTc (E0 m)) c (a0 m c) (a1 m c) (a3 m c) (a4 m c) (a5 m c)
    (in0_sum (V0 m c) (a0 m c) (a1 m c) rfl rfl) (inv_E0 m c) (in0_x (V0 m c) (a0 m c) rfl)
    (in0_wl (V0 m c) (a3 m c) rfl) (in0_wr (V0 m c) (a5 m c) rfl) (in0_b (V0 m c) (a4 m c) rfl)

/-- Region 1 leaves the reference's second layer. -/
theorem L2 : ∀ (n : Fin 50000) (o : Fin 128), o1 m c (ix2 n o) = val_main_v59 (F := Ideal) (a0 m c) (a1 m c) (a3 m c) (a4 m c) (a5 m c) (a6 m c) (a7 m c) (a8 m c) (ix2 n o) := by
  have hh : ∀ (n : Fin 50000) (k : Fin 128), X0 m c main_v28 (ix2 n k) = val_main_v31 (F := Ideal) (a0 m c) (a1 m c) (a3 m c) (a4 m c) (a5 m c) (ix2 n k) := fun n k => by
    rw [X0_v28]; exact L1 m c n k
  unfold o1
  exact stage2 (atTc (E1 m)) c (a0 m c) (a1 m c) (a3 m c) (a4 m c) (a5 m c) (a6 m c) (a7 m c) (a8 m c)
    (in1_sum (X0 m c) (a0 m c) (a1 m c) (a3 m c) (a4 m c) (a5 m c) (X0_v1_eq m c) (X0_v3_eq m c) hh) (inv_E1 m c)
    (fun n k => by show E1 m c main_v28 (ix2 n k) = _; rw [E1_v28]; exact hh n k)
    (in1_wl (X0 m c) (a6 m c) ((X0_of_ne m c _ (by decide)).trans <| (E0_of m c _ (by decide))))
    (in1_wr (X0 m c) (a8 m c) ((X0_of_ne m c _ (by decide)).trans <| (E0_of m c _ (by decide))))
    (in1_b (X0 m c) (a7 m c) ((X0_of_ne m c _ (by decide)).trans <| (E0_of m c _ (by decide))))

/-- Region 2 leaves the reference's third layer. -/
theorem L3 : ∀ (n : Fin 50000) (o : Fin 128), o2 m c (ix2 n o) = val_main_v86 (F := Ideal) (a0 m c) (a1 m c) (a3 m c) (a4 m c) (a5 m c) (a6 m c) (a7 m c) (a8 m c) (a9 m c) (a10 m c) (a11 m c) (ix2 n o) := by
  have hh : ∀ (n : Fin 50000) (k : Fin 128), X1 m c main_v43 (ix2 n k) = val_main_v59 (F := Ideal) (a0 m c) (a1 m c) (a3 m c) (a4 m c) (a5 m c) (a6 m c) (a7 m c) (a8 m c) (ix2 n k) := fun n k => by
    rw [X1_v43]; exact L2 m c n k
  unfold o2
  exact stage3 (atTc (E2 m)) c (a0 m c) (a1 m c) (a3 m c) (a4 m c) (a5 m c) (a6 m c) (a7 m c) (a8 m c) (a9 m c) (a10 m c) (a11 m c)
    (in2_sum (X1 m c) (a0 m c) (a1 m c) (a3 m c) (a4 m c) (a5 m c) (a6 m c) (a7 m c) (a8 m c) (X1_v1_eq m c) (X1_v3_eq m c) hh) (inv_E2 m c)
    (fun n k => by show E2 m c main_v43 (ix2 n k) = _; rw [E2_v43]; exact hh n k)
    (in2_wl (X1 m c) (a9 m c) ((X1_of_ne m c _ (by decide)).trans <| (E1_of m c _ (by decide)).trans <| (X0_of_ne m c _ (by decide)).trans <| (E0_of m c _ (by decide))))
    (in2_wr (X1 m c) (a11 m c) ((X1_of_ne m c _ (by decide)).trans <| (E1_of m c _ (by decide)).trans <| (X0_of_ne m c _ (by decide)).trans <| (E0_of m c _ (by decide))))
    (in2_b (X1 m c) (a10 m c) ((X1_of_ne m c _ (by decide)).trans <| (E1_of m c _ (by decide)).trans <| (X0_of_ne m c _ (by decide)).trans <| (E0_of m c _ (by decide))))

/-- Region 3 leaves the reference's result. -/
theorem L4 : ∀ (g : Fin 64) (f : Fin 128), o3 m c (ix2 g f) = val_main_v98 (F := Ideal) (a0 m c) (a1 m c) (a2 m c) (a3 m c) (a4 m c) (a5 m c) (a6 m c) (a7 m c) (a8 m c) (a9 m c) (a10 m c) (a11 m c) (ix2 g f) := by
  unfold o3
  exact stage4 (atTc (E3 m)) c (a0 m c) (a1 m c) (a2 m c) (a3 m c) (a4 m c) (a5 m c) (a6 m c) (a7 m c) (a8 m c) (a9 m c) (a10 m c) (a11 m c)
    (fun n f => by show E3 m c main_v58 (ix2 n f) = _; rw [E3_v58, X2_v58]; exact L3 m c n f)
    (in3_b (X2 m c) (a2 m c) (X2_arg2 m c))

/-- THE TWO PROGRAMS' RESULTS: from launch contents that agree on the twelve arguments, the reference's result array
    is what the kernel program's last region leaves in its output array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) : Cert.ReferenceIdeal.Value.res_main_v98 m' c = Cert.KernelIdeal.Hand.o3 m c := by
  obtain ⟨h0, h1, h2, h3, h4, h5, h6, h7, h8, h9, h10, h11⟩ := hag c
  rw [Cert.ReferenceIdeal.Read.val_main_v98_eq, h0, h1, h2, h3, h4, h5, h6, h7, h8, h9, h10, h11]
  funext j
  obtain ⟨g, f, rfl⟩ : ∃ (g : Fin 64) (f : Fin 128), j = ix2 g f := ⟨j 0, j 1, eq_ix2 j⟩
  exact (L4 m c g f).symm

end Cert.Bridge

end
-- ==== Proof.lean ====
/- The certificate of a three-layer graph-convolution network with a global mean pool, written as four kernel
   launches among host gather / scatter-add stretches, against the plain reference.

   Frames. Each launch is a pipeline over 25 row tiles. The three convolution launches read six windows and
   store the whole output block at every point; the pool launch carries two accumulators — per-graph sums and
   per-graph counts — in scratch buffers, zeroed at the first point, added to at every point, and stores the
   quotient at the last point only. For each launch the body is run once at symbolic contents, the launch's
   protocol is discharged against the contents of the unscoped buffers on entry, and the whole program is the chain
   of host stretches and launches from the launch memory: it terminates, faults nowhere, leaves every argument as
   launched, and leaves in the result array what the pool's single write-back puts there. The same text serves the
   word-level program and the idealized one.

   Values, over the extended reals. A convolution layer at node n and feature o is
   (Σ_k mean n k · Wl k o) + b o + Σ_k x n k · Wr k o, where mean n k is the neighbourhood sum over the in-degree
   clamped below at one: the kernel multiplies by the reciprocal of the clamped degree, computed once, where the
   reference divides — equal because the clamped degree is never zero. The neighbourhood sums and degrees are the
   same gather and scatter-add of the layer's input in both programs and are never opened. The pool: the kernel
   multiplies every row by the indicator of its graph id and adds all rows, tile by tile; the reference's
   scatter-add adds exactly the rows whose id is the graph's; both then divide by the count clamped below at one.
   Sums of extended reals are commutative and associative and 0 · x = 0 for every x, so no finiteness is used. -/
import proofs.«420400_j39874476376561_3_alg».proof.Defs
import proofs.«420400_j39874476376561_3_alg».proof.Proof.Gen.Kernel
import proofs.«420400_j39874476376561_3_alg».proof.Proof.Gen.KernelIdeal
import proofs.«420400_j39874476376561_3_alg».proof.Proof.Gen.ReferenceIdeal
import proofs.«420400_j39874476376561_3_alg».proof.Proof.Gen.Pre_finite_inputs
import proofs.«420400_j39874476376561_3_alg».proof.Proof.Gen.ReferenceIdeal.Run
import proofs.«420400_j39874476376561_3_alg».proof.Proof.Gen.ReferenceIdeal.Read
import proofs.«420400_j39874476376561_3_alg».proof.Proof.K.Run
import proofs.«420400_j39874476376561_3_alg».proof.Proof.KI.Run
import proofs.«420400_j39874476376561_3_alg».proof.Proof.Bridge.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => (h c).2) (Cert.Kernel.Hand.run_main (F := Bits) m ρ),
  fun m ρ _ => (θ_run Cert.KernelIdeal.defs _ _).mono (fun _ h c => (h c).2) (Cert.KernelIdeal.Hand.run_main (F := Ideal) m ρ),
  fun m ρ _ => (θ_run Cert.ReferenceIdeal.defs _ _).mono (fun _ h c => (h c).2) (Cert.ReferenceIdeal.Value.run (F := Ideal) m ρ),
  trivial,
  fun m ρ m' ρ' _ hag => ⟨fun c => Cert.KernelIdeal.Hand.o3 (F := Ideal) m c, Cert.KernelIdeal.Hand.run_main (F := Ideal) m ρ,
    (θ_run Cert.ReferenceIdeal.defs _ _).mono (fun _ h c => ⟨(h c).1.trans (Cert.Bridge.result_eq m m' hag c), (h c).2⟩)
      (Cert.ReferenceIdeal.Value.run (F := Ideal) m' ρ')⟩⟩

end Cert.Proof

end
